-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 4096]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 4096]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S1024x4096 : Shape := ⟨2, ![1024, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel

variable [Facts]

def fn {F : FTy → Type} [FloatOps F] (main_arg0 : FVec F S1024x4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  main_v3
-- ==== Kernel.lean ====
abbrev S1024x512 : Shape := ⟨2, ![1024, 512]⟩
abbrev S8x2x1024 : Shape := ⟨3, ![8, 2, 1024]⟩
abbrev S8 : Shape := ⟨1, ![8]⟩
abbrev S_ : Shape := ⟨0, ![]⟩
abbrev S1024 : Shape := ⟨1, ![1024]⟩
abbrev S1024x1 : Shape := ⟨2, ![1024, 1]⟩
abbrev S1024x2 : Shape := ⟨2, ![1024, 2]⟩
abbrev S2x1024 : Shape := ⟨2, ![2, 1024]⟩
abbrev S1x2x1024 : Shape := ⟨3, ![1, 2, 1024]⟩
abbrev S1 : Shape := ⟨1, ![1]⟩
abbrev S8x1x1024 : Shape := ⟨3, ![8, 1, 1024]⟩
abbrev S1x1024 : Shape := ⟨2, ![1, 1024]⟩
abbrev S1x1x1024 : Shape := ⟨3, ![1, 1, 1024]⟩

abbrev nBuf : Space → Nat
  | .hbm => 2
  | .vmem => 4
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S8x2x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_69 : BitVec 32 := 1#32
  let v109 : BitVec 32 := Scalar.addi v2 c1_i32_69
  let c8_i32_70 : BitVec 32 := 8#32
  let c0_i32_71 : BitVec 32 := 0#32
  let v110 : BitVec 1 := Scalar.cmpi .eq c8_i32_70 c0_i32_71
  let c1_i32_72 : BitVec 32 := 1#32
  let v111 : BitVec 32 := Scalar.select v110 c1_i32_72 c8_i32_70
  let v112 : BitVec 32 := Scalar.remsi v109 v111
  let c0_i32_74 : BitVec 32 := 0#32
  let v114 : BitVec 1 := Scalar.cmpi .slt v112 c0_i32_74
  let c0_i32_75 : BitVec 32 := 0#32
  let v115 : BitVec 1 := Scalar.cmpi .slt v111 c0_i32_75
  let v116 : BitVec 1 := Scalar.xori v114 v115
  let c0_i32_73 : BitVec 32 := 0#32
  let v113 : BitVec 1 := Scalar.cmpi .ne v112 c0_i32_73
  let v117 : BitVec 1 := Scalar.andi v116 v113
  let v118 : BitVec 32 := Scalar.addi v112 v111
  let v119 : BitVec 32 := Scalar.select v117 v118 v112
  let c1_i32_80 : BitVec 32 := 1#32
  let v120 : BitVec 32 := Scalar.muli v119 c1_i32_80
  let v121 : BitVec 32 := Scalar.addi c0_i32_81 v120
  v121.toNat
def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_86 : BitVec 32 := 2#32
  let v130 : BitVec 32 := Scalar.addi v2 c2_i32_86
  let c8_i32_87 : BitVec 32 := 8#32
  let c0_i32_88 : BitVec 32 := 0#32
  let v131 : BitVec 1 := Scalar.cmpi .eq c8_i32_87 c0_i32_88
  let c1_i32_89 : BitVec 32 := 1#32
  let v132 : BitVec 32 := Scalar.select v131 c1_i32_89 c8_i32_87
  let v133 : BitVec 32 := Scalar.remsi v130 v132
  let c0_i32_91 : BitVec 32 := 0#32
  let v135 : BitVec 1 := Scalar.cmpi .slt v133 c0_i32_91
  let c0_i32_92 : BitVec 32 := 0#32
  let v136 : BitVec 1 := Scalar.cmpi .slt v132 c0_i32_92
  let v137 : BitVec 1 := Scalar.xori v135 v136
  let c0_i32_90 : BitVec 32 := 0#32
  let v134 : BitVec 1 := Scalar.cmpi .ne v133 c0_i32_90
  let v138 : BitVec 1 := Scalar.andi v137 v134
  let v139 : BitVec 32 := Scalar.addi v133 v132
  let v140 : BitVec 32 := Scalar.select v138 v139 v133
  let c1_i32_97 : BitVec 32 := 1#32
  let v141 : BitVec 32 := Scalar.muli v140 c1_i32_97
  let v142 : BitVec 32 := Scalar.addi c0_i32_98 v141
  v142.toNat
def k0_dev10 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_103 : BitVec 32 := 3#32
  let v151 : BitVec 32 := Scalar.addi v2 c3_i32_103
  let c8_i32_104 : BitVec 32 := 8#32
  let c0_i32_105 : BitVec 32 := 0#32
  let v152 : BitVec 1 := Scalar.cmpi .eq c8_i32_104 c0_i32_105
  let c1_i32_106 : BitVec 32 := 1#32
  let v153 : BitVec 32 := Scalar.select v152 c1_i32_106 c8_i32_104
  let v154 : BitVec 32 := Scalar.remsi v151 v153
  let c0_i32_108 : BitVec 32 := 0#32
  let v156 : BitVec 1 := Scalar.cmpi .slt v154 c0_i32_108
  let c0_i32_109 : BitVec 32 := 0#32
  let v157 : BitVec 1 := Scalar.cmpi .slt v153 c0_i32_109
  let v158 : BitVec 1 := Scalar.xori v156 v157
  let c0_i32_107 : BitVec 32 := 0#32
  let v155 : BitVec 1 := Scalar.cmpi .ne v154 c0_i32_107
  let v159 : BitVec 1 := Scalar.andi v158 v155
  let v160 : BitVec 32 := Scalar.addi v154 v153
  let v161 : BitVec 32 := Scalar.select v159 v160 v154
  let c1_i32_114 : BitVec 32 := 1#32
  let v162 : BitVec 32 := Scalar.muli v161 c1_i32_114
  let v163 : BitVec 32 := Scalar.addi c0_i32_115 v162
  v163.toNat
def k0_dev11 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_120 : BitVec 32 := 4#32
  let v172 : BitVec 32 := Scalar.addi v2 c4_i32_120
  let c8_i32_121 : BitVec 32 := 8#32
  let c0_i32_122 : BitVec 32 := 0#32
  let v173 : BitVec 1 := Scalar.cmpi .eq c8_i32_121 c0_i32_122
  let c1_i32_123 : BitVec 32 := 1#32
  let v174 : BitVec 32 := Scalar.select v173 c1_i32_123 c8_i32_121
  let v175 : BitVec 32 := Scalar.remsi v172 v174
  let c0_i32_125 : BitVec 32 := 0#32
  let v177 : BitVec 1 := Scalar.cmpi .slt v175 c0_i32_125
  let c0_i32_126 : BitVec 32 := 0#32
  let v178 : BitVec 1 := Scalar.cmpi .slt v174 c0_i32_126
  let v179 : BitVec 1 := Scalar.xori v177 v178
  let c0_i32_124 : BitVec 32 := 0#32
  let v176 : BitVec 1 := Scalar.cmpi .ne v175 c0_i32_124
  let v180 : BitVec 1 := Scalar.andi v179 v176
  let v181 : BitVec 32 := Scalar.addi v175 v174
  let v182 : BitVec 32 := Scalar.select v180 v181 v175
  let c1_i32_131 : BitVec 32 := 1#32
  let v183 : BitVec 32 := Scalar.muli v182 c1_i32_131
  let v184 : BitVec 32 := Scalar.addi c0_i32_132 v183
  v184.toNat
def k0_dev12 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_137 : BitVec 32 := 5#32
  let v193 : BitVec 32 := Scalar.addi v2 c5_i32_137
  let c8_i32_138 : BitVec 32 := 8#32
  let c0_i32_139 : BitVec 32 := 0#32
  let v194 : BitVec 1 := Scalar.cmpi .eq c8_i32_138 c0_i32_139
  let c1_i32_140 : BitVec 32 := 1#32
  let v195 : BitVec 32 := Scalar.select v194 c1_i32_140 c8_i32_138
  let v196 : BitVec 32 := Scalar.remsi v193 v195
  let c0_i32_142 : BitVec 32 := 0#32
  let v198 : BitVec 1 := Scalar.cmpi .slt v196 c0_i32_142
  let c0_i32_143 : BitVec 32 := 0#32
  let v199 : BitVec 1 := Scalar.cmpi .slt v195 c0_i32_143
  let v200 : BitVec 1 := Scalar.xori v198 v199
  let c0_i32_141 : BitVec 32 := 0#32
  let v197 : BitVec 1 := Scalar.cmpi .ne v196 c0_i32_141
  let v201 : BitVec 1 := Scalar.andi v200 v197
  let v202 : BitVec 32 := Scalar.addi v196 v195
  let v203 : BitVec 32 := Scalar.select v201 v202 v196
  let c1_i32_148 : BitVec 32 := 1#32
  let v204 : BitVec 32 := Scalar.muli v203 c1_i32_148
  let v205 : BitVec 32 := Scalar.addi c0_i32_149 v204
  v205.toNat
def k0_dev13 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_154 : BitVec 32 := 6#32
  let v214 : BitVec 32 := Scalar.addi v2 c6_i32_154
  let c8_i32_155 : BitVec 32 := 8#32
  let c0_i32_156 : BitVec 32 := 0#32
  let v215 : BitVec 1 := Scalar.cmpi .eq c8_i32_155 c0_i32_156
  let c1_i32_157 : BitVec 32 := 1#32
  let v216 : BitVec 32 := Scalar.select v215 c1_i32_157 c8_i32_155
  let v217 : BitVec 32 := Scalar.remsi v214 v216
  let c0_i32_159 : BitVec 32 := 0#32
  let v219 : BitVec 1 := Scalar.cmpi .slt v217 c0_i32_159
  let c0_i32_160 : BitVec 32 := 0#32
  let v220 : BitVec 1 := Scalar.cmpi .slt v216 c0_i32_160
  let v221 : BitVec 1 := Scalar.xori v219 v220
  let c0_i32_158 : BitVec 32 := 0#32
  let v218 : BitVec 1 := Scalar.cmpi .ne v217 c0_i32_158
  let v222 : BitVec 1 := Scalar.andi v221 v218
  let v223 : BitVec 32 := Scalar.addi v217 v216
  let v224 : BitVec 32 := Scalar.select v222 v223 v217
  let c1_i32_165 : BitVec 32 := 1#32
  let v225 : BitVec 32 := Scalar.muli v224 c1_i32_165
  let v226 : BitVec 32 := Scalar.addi c0_i32_166 v225
  v226.toNat
def k0_dev14 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_171 : BitVec 32 := 7#32
  let v235 : BitVec 32 := Scalar.addi v2 c7_i32_171
  let c8_i32_172 : BitVec 32 := 8#32
  let c0_i32_173 : BitVec 32 := 0#32
  let v236 : BitVec 1 := Scalar.cmpi .eq c8_i32_172 c0_i32_173
  let c1_i32_174 : BitVec 32 := 1#32
  let v237 : BitVec 32 := Scalar.select v236 c1_i32_174 c8_i32_172
  let v238 : BitVec 32 := Scalar.remsi v235 v237
  let c0_i32_176 : BitVec 32 := 0#32
  let v240 : BitVec 1 := Scalar.cmpi .slt v238 c0_i32_176
  let c0_i32_177 : BitVec 32 := 0#32
  let v241 : BitVec 1 := Scalar.cmpi .slt v237 c0_i32_177
  let v242 : BitVec 1 := Scalar.xori v240 v241
  let c0_i32_175 : BitVec 32 := 0#32
  let v239 : BitVec 1 := Scalar.cmpi .ne v238 c0_i32_175
  let v243 : BitVec 1 := Scalar.andi v242 v239
  let v244 : BitVec 32 := Scalar.addi v238 v237
  let v245 : BitVec 32 := Scalar.select v243 v244 v238
  let c1_i32_182 : BitVec 32 := 1#32
  let v246 : BitVec 32 := Scalar.muli v245 c1_i32_182
  let v247 : BitVec 32 := Scalar.addi c0_i32_183 v246
  v247.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  shapeCasts_S1024_S1024x1 : S1024.ShapeCasts S1024x1
  broadcasts_S1024x1_S1024x512 : S1024x1.Broadcasts S1024x512
  concatenates_S1024x1_S1024x1_S1024x2_d1 : Shape.Concatenates [S1024x1, S1024x1] S1024x2 1
  transposes_S1024x2_p1_0_S2x1024 : S1024x2.Transposes [1, 0] S2x1024
  inb_S8x2x1024_S1x2x1024_0_0_0 : ∀ a, (![0, 0, 0] : Fin 3 → Nat) a + S1x2x1024.size a ≤ S8x2x1024.size a
  h_S1x2x1024 : 0 < S1x2x1024.numel
  shapeCasts_S1x2x1024_S2x1024 : S1x2x1024.ShapeCasts S2x1024
  shapeCasts_S2x1024_S1x2x1024 : S2x1024.ShapeCasts S1x2x1024
  hamt_7 : (7#32 : BitVec 32).msb = false
  inb_S8_S1_1 : ∀ a, (![1] : Fin 1 → Nat) a + S1.size a ≤ S8.size a
  squeezes_S1_S_ : S1.Squeezes S_
  inb_S8x2x1024_S1x2x1024_1_0_0 : ∀ a, (![1, 0, 0] : Fin 3 → Nat) a + S1x2x1024.size a ≤ S8x2x1024.size a
  squeezes_S1x2x1024_S2x1024 : S1x2x1024.Squeezes S2x1024
  inb_S8_S1_2 : ∀ a, (![2] : Fin 1 → Nat) a + S1.size a ≤ S8.size a
  inb_S8x2x1024_S1x2x1024_2_0_0 : ∀ a, (![2, 0, 0] : Fin 3 → Nat) a + S1x2x1024.size a ≤ S8x2x1024.size a
  inb_S8_S1_3 : ∀ a, (![3] : Fin 1 → Nat) a + S1.size a ≤ S8.size a
  inb_S8x2x1024_S1x2x1024_3_0_0 : ∀ a, (![3, 0, 0] : Fin 3 → Nat) a + S1x2x1024.size a ≤ S8x2x1024.size a
  inb_S8_S1_4 : ∀ a, (![4] : Fin 1 → Nat) a + S1.size a ≤ S8.size a
  inb_S8x2x1024_S1x2x1024_4_0_0 : ∀ a, (![4, 0, 0] : Fin 3 → Nat) a + S1x2x1024.size a ≤ S8x2x1024.size a
  inb_S8_S1_5 : ∀ a, (![5] : Fin 1 → Nat) a + S1.size a ≤ S8.size a
  inb_S8x2x1024_S1x2x1024_5_0_0 : ∀ a, (![5, 0, 0] : Fin 3 → Nat) a + S1x2x1024.size a ≤ S8x2x1024.size a
  inb_S8_S1_6 : ∀ a, (![6] : Fin 1 → Nat) a + S1.size a ≤ S8.size a
  inb_S8x2x1024_S1x2x1024_6_0_0 : ∀ a, (![6, 0, 0] : Fin 3 → Nat) a + S1x2x1024.size a ≤ S8x2x1024.size a
  inb_S8_S1_7 : ∀ a, (![7] : Fin 1 → Nat) a + S1.size a ≤ S8.size a
  inb_S8x2x1024_S1x2x1024_7_0_0 : ∀ a, (![7, 0, 0] : Fin 3 → Nat) a + S1x2x1024.size a ≤ S8x2x1024.size a
  inb_S8x2x1024_S8x2x1024_0_0_0 : ∀ a, (![0, 0, 0] : Fin 3 → Nat) a + S8x2x1024.size a ≤ S8x2x1024.size a
  h_S8x2x1024 : 0 < S8x2x1024.numel
  slices_S8x2x1024_o0_0_0_S8x1x1024 : S8x2x1024.Slices ![0, 0, 0] S8x1x1024
  slices_S8x2x1024_o0_1_0_S8x1x1024 : S8x2x1024.Slices ![0, 1, 0] S8x1x1024
  reduces_S8x1x1024_S1x1024 : S8x1x1024.Reduces [0] S1x1024
  shapeCasts_S1x1024_S1x1x1024 : S1x1024.ShapeCasts S1x1x1024
  broadcasts_S1x1x1024_S8x1x1024 : S1x1x1024.Broadcasts S8x1x1024
  inb_S8x2x1024_S1x1x1024_0_0_0 : ∀ a, (![0, 0, 0] : Fin 3 → Nat) a + S1x1x1024.size a ≤ S8x2x1024.size a
  h_S1x1x1024 : 0 < S1x1x1024.numel
  shapeCasts_S1x1x1024_S1x1024 : S1x1x1024.ShapeCasts S1x1024
  transposes_S1x1024_p1_0_S1024x1 : S1x1024.Transposes [1, 0] S1024x1
  hcc0_scratch2 : 2 + S8.numel ≤ 18
  hcc0_scratch3 : 10 + S8.numel ≤ 18
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch2 : DmaSems sig S8 := SemArray.consecutive 2 S8 hcc0_scratch2
abbrev cc0_scratch3 : DmaSems sig S8 := SemArray.consecutive 10 S8 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S_ : Shape := ⟨0, ![]⟩
abbrev S1024 : Shape := ⟨1, ![1024]⟩
abbrev S1024x1 : Shape := ⟨2, ![1024, 1]⟩

abbrev nBuf : Space → Nat
  | .hbm => 12
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x4096, .f32⟩
  | .hbm, ⟨11, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)

variable [Facts₀]

class Facts : Prop extends Facts₀ where

variable [Facts]
-- ==== Proof.Vals.lean ====
import proofs.«901060_g7700000000001061_dist_softmax_colshard_i_m1024_n512_v7x_i8_f32_1_alg».proof.Proof.Gen.KernelIdeal.Skeleton

/-!
The values one device's run of the kernel body moves, as pure functions of every device's block of the input.

Device `c` first reduces its own block `xs c` to a 2 × 1024 table (row 0: each row's maximum; row 1: each row's sum of
exponentials shifted by that maximum) and keeps the shifted exponentials. The tables are then exchanged: slot `e` of
device `c`'s 8 × 2 × 1024 table buffer ends holding the table of the device `e` places before it on the ring of eight.
From the eight tables every device rescales its own exponentials to the softmax over the whole row.
-/

noncomputable section

namespace Cert.KernelIdeal.Vals

open Cert.KernelIdeal Cert.KernelIdeal.Gen Idealize.ShloMosaic

variable {F : FTy → Type} [FloatOps F]

/-- The device `e` places before `c` on the ring of eight devices. -/
def back (c : Dev nD) (e : Fin 8) : Dev nD := ⟨(c.val + 8 - e.val) % 8, Nat.mod_lt _ (by decide)⟩

/-- The device `d` places after `c` on the ring. -/
def peer (c : Dev nD) (d : Fin 8) : Dev nD := ⟨(c.val + d.val) % 8, Nat.mod_lt _ (by decide)⟩

/-- A block's table: row maxima and shifted exponential row sums, as the 1 × 2 × 1024 vector the body stores. -/
def statsOf (x : Vec F S1024x512 .f32) : FVec F S1x2x1024 .f32 := k0_pay5 (k0_pay2 x)

/-- A block's shifted exponentials, as the body keeps them in its scratch buffer. -/
def eOf (x : Vec F S1024x512 .f32) : FVec F S1024x512 .f32 := k0_pay6 (k0_pay4 (k0_pay2 x))

/-- An index of the 8 × 2 × 1024 table buffer, read inside its slot. -/
def inSlot (i : S8x2x1024.Idx) : S1x2x1024.Idx := fun a => match a with
  | ⟨0, _⟩ => ⟨0, Nat.one_pos⟩
  | ⟨1, _⟩ => ⟨(i 1).val, (i 1).isLt⟩
  | ⟨2, _⟩ => ⟨(i 2).val, (i 2).isLt⟩

/-- Device `c`'s table buffer once every table has landed: slot `e` is the table of the device `e` places before `c`. -/
def allStats (xs : Dev nD → Vec F S1024x512 .f32) (c : Dev nD) : Vec F S8x2x1024 .f32 :=
  fun i => statsOf (xs (back c ⟨(i 0).val, (i 0).isLt⟩)) (inSlot i)

/-- The first row of slot 0 of that buffer (the device's own row maxima), as the body loads it again. -/
def row0 (xs : Dev nD → Vec F S1024x512 .f32) (c : Dev nD) : Vec F S1x1x1024 .f32 :=
  (Memref.whole cc0_scratch1 : Memref sig .tc .vmem S8x2x1024 .f32).view.readAt (Elt F)
    (Rect.unit (s := S8x2x1024) ![0, 0, 0] S1x1x1024.size inb_S8x2x1024_S1x1x1024_0_0_0).toLoadRect (allStats xs c)

/-- What device `c` stores into its block of the result. -/
def outOf (xs : Dev nD → Vec F S1024x512 .f32) (c : Dev nD) : FVec F S1024x512 .f32 :=
  k0_pay1 (allStats xs c) (row0 xs c) (eOf (xs c))

end Cert.KernelIdeal.Vals

end
-- ==== Proof.Proto.lean ====
import proofs.«901060_g7700000000001061_dist_softmax_colshard_i_m1024_n512_v7x_i8_f32_1_alg».proof.Proof.Vals
import proofs.«901060_g7700000000001061_dist_softmax_colshard_i_m1024_n512_v7x_i8_f32_1_alg».proof.Proof.Gen.KernelIdeal
import proofs.«901060_g7700000000001061_dist_softmax_colshard_i_m1024_n512_v7x_i8_f32_1_alg».proof.Proof.Gen.KernelIdeal.Skeleton
import proofs.«901060_g7700000000001061_dist_softmax_colshard_i_m1024_n512_v7x_i8_f32_1_alg».proof.Proof.Gen.KernelIdeal.Launch
import proofs.«901060_g7700000000001061_dist_softmax_colshard_i_m1024_n512_v7x_i8_f32_1_alg».proof.Proof.Gen.KernelIdeal.Points
import Idealize.ShloMosaic.Lib.Pipeline.Launch
import Idealize.ShloMosaic.Lib.Pipeline.Kit
import Idealize.ShloMosaic.Lib.Tactic

/-!
The exchange of the eight devices' tables as a protocol of semaphore cells.

Every device `c` has one barrier cell, seven send cells and seven receive cells (offsets `d = 1 … 7`; the cells at
offset `0` are never used and have no duty). At entry `c` signals the barrier cell of every other device; the signal to
`peer c d` hands that device slot `neg d` of `c`'s table buffer, the slot it will write. After waiting for its seven
units `c` holds slot `e` of `peer c e` for every `e`, and copies its own table (slot 0, of which each copy borrows a
share) into each. A receive cell's unit hands its owner the slot with the sender's table in it; a send cell's unit hands
the borrowed share back.
-/

noncomputable section

namespace Cert.KernelIdeal.Dist

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by an offset) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring of eight -/

/-- The offset back: `neg d` places after `peer c d` is `c` again. -/
def neg (d : Fin 8) : Fin 8 := ⟨(8 - d.val) % 8, Nat.mod_lt _ (by decide)⟩

theorem peer_peer_neg (c : Dev nD) (d : Fin 8) : peer (peer c d) (neg d) = c := by revert c d; decide
theorem peer_neg_peer (c : Dev nD) (d : Fin 8) : peer (peer c (neg d)) d = c := by revert c d; decide
theorem back_eq_peer_neg (c : Dev nD) (d : Fin 8) : back c d = peer c (neg d) := by revert c d; decide
theorem neg_neg (d : Fin 8) : neg (neg d) = d := by revert d; decide
theorem neg_ne_zero {d : Fin 8} (h : d ≠ 0) : neg d ≠ 0 := by revert d; decide
theorem peer_zero (c : Dev nD) : peer c 0 = c := by revert c; decide
theorem back_zero (c : Dev nD) : back c 0 = c := by revert c; decide
theorem peer_ne_self (c : Dev nD) {d : Fin 8} (h : d ≠ 0) : peer c d ≠ c := by revert c d; decide
theorem peer_injective (d : Fin 8) : Function.Injective (fun c : Dev nD => peer c d) := by revert d; decide

/-- Going `d` places round the ring, as a permutation of the devices. -/
def ringBy (d : Fin 8) : Dev nD ≃ Dev nD := ⟨fun c => peer c d, fun c => peer c (neg d), fun c => peer_peer_neg c d, fun c => peer_neg_peer c d⟩

/-- The kernel's `device_id` chains: signal `d` and copy `d` both name the device `d` places on. -/
theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 4 := by revert c; decide +kernel
theorem dev5_eq (c : Dev nD) : (⟨k0_dev5 c, k0_dev5_lt c⟩ : Dev nD) = peer c 5 := by revert c; decide +kernel
theorem dev6_eq (c : Dev nD) : (⟨k0_dev6 c, k0_dev6_lt c⟩ : Dev nD) = peer c 6 := by revert c; decide +kernel
theorem dev7_eq (c : Dev nD) : (⟨k0_dev7 c, k0_dev7_lt c⟩ : Dev nD) = peer c 7 := by revert c; decide +kernel
theorem dev8_eq (c : Dev nD) : (⟨k0_dev8 c, k0_dev8_lt c⟩ : Dev nD) = peer c 1 := by revert c; decide +kernel
theorem dev9_eq (c : Dev nD) : (⟨k0_dev9 c, k0_dev9_lt c⟩ : Dev nD) = peer c 2 := by revert c; decide +kernel
theorem dev10_eq (c : Dev nD) : (⟨k0_dev10 c, k0_dev10_lt c⟩ : Dev nD) = peer c 3 := by revert c; decide +kernel
theorem dev11_eq (c : Dev nD) : (⟨k0_dev11 c, k0_dev11_lt c⟩ : Dev nD) = peer c 4 := by revert c; decide +kernel
theorem dev12_eq (c : Dev nD) : (⟨k0_dev12 c, k0_dev12_lt c⟩ : Dev nD) = peer c 5 := by revert c; decide +kernel
theorem dev13_eq (c : Dev nD) : (⟨k0_dev13 c, k0_dev13_lt c⟩ : Dev nD) = peer c 6 := by revert c; decide +kernel
theorem dev14_eq (c : Dev nD) : (⟨k0_dev14 c, k0_dev14_lt c⟩ : Dev nD) = peer c 7 := by revert c; decide +kernel

/-! ## The memrefs and the cells -/

abbrev xM : Memref sig .tc .vmem S1024x512 .f32 := Memref.whole cc0_stg0_0
abbrev oM : Memref sig .tc .vmem S1024x512 .f32 := Memref.whole cc0_stg1_0
abbrev eM : Memref sig .tc .vmem S1024x512 .f32 := Memref.whole cc0_scratch0
/-- The table buffer, 8 slots of 2 × 1024. -/
abbrev tM : Memref sig .tc .vmem S8x2x1024 .f32 := Memref.whole cc0_scratch1

abbrev slot0 : Memref sig .tc .vmem S2x1024 .f32 := (tM.slice (Rect.unit (s := S8x2x1024) ![0, 0, 0] S1x2x1024.size inb_S8x2x1024_S1x2x1024_0_0_0) (fun _ => rfl)).squeeze S2x1024 squeezes_S1x2x1024_S2x1024
abbrev slot1 : Memref sig .tc .vmem S2x1024 .f32 := (tM.slice (Rect.unit (s := S8x2x1024) ![1, 0, 0] S1x2x1024.size inb_S8x2x1024_S1x2x1024_1_0_0) (fun _ => rfl)).squeeze S2x1024 squeezes_S1x2x1024_S2x1024
abbrev slot2 : Memref sig .tc .vmem S2x1024 .f32 := (tM.slice (Rect.unit (s := S8x2x1024) ![2, 0, 0] S1x2x1024.size inb_S8x2x1024_S1x2x1024_2_0_0) (fun _ => rfl)).squeeze S2x1024 squeezes_S1x2x1024_S2x1024
abbrev slot3 : Memref sig .tc .vmem S2x1024 .f32 := (tM.slice (Rect.unit (s := S8x2x1024) ![3, 0, 0] S1x2x1024.size inb_S8x2x1024_S1x2x1024_3_0_0) (fun _ => rfl)).squeeze S2x1024 squeezes_S1x2x1024_S2x1024
abbrev slot4 : Memref sig .tc .vmem S2x1024 .f32 := (tM.slice (Rect.unit (s := S8x2x1024) ![4, 0, 0] S1x2x1024.size inb_S8x2x1024_S1x2x1024_4_0_0) (fun _ => rfl)).squeeze S2x1024 squeezes_S1x2x1024_S2x1024
abbrev slot5 : Memref sig .tc .vmem S2x1024 .f32 := (tM.slice (Rect.unit (s := S8x2x1024) ![5, 0, 0] S1x2x1024.size inb_S8x2x1024_S1x2x1024_5_0_0) (fun _ => rfl)).squeeze S2x1024 squeezes_S1x2x1024_S2x1024
abbrev slot6 : Memref sig .tc .vmem S2x1024 .f32 := (tM.slice (Rect.unit (s := S8x2x1024) ![6, 0, 0] S1x2x1024.size inb_S8x2x1024_S1x2x1024_6_0_0) (fun _ => rfl)).squeeze S2x1024 squeezes_S1x2x1024_S2x1024
abbrev slot7 : Memref sig .tc .vmem S2x1024 .f32 := (tM.slice (Rect.unit (s := S8x2x1024) ![7, 0, 0] S1x2x1024.size inb_S8x2x1024_S1x2x1024_7_0_0) (fun _ => rfl)).squeeze S2x1024 squeezes_S1x2x1024_S2x1024

abbrev sendA1 : DmaSems sig S_ := (cc0_scratch2.slice (Rect.unit (s := S8) ![1] S1.size inb_S8_S1_1)).squeeze S_ squeezes_S1_S_
abbrev sendA2 : DmaSems sig S_ := (cc0_scratch2.slice (Rect.unit (s := S8) ![2] S1.size inb_S8_S1_2)).squeeze S_ squeezes_S1_S_
abbrev sendA3 : DmaSems sig S_ := (cc0_scratch2.slice (Rect.unit (s := S8) ![3] S1.size inb_S8_S1_3)).squeeze S_ squeezes_S1_S_
abbrev sendA4 : DmaSems sig S_ := (cc0_scratch2.slice (Rect.unit (s := S8) ![4] S1.size inb_S8_S1_4)).squeeze S_ squeezes_S1_S_
abbrev sendA5 : DmaSems sig S_ := (cc0_scratch2.slice (Rect.unit (s := S8) ![5] S1.size inb_S8_S1_5)).squeeze S_ squeezes_S1_S_
abbrev sendA6 : DmaSems sig S_ := (cc0_scratch2.slice (Rect.unit (s := S8) ![6] S1.size inb_S8_S1_6)).squeeze S_ squeezes_S1_S_
abbrev sendA7 : DmaSems sig S_ := (cc0_scratch2.slice (Rect.unit (s := S8) ![7] S1.size inb_S8_S1_7)).squeeze S_ squeezes_S1_S_
abbrev recvA1 : DmaSems sig S_ := (cc0_scratch3.slice (Rect.unit (s := S8) ![1] S1.size inb_S8_S1_1)).squeeze S_ squeezes_S1_S_
abbrev recvA2 : DmaSems sig S_ := (cc0_scratch3.slice (Rect.unit (s := S8) ![2] S1.size inb_S8_S1_2)).squeeze S_ squeezes_S1_S_
abbrev recvA3 : DmaSems sig S_ := (cc0_scratch3.slice (Rect.unit (s := S8) ![3] S1.size inb_S8_S1_3)).squeeze S_ squeezes_S1_S_
abbrev recvA4 : DmaSems sig S_ := (cc0_scratch3.slice (Rect.unit (s := S8) ![4] S1.size inb_S8_S1_4)).squeeze S_ squeezes_S1_S_
abbrev recvA5 : DmaSems sig S_ := (cc0_scratch3.slice (Rect.unit (s := S8) ![5] S1.size inb_S8_S1_5)).squeeze S_ squeezes_S1_S_
abbrev recvA6 : DmaSems sig S_ := (cc0_scratch3.slice (Rect.unit (s := S8) ![6] S1.size inb_S8_S1_6)).squeeze S_ squeezes_S1_S_
abbrev recvA7 : DmaSems sig S_ := (cc0_scratch3.slice (Rect.unit (s := S8) ![7] S1.size inb_S8_S1_7)).squeeze S_ squeezes_S1_S_

/-- The runtime's barrier semaphore of collective id 0 (unscoped); the send and receive DMA semaphores by offset. -/
abbrev barS : Sem sig := (SemArray.scalar (sig.barrier 0 rfl) : Sems sig S_).sem
def sendS (d : Fin 8) : DmaSem sig := ⟨2 + d.val, by have := d.isLt; show 2 + d.val < 18; omega⟩
def recvS (d : Fin 8) : DmaSem sig := ⟨10 + d.val, by have := d.isLt; show 10 + d.val < 18; omega⟩

theorem sendA1_sem : sendA1.sem = sendS 1 := by decide
theorem sendA2_sem : sendA2.sem = sendS 2 := by decide
theorem sendA3_sem : sendA3.sem = sendS 3 := by decide
theorem sendA4_sem : sendA4.sem = sendS 4 := by decide
theorem sendA5_sem : sendA5.sem = sendS 5 := by decide
theorem sendA6_sem : sendA6.sem = sendS 6 := by decide
theorem sendA7_sem : sendA7.sem = sendS 7 := by decide
theorem recvA1_sem : recvA1.sem = recvS 1 := by decide
theorem recvA2_sem : recvA2.sem = recvS 2 := by decide
theorem recvA3_sem : recvA3.sem = recvS 3 := by decide
theorem recvA4_sem : recvA4.sem = recvS 4 := by decide
theorem recvA5_sem : recvA5.sem = recvS 5 := by decide
theorem recvA6_sem : recvA6.sem = recvS 6 := by decide
theorem recvA7_sem : recvA7.sem = recvS 7 := by decide

abbrev barCell (c : Dev nD) : GSem nD τ sig := ((c : Thread nD τ), .reg barS)
abbrev sendCell (c : Dev nD) (d : Fin 8) : GSem nD τ sig := ((c : Thread nD τ), .dma (sendS d))
abbrev recvCell (c : Dev nD) (d : Fin 8) : GSem nD τ sig := ((c : Thread nD τ), .dma (recvS d))

/-- The kernel's OWN (scoped) semaphores as the launch indexes them: the sixteen DMA semaphores of its two arrays; -/
abbrev osem : Fin 16 → SemLoc sig := fun k => .dma ⟨2 + k.val, by have := k.isLt; show 2 + k.val < 18; omega⟩
/-- all seventeen of the exchange's: the barrier, then those. -/
abbrev csem : Fin 17 → SemLoc sig := fun k => if h : k.val = 0 then .reg barS else .dma ⟨1 + k.val, by have := k.isLt; show 1 + k.val < 18; omega⟩
abbrev kcell (ck : Dev nD × Fin 17) : GSem nD τ sig := ((ck.1 : Thread nD τ), csem ck.2)

/-- The units one table's copy puts on a DMA semaphore. -/
abbrev N : ℕ := (slot1 : Memref sig .tc .vmem S2x1024 .f32).view.dmaCredit
theorem N_pos : 0 < N := View.dmaCredit_pos _ (by decide)

/-- The view of slot `d` of a table buffer, as the body slices it. -/
def slotV : Fin 8 → Memref sig .tc .vmem S2x1024 .f32
  | ⟨0, _⟩ => slot0
  | ⟨1, _⟩ => slot1
  | ⟨2, _⟩ => slot2
  | ⟨3, _⟩ => slot3
  | ⟨4, _⟩ => slot4
  | ⟨5, _⟩ => slot5
  | ⟨6, _⟩ => slot6
  | ⟨7, _⟩ => slot7
  | ⟨_ + 8, h⟩ => absurd h (Nat.not_lt.2 (Nat.le_add_left _ _))

/-! ## Contents -/

/-- Device `c`'s block of the input, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Every device's block. -/
def xs : Dev nD → Vec F S1024x512 .f32 := fun c => xstg m ρ c

abbrev tLoc (c : Dev nD) : Loc nD τ sig := (c : Thread nD τ).loc cc0_scratch1

/-- Share `q` of slot `d` of device `c`'s table buffer, the buffer's contents `f`. -/
def slotPts (c : Dev nD) (q : PosShare TreeShare) (f : Buf (Elt F) (tLoc c)) : Fin 8 → sProp 𝕄
  | ⟨0, _⟩ => (slot0 : Memref sig .tc .vmem S2x1024 .f32).view.loc (c : Thread nD τ) ↦[(slot0 : Memref sig .tc .vmem S2x1024 .f32).view.set]{q} f
  | ⟨1, _⟩ => (slot1 : Memref sig .tc .vmem S2x1024 .f32).view.loc (c : Thread nD τ) ↦[(slot1 : Memref sig .tc .vmem S2x1024 .f32).view.set]{q} f
  | ⟨2, _⟩ => (slot2 : Memref sig .tc .vmem S2x1024 .f32).view.loc (c : Thread nD τ) ↦[(slot2 : Memref sig .tc .vmem S2x1024 .f32).view.set]{q} f
  | ⟨3, _⟩ => (slot3 : Memref sig .tc .vmem S2x1024 .f32).view.loc (c : Thread nD τ) ↦[(slot3 : Memref sig .tc .vmem S2x1024 .f32).view.set]{q} f
  | ⟨4, _⟩ => (slot4 : Memref sig .tc .vmem S2x1024 .f32).view.loc (c : Thread nD τ) ↦[(slot4 : Memref sig .tc .vmem S2x1024 .f32).view.set]{q} f
  | ⟨5, _⟩ => (slot5 : Memref sig .tc .vmem S2x1024 .f32).view.loc (c : Thread nD τ) ↦[(slot5 : Memref sig .tc .vmem S2x1024 .f32).view.set]{q} f
  | ⟨6, _⟩ => (slot6 : Memref sig .tc .vmem S2x1024 .f32).view.loc (c : Thread nD τ) ↦[(slot6 : Memref sig .tc .vmem S2x1024 .f32).view.set]{q} f
  | ⟨7, _⟩ => (slot7 : Memref sig .tc .vmem S2x1024 .f32).view.loc (c : Thread nD τ) ↦[(slot7 : Memref sig .tc .vmem S2x1024 .f32).view.set]{q} f
  | ⟨_ + 8, h⟩ => absurd h (Nat.not_lt.2 (Nat.le_add_left _ _))

omit [FloatOps F] in
instance slotPts_storable (c : Dev nD) (q : PosShare TreeShare) (f : Buf (Elt F) (tLoc c)) (d : Fin 8) :
    BI.Storable (upEmb : UEmb _ 𝕄) (slotPts c q f d) := by
  fin_cases d <;> (dsimp only [slotPts]; infer_instance)

/-- The share of slot 0 that copy `d` borrows: the left half of what the copies before it left. -/
def shr (d : Fin 8) : PosShare TreeShare := (Nat.iterate PosShare.right (d.val - 1) fullShare).left
/-- What the seven copies leave of slot 0 with its owner. -/
def shrRest : PosShare TreeShare := Nat.iterate PosShare.right 7 fullShare

/-! ## The schedule -/

/-- What `peer c e`'s signal hands `c`: slot `e` of that device's table buffer, and that it has reached round 0 of the
    slot's receive cell. -/
def barPay (c : Dev nD) (e : Fin 8) : sProp 𝕄 :=
  iprop((∃ f, slotPts (peer c e) fullShare f e) ∗ reached ER (recvCell (peer c e) e) 0)
/-- What the copy into slot `e` hands its owner: the slot, holding the table of the device `e` places before. -/
def recvPay (c : Dev nD) (e : Fin 8) : sProp 𝕄 := slotPts c fullShare (allStats (xs m ρ) c) e
/-- What copy `d`'s departure hands back: the share of slot 0 it borrowed. -/
def sendPay (c : Dev nD) (d : Fin 8) : sProp 𝕄 := slotPts c (shr d) (allStats (xs m ρ) c) 0

/-- One round, round 0. A barrier cell has the seven duties `e = 1 … 7` of one unit (duty `e` paid by `peer c e`); the
    send and receive cells of offsets `1 … 7` the duty `0` of a copy's credit; every other cell none. -/
def softRd : Rounds.Schedule (GSem nD τ sig) (Fin 8) 𝕄 where
  duties g r := if r = 0 ∧ g.1.2 = .tc then
      (match g.2 with
       | .reg s => if s = barS then Finset.univ.erase 0 else ∅
       | .dma q => if q.val ≤ 2 ∨ q.val = 10 then ∅ else {0})
    else ∅
  unitless _ := False
  amount g _ _ := match g.2 with | .reg _ => 1 | .dma _ => N
  payload g _ e := match g.2 with
    | .reg _ => barPay g.1.1 e
    | .dma q => if 10 ≤ q.val then recvPay m ρ g.1.1 ⟨(q.val - 10) % 8, Nat.mod_lt _ (by decide)⟩
                else sendPay m ρ g.1.1 ⟨(q.val - 2) % 8, Nat.mod_lt _ (by decide)⟩
  amount_pos g _ _ _ := by
    cases g.2 with
    | reg _ => exact Nat.one_pos
    | dma _ => exact N_pos

instance softRd_payload_storable (g : GSem nD τ sig) (r : ℕ) (d : Fin 8) :
    BI.Storable (upEmb : UEmb _ 𝕄) ((softRd (F := F) m ρ).payload g r d) := by
  obtain ⟨t, sm⟩ := g
  cases sm with
  | reg s => show BI.Storable upEmb (barPay t.1 d); unfold barPay; infer_instance
  | dma q =>
    show BI.Storable upEmb (if 10 ≤ q.val then recvPay m ρ t.1 _ else sendPay m ρ t.1 _)
    unfold recvPay sendPay
    split <;> infer_instance

section Sched
variable (c : Dev nD)

theorem duties_bar : (softRd (F := F) m ρ).duties (barCell c) 0 = Finset.univ.erase 0 := by
  dsimp only [softRd]; rw [if_pos ⟨rfl, rfl⟩]; exact if_pos rfl
theorem duties_send {d : Fin 8} (hd : d ≠ 0) : (softRd (F := F) m ρ).duties (sendCell c d) 0 = {0} := by
  dsimp only [softRd]; rw [if_pos ⟨rfl, rfl⟩]; revert d; decide
theorem duties_recv {d : Fin 8} (hd : d ≠ 0) : (softRd (F := F) m ρ).duties (recvCell c d) 0 = {0} := by
  dsimp only [softRd]; rw [if_pos ⟨rfl, rfl⟩]; revert d; decide
theorem duties_send_zero (r : ℕ) : (softRd (F := F) m ρ).duties (sendCell c 0) r = ∅ := by
  dsimp only [softRd]; split
  · exact if_pos (by decide)
  · rfl
theorem duties_recv_zero (r : ℕ) : (softRd (F := F) m ρ).duties (recvCell c 0) r = ∅ := by
  dsimp only [softRd]; split
  · exact if_pos (by decide)
  · rfl
theorem duties_later (g : GSem nD τ sig) : ∀ r, 1 ≤ r → (softRd (F := F) m ρ).duties g r = ∅ :=
  fun r hr => by dsimp only [softRd]; rw [if_neg fun h => by omega]

theorem amount_bar (e : Fin 8) : (softRd (F := F) m ρ).amount (barCell c) 0 e = 1 := rfl
theorem amount_send (d e : Fin 8) : (softRd (F := F) m ρ).amount (sendCell c d) 0 e = N := rfl
theorem amount_recv (d e : Fin 8) : (softRd (F := F) m ρ).amount (recvCell c d) 0 e = N := rfl

theorem expect_bar : (softRd (F := F) m ρ).expect (barCell c) 0 = 7 := by
  unfold Schedule.expect Schedule.amountOf
  rw [duties_bar, Finset.sum_congr rfl fun d _ => amount_bar m ρ c d, Finset.sum_const, smul_eq_mul]; decide
theorem expect_send {d : Fin 8} (hd : d ≠ 0) : (softRd (F := F) m ρ).expect (sendCell c d) 0 = N := by
  unfold Schedule.expect Schedule.amountOf; rw [duties_send m ρ c hd, Finset.sum_singleton, amount_send]
theorem expect_recv {d : Fin 8} (hd : d ≠ 0) : (softRd (F := F) m ρ).expect (recvCell c d) 0 = N := by
  unfold Schedule.expect Schedule.amountOf; rw [duties_recv m ρ c hd, Finset.sum_singleton, amount_recv]

theorem payload_bar (e : Fin 8) : (softRd (F := F) m ρ).payload (barCell c) 0 e = barPay c e := rfl
theorem payload_send (d e : Fin 8) : (softRd (F := F) m ρ).payload (sendCell c d) 0 e = sendPay m ρ c d := by
  fin_cases d <;> rfl
theorem payload_recv (d e : Fin 8) : (softRd (F := F) m ρ).payload (recvCell c d) 0 e = recvPay m ρ c d := by
  fin_cases d <;> rfl

/-- The rest of the barrier cell's round, no duty taken: the seven devices' slots. -/
theorem rest_bar : bigSep ((softRd (F := F) m ρ).duties (barCell c) 0 \ ∅) (fun d => (softRd (F := F) m ρ).payload (barCell c) 0 d)
    = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]
  rfl
theorem rest_send {d : Fin 8} (hd : d ≠ 0) : bigSep ((softRd (F := F) m ρ).duties (sendCell c d) 0 \ ∅) (fun e => (softRd (F := F) m ρ).payload (sendCell c d) 0 e) = sendPay m ρ c d := by
  rw [Finset.sdiff_empty, duties_send m ρ c hd, bigSep_singleton, payload_send]
theorem rest_recv {d : Fin 8} (hd : d ≠ 0) : bigSep ((softRd (F := F) m ρ).duties (recvCell c d) 0 \ ∅) (fun e => (softRd (F := F) m ρ).payload (recvCell c d) 0 e) = recvPay m ρ c d := by
  rw [Finset.sdiff_empty, duties_recv m ρ c hd, bigSep_singleton, payload_recv]

end Sched

/-! ## What each device owes at launch; the levels -/

/-- A unit owed to the barrier cell `d` places on; a copy's credit owed to the receive cell `d` of the device `d` places on. -/
def bT (c : Dev nD) (d : Fin 8) : CellTallies nD τ sig Unit := tallyAt (barCell (peer c d)) () 1
def rT (c : Dev nD) (d : Fin 8) : CellTallies nD τ sig Unit := tallyAt (recvCell (peer c d) d) () N

/-- What is still owed before copy `d` (the copies go `1, 2, …, 7`; the last summand is paid first). -/
def OR7 (c : Dev nD) : CellTallies nD τ sig Unit := rT c 7
def OR6 (c : Dev nD) : CellTallies nD τ sig Unit := OR7 c + rT c 6
def OR5 (c : Dev nD) : CellTallies nD τ sig Unit := OR6 c + rT c 5
def OR4 (c : Dev nD) : CellTallies nD τ sig Unit := OR5 c + rT c 4
def OR3 (c : Dev nD) : CellTallies nD τ sig Unit := OR4 c + rT c 3
def OR2 (c : Dev nD) : CellTallies nD τ sig Unit := OR3 c + rT c 2
def OR1 (c : Dev nD) : CellTallies nD τ sig Unit := OR2 c + rT c 1
/-- What is still owed before signal `d` (the signals go `1, 2, …, 7`, all before the copies). -/
def OB7 (c : Dev nD) : CellTallies nD τ sig Unit := OR1 c + bT c 7
def OB6 (c : Dev nD) : CellTallies nD τ sig Unit := OB7 c + bT c 6
def OB5 (c : Dev nD) : CellTallies nD τ sig Unit := OB6 c + bT c 5
def OB4 (c : Dev nD) : CellTallies nD τ sig Unit := OB5 c + bT c 4
def OB3 (c : Dev nD) : CellTallies nD τ sig Unit := OB4 c + bT c 3
def OB2 (c : Dev nD) : CellTallies nD τ sig Unit := OB3 c + bT c 2
/-- Everything a device owes at launch: seven barrier units and seven copies' credits. -/
def O₀ (c : Dev nD) : CellTallies nD τ sig Unit := OB2 c + bT c 1

def L (g : GSem nD τ sig) : Finset Unit := if g.1.2 = .tc then {()} else ∅
/-- Barrier cells at 1, receive cells at 2, everything else (staging, send) at 0. -/
def lv (g : GSem nD τ sig) (_ : Unit) : ℕ := match g.2 with | .reg _ => 1 | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`. -/
def outAt (c : Dev nD) : (cc0_stg1_0 : Ref sig .tc).ty.Contents (Elt F) := outOf (xs m ρ) c

/-- The cell of a send or receive semaphore among a device's seventeen. -/
def kS (d : Fin 8) : Fin 17 := ⟨1 + d.val, by have := d.isLt; omega⟩
def kR (d : Fin 8) : Fin 17 := ⟨9 + d.val, by have := d.isLt; omega⟩
theorem kcell_bar (c : Dev nD) : kcell (c, 0) = barCell c := rfl
theorem kcell_send (c : Dev nD) (d : Fin 8) : kcell (c, kS d) = sendCell c d := by fin_cases d <;> rfl
theorem kcell_recv (c : Dev nD) (d : Fin 8) : kcell (c, kR d) = recvCell c d := by fin_cases d <;> rfl

/-- Every cell's invariant under the names `K` the launch allocated them at, and that round 0 of every cell is reached. -/
def records (K : Dev nD × Fin 17 → ℕ) : sProp 𝕄 :=
  iprop((bigSep Finset.univ fun ck : Dev nD × Fin 17 => cellInv ER (softRd m ρ) (K ck) (kcell ck))
    ∗ bigSep Finset.univ fun ck : Dev nD × Fin 17 => reached ER (kcell ck) 0)

instance records_persistent (K : Dev nD × Fin 17 → ℕ) : BI.Persistent (records m ρ K) := by unfold records; infer_instance

/-- The tokens of the duties device `c` pays: per offset `d`, the barrier duty `neg d` of the device `d` places on, the
    duty of that device's receive cell `d`, and the duty of its own send cell `d`. -/
def payToks (c : Dev nD) : sProp 𝕄 :=
  bigSep (Finset.univ.erase (0 : Fin 8)) fun d =>
    iprop(dutyTok ER (barCell (peer c d)) 0 (neg d) ∗ dutyTok ER (recvCell (peer c d) d) 0 0 ∗ dutyTok ER (sendCell c d) 0 0)

/-- What stays with device `c`: its positions at round 0 of its seventeen cells, and the tokens it pays with. -/
def linear (c : Dev nD) : sProp 𝕄 :=
  iprop((bigSep Finset.univ fun k : Fin 17 => atPos ER (kcell (c, k)) 0 ∅ 0) ∗ payToks c)

def ghost (K : Dev nD × Fin 17 → ℕ) (c : Dev nD) : sProp 𝕄 := iprop(records m ρ K ∗ linear c)

/-- What device `c`'s body starts from: that at some names, the credit tokens for what the others owe its cells (seven
    barrier units; a copy's credit on each receive cell) and the level facts. -/
def start (c : Dev nD) : sProp 𝕄 :=
  iprop((∃ K, ghost m ρ K c) ∗ cred (tallyAt (barCell c) () 7)
    ∗ (bigSep (Finset.univ.erase (0 : Fin 8)) fun e => cred (tallyAt (recvCell c e) () N)) ∗ levAts L lv)

def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) (tLoc c), tLoc c ↦{fullShare} f))
/-- After the point: the two scratch buffers whole again, the sixteen own cells closed, their counters at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) (tLoc c), tLoc c ↦{fullShare} f)
    ∗ bigSep Finset.univ fun k : Fin 16 => semVal ((c : Thread nD τ), osem k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem share_eq (c : Dev nD) (w : Fin cfg0.W) : (dats m ρ 0 c).share w = fullShare := by unfold Dat.share; split <;> rfl

end Cert.KernelIdeal.Dist

end
-- ==== Proof.Levels.lean ====
import proofs.«901060_g7700000000001061_dist_softmax_colshard_i_m1024_n512_v7x_i8_f32_1_alg».proof.Proof.Proto

/-!
The deadlock argument's levels: a wait is allowed at a cell whose level lies below everything the waiter still owes.
A device owes barrier cells (level 1) and receive cells (level 2); it waits on staging and send cells (level 0) at any
time, and on its barrier cell (level 1) once only receive cells are owed.
-/

noncomputable section

namespace Cert.KernelIdeal.Dist

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where the launch debt is positive -/

theorem bT_pos {c : Dev nD} {d : Fin 8} {g : GSem nD τ sig} {u : Unit} (h : 0 < bT c d g u) : g = barCell (peer c d) := by
  unfold bT at h
  rw [tallyAt_apply] at h
  by_contra hn
  rw [if_neg (fun h' => hn h'.1)] at h
  exact Nat.lt_irrefl 0 h

theorem rT_pos {c : Dev nD} {d : Fin 8} {g : GSem nD τ sig} {u : Unit} (h : 0 < rT c d g u) : g = recvCell (peer c d) d := by
  unfold rT at h
  rw [tallyAt_apply] at h
  by_contra hn
  rw [if_neg (fun h' => hn h'.1)] at h
  exact Nat.lt_irrefl 0 h

/-- The seven copies' credits are owed to receive cells of the offsets `1 … 7` only. -/
theorem OR1_pos_ne {c : Dev nD} {g : GSem nD τ sig} {u : Unit} (h : 0 < OR1 c g u) : ∃ d : Fin 8, d ≠ 0 ∧ g = recvCell (peer c d) d := by
  unfold OR1 OR2 OR3 OR4 OR5 OR6 OR7 at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  all_goals exact ⟨_, by decide, rT_pos h⟩

theorem OR1_pos {c : Dev nD} {g : GSem nD τ sig} {u : Unit} (h : 0 < OR1 c g u) : ∃ d : Fin 8, g = recvCell (peer c d) d :=
  let ⟨d, _, hd⟩ := OR1_pos_ne h
  ⟨d, hd⟩

/-- The launch debt is owed to barrier cells and to receive cells, of the offsets `1 … 7`. -/
theorem O₀_pos {c : Dev nD} {g : GSem nD τ sig} {u : Unit} (h : 0 < O₀ c g u) :
    (∃ d : Fin 8, d ≠ 0 ∧ g = barCell (peer c d)) ∨ (∃ d : Fin 8, d ≠ 0 ∧ g = recvCell (peer c d) d) := by
  unfold O₀ OB2 OB3 OB4 OB5 OB6 OB7 at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  · exact Or.inr (OR1_pos_ne h)
  all_goals exact Or.inl ⟨_, by decide, bT_pos h⟩

/-! ## The cells' levels -/

theorem lv_bar (c : Dev nD) (u : Unit) : lv (barCell c) u = 1 := rfl

theorem lv_recv (c : Dev nD) (d : Fin 8) (u : Unit) : lv (recvCell c d) u = 2 := by
  dsimp only [lv, recvS]
  exact if_pos (Nat.le_add_right 10 d.val)

theorem lv_low (c : Dev nD) (q : DmaSem sig) (hq : q.val < 10) (u : Unit) : lv ((c : Thread nD τ), .dma q) u = 0 := by
  dsimp only [lv]
  exact if_neg (by omega)

omit [FloatOps F] in
/-- A wait on a staging or send cell, whatever of its launch debt the device still owes. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨d, -, rfl⟩ | ⟨d, -, rfl⟩ <;> (rw [L_tc]; exact Finset.mem_singleton_self _))
      (fun p hp => by rw [Finset.mem_singleton.mp hp, lv_low c q hq])
      (fun g u hg => by
        rcases O₀_pos hg with ⟨d, -, rfl⟩ | ⟨d, -, rfl⟩
        · rw [lv_bar]; decide
        · rw [lv_recv]; decide)
  · rw [MayWait_zero]; iintro -; iempintro

omit [FloatOps F] in
/-- At its barrier wait a device owes receive cells only, all above its barrier cell. -/
theorem mayWait_bar (c : Dev nD) :
    (levAts L lv : sProp 𝕄) ⊢ MayWait (c : Thread nD τ) (.reg barS) () (OR1 c) := by
  exact MayOwe.of_cut (L := L) (lev := lv) 1
    (fun p hp => by rw [Finset.mem_singleton.mp hp, L_tc]; exact Finset.mem_singleton_self _)
    (fun g u hg => by
      obtain ⟨d, rfl⟩ := OR1_pos hg
      rw [L_tc]; exact Finset.mem_singleton_self _)
    (fun p hp => by rw [Finset.mem_singleton.mp hp, lv_bar])
    (fun g u hg => by
      obtain ⟨d, rfl⟩ := OR1_pos hg
      rw [lv_recv]; decide)

end Cert.KernelIdeal.Dist

end
-- ==== Proof.Launch.lean ====
import proofs.«901060_g7700000000001061_dist_softmax_colshard_i_m1024_n512_v7x_i8_f32_1_alg».proof.Proof.Levels

/-!
The launch: the exchange's ghost state funded and dealt round the ring, every cell's invariant allocated under one update,
the launch credit counted, and the run of @main on the eight devices from any memory with zero counters.
-/

noncomputable section

namespace Cert.KernelIdeal.Dist

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide

theorem csem_inj : ∀ k k' : Fin 17, csem k = csem k' → k = k' := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj k k' h2]

/-- The 8 × 17 cells of the exchange. -/
def ringCells : Finset (GSem nD τ sig) := Finset.univ.map ⟨kcell, kcell_injective⟩

/-- The semaphore and the duty name of a device's minted token: per offset `i + 1`, its barrier cell's duty of that
    name, and the one duty of its send and of its receive cell of that offset. -/
def tokSem (ij : Fin 7 × Fin 3) : SemLoc sig × Fin 8 := match ij.2 with
  | 0 => (.reg barS, ij.1.succ) | 1 => (.dma (sendS ij.1.succ), 0) | 2 => (.dma (recvS ij.1.succ), 0)

theorem tokSem_inj : ∀ a b : Fin 7 × Fin 3, tokSem a = tokSem b → a = b := by decide

abbrev tokOf (x : Dev nD × Fin 7 × Fin 3) : GSem nD τ sig × ℕ × Fin 8 :=
  (((x.1 : Thread nD τ), (tokSem x.2).1), 0, (tokSem x.2).2)

theorem tokOf_injective : Function.Injective (tokOf : Dev nD × Fin 7 × Fin 3 → GSem nD τ sig × ℕ × Fin 8) := by
  rintro ⟨c, ij⟩ ⟨c', ij'⟩ h
  have h1 : c = c' := by have := congrArg (fun x : GSem nD τ sig × ℕ × Fin 8 => x.1.1.1) h; exact this
  subst h1
  have h2 : tokSem ij = tokSem ij' := Prod.ext (congrArg (fun x : GSem nD τ sig × ℕ × Fin 8 => x.1.2) h) (congrArg (fun x : GSem nD τ sig × ℕ × Fin 8 => x.2.2) h)
  rw [tokSem_inj ij ij' h2]

def ringToks : Finset (GSem nD τ sig × ℕ × Fin 8) := Finset.univ.map ⟨tokOf, tokOf_injective⟩

/-- The launch element: the pipeline's copy and the exchange's. -/
def u₀ : UU :=
  (initOf (Pipeline.cells cfgs cellOf_inj) (Pipeline.launchToks cfgs cellOf_inj), initOf ringCells ringToks)

/-- The duty tokens of device `c`'s own cells, as minted. -/
def toks (c : Dev nD) : sProp 𝕄 :=
  bigSep (Finset.univ.erase (0 : Fin 8)) fun d =>
    iprop(dutyTok ER (barCell c) 0 d ∗ dutyTok ER (sendCell c d) 0 0 ∗ dutyTok ER (recvCell c d) 0 0)

/-- What the launch element deals device `c`. -/
def G (c : Dev nD) : sProp 𝕄 :=
  iprop((bigSep Finset.univ fun k : Fin 17 => roundState ER (softRd m ρ) (kcell (c, k)) 0)
    ∗ (bigSep Finset.univ fun k : Fin 17 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- Iterated conjunctions over two finite sets commute. -/
theorem bigSep_comm' {α β : Type} (s : Finset α) (t : Finset β) (Φ : α → β → sProp 𝕄) :
    bigSep s (fun a => bigSep t (fun b => Φ a b)) = bigSep t (fun b => bigSep s (fun a => Φ a b)) := by
  classical
  induction s using Finset.induction_on with
  | empty => simp only [bigSep_empty]; exact (bigSep_emp_const t).symm
  | insert a s ha ih => simp only [bigSep_insert ha]; rw [ih, ← bigSep_sep]

omit [FloatOps F] in
/-- The offsets `1 … 7` are the successors of `0 … 6`. -/
theorem erase_zero_eq : (Finset.univ.erase (0 : Fin 8)) = Finset.univ.map (Fin.succEmb 7) := by decide

omit [FloatOps F] in
theorem toks_eq (c : Dev nD) :
    (bigSep Finset.univ fun ij : Fin 7 × Fin 3 => (dutyTok ER (tokOf (c, ij)).1 (tokOf (c, ij)).2.1 (tokOf (c, ij)).2.2 : sProp 𝕄)) = toks c := by
  unfold toks
  rw [bigSep_univ_prod, erase_zero_eq, bigSep_map]
  exact bigSep_congr fun i _ => by rw [bigSep_fin3]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (softRd m ρ) ringCells ringToks) $$ HX with ⟨Hst, Hr, Hat, Htok⟩
  imodintro
  ihave Hst' := (Entails.of_eq (hX fun g => roundState ER (softRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### Every cell's invariant, allocated for all devices under one update -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem csem_succ : ∀ k : Fin 16, csem k.succ = osem k := by decide

omit [FloatOps F] in
theorem erase_zero_eq17 : (Finset.univ.erase (0 : Fin 17)) = Finset.univ.map (Fin.succEmb 16) := by decide

omit [FloatOps F] in
/-- A device's seventeen counters at zero: its barrier semaphore's and its sixteen own. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [unscopedSems0_eq, bigSep_univ_at _ (0 : Fin 17), erase_zero_eq17, bigSep_map]
  unfold Pipeline.ownSems0
  iintro ⟨HS, HB⟩
  isplitl [HB]; · iexact HB
  iapply (Entails.of_eq (bigSep_congr (s := Finset.univ) fun (k : Fin 16) _ =>
    show (semVal ((c : Thread nD τ), osem k) 0 : sProp 𝕄) = semVal (kcell (c, Fin.succEmb 16 k)) 0 from by
      show _ = semVal ((c : Thread nD τ), csem k.succ) 0
      rw [csem_succ]))
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (softRd m ρ) κ (kcell (c, k))))
          ∗ (bigSep Finset.univ fun k : Fin 17 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (softRd m ρ) (kcell (c, k)) 0)
      ⊢ (|={Set.univ}=> bigSep Finset.univ fun k => iprop(∃ κ : ℕ, cellInv ER (softRd m ρ) κ (kcell (c, k))) : sProp 𝕄) from by
        rw [← bigSep_sep']
        exact (bigSep_mono fun k _ => (Rounds.body_intro ER (softRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The reflection of the offsets `1 … 7`. -/
def negE : Fin 8 ≃ Fin 8 := ⟨neg, neg, neg_neg, neg_neg⟩

omit [FloatOps F] in
theorem erase_zero_neg : (Finset.univ.erase (0 : Fin 8)).map negE.toEmbedding = Finset.univ.erase (0 : Fin 8) := by decide

omit [FloatOps F] in
/-- The tokens dealt round the ring: a barrier cell's token of duty `e` goes `e` places back (to the device that pays it),
    a receive cell's token of offset `d` goes `d` places back, a send cell's stays. -/
theorem toks_around : (bigSep Finset.univ fun c : Dev nD => (toks c : sProp 𝕄)) ⊢ bigSep Finset.univ fun c : Dev nD => payToks c := by
  have hneg (X : Fin 8 → sProp 𝕄) : bigSep (Finset.univ.erase (0 : Fin 8)) (fun d => X (neg d)) = bigSep (Finset.univ.erase (0 : Fin 8)) X := by
    conv_rhs => rw [← erase_zero_neg]
    rw [bigSep_map]; rfl
  have hA : (bigSep (Finset.univ.erase (0 : Fin 8)) fun d => bigSep Finset.univ fun c : Dev nD => (dutyTok ER (barCell (peer c d)) 0 (neg d) : sProp 𝕄))
      = bigSep (Finset.univ.erase (0 : Fin 8)) fun d => bigSep Finset.univ fun c : Dev nD => (dutyTok ER (barCell c) 0 d : sProp 𝕄) :=
    (bigSep_congr fun d _ => (bigSep_univ_equiv (ringBy d) fun c' : Dev nD => (dutyTok ER (barCell c') 0 (neg d) : sProp 𝕄)).symm).trans
      (hneg fun e => bigSep Finset.univ fun c : Dev nD => (dutyTok ER (barCell c) 0 e : sProp 𝕄))
  have hR : (bigSep (Finset.univ.erase (0 : Fin 8)) fun d => bigSep Finset.univ fun c : Dev nD => (dutyTok ER (recvCell (peer c d) d) 0 0 : sProp 𝕄))
      = bigSep (Finset.univ.erase (0 : Fin 8)) fun d => bigSep Finset.univ fun c : Dev nD => (dutyTok ER (recvCell c d) 0 0 : sProp 𝕄) :=
    bigSep_congr fun d _ => (bigSep_univ_equiv (ringBy d) fun c' : Dev nD => (dutyTok ER (recvCell c' d) 0 0 : sProp 𝕄)).symm
  unfold toks payToks
  rw [bigSep_comm', bigSep_comm' Finset.univ]
  simp only [bigSep_sep']
  rw [hA, hR]
  iintro ⟨H1, H2, H3⟩
  isplitl [H1]; · iexact H1
  isplitl [H3]; · iexact H3
  iexact H2

theorem ghost_intro (K : Dev nD × Fin 17 → ℕ) (c : Dev nD) : iprop(records m ρ K ∗ linear c) ⊢ G' m ρ c := by
  unfold G' ghost
  iintro H
  iexists K
  iexact H

theorem regroup :
    (bigSep Finset.univ fun c : Dev nD => iprop((bigSep Finset.univ fun k => iprop(∃ κ : ℕ, cellInv ER (softRd m ρ) κ (kcell (c, k))))
          ∗ (bigSep Finset.univ fun k : Fin 17 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (softRd m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (softRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : Fin 17 => (atPos ER (kcell (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem cred_tally_add (g : GSem nD τ sig) (a b : ℕ) :
    iprop(cred (tallyAt g () a) ∗ cred (tallyAt g () b)) ⊢ (cred (tallyAt g () (a + b)) : sProp 𝕄) := by
  rw [← tallyAt_add]; exact (cred_add _ _).2

omit [FloatOps F] in
/-- Every other device owes `c`'s barrier cell one unit, and the device `e` places back owes its receive cell `e` a copy's
    credit: the launch deals `c` the matching credit tokens. -/
theorem creds (c : Dev nD) :
    (Pipeline.launchCred O₀ c : sProp 𝕄) ⊢ iprop(cred (tallyAt (barCell c) () 7) ∗ bigSep (Finset.univ.erase (0 : Fin 8)) fun e => cred (tallyAt (recvCell c e) () N)) := by
  have hb (k : Fin 8) : (Pipeline.launchCred (fun d => bT d k) c : sProp 𝕄) ⊢ cred (tallyAt (barCell c) () 1) :=
    Pipeline.launchCred_tallyAt (.reg barS) (fun d => peer d k) (fun d => peer d (neg k)) (fun c => peer_neg_peer c k) (fun d => peer_peer_neg d k) () 1 c
  have hr (k : Fin 8) : (Pipeline.launchCred (fun d => rT d k) c : sProp 𝕄) ⊢ cred (tallyAt (recvCell c k) () N) :=
    Pipeline.launchCred_tallyAt (.dma (recvS k)) (fun d => peer d k) (fun d => peer d (neg k)) (fun c => peer_neg_peer c k) (fun d => peer_peer_neg d k) () N c
  rw [show (O₀ : Dev nD → CellTallies nD τ sig Unit) = fun d => OB2 d + bT d 1 from rfl, Pipeline.launchCred_add,
    show (OB2 : Dev nD → CellTallies nD τ sig Unit) = fun d => OB3 d + bT d 2 from rfl, Pipeline.launchCred_add,
    show (OB3 : Dev nD → CellTallies nD τ sig Unit) = fun d => OB4 d + bT d 3 from rfl, Pipeline.launchCred_add,
    show (OB4 : Dev nD → CellTallies nD τ sig Unit) = fun d => OB5 d + bT d 4 from rfl, Pipeline.launchCred_add,
    show (OB5 : Dev nD → CellTallies nD τ sig Unit) = fun d => OB6 d + bT d 5 from rfl, Pipeline.launchCred_add,
    show (OB6 : Dev nD → CellTallies nD τ sig Unit) = fun d => OB7 d + bT d 6 from rfl, Pipeline.launchCred_add,
    show (OB7 : Dev nD → CellTallies nD τ sig Unit) = fun d => OR1 d + bT d 7 from rfl, Pipeline.launchCred_add,
    show (OR1 : Dev nD → CellTallies nD τ sig Unit) = fun d => OR2 d + rT d 1 from rfl, Pipeline.launchCred_add,
    show (OR2 : Dev nD → CellTallies nD τ sig Unit) = fun d => OR3 d + rT d 2 from rfl, Pipeline.launchCred_add,
    show (OR3 : Dev nD → CellTallies nD τ sig Unit) = fun d => OR4 d + rT d 3 from rfl, Pipeline.launchCred_add,
    show (OR4 : Dev nD → CellTallies nD τ sig Unit) = fun d => OR5 d + rT d 4 from rfl, Pipeline.launchCred_add,
    show (OR5 : Dev nD → CellTallies nD τ sig Unit) = fun d => OR6 d + rT d 5 from rfl, Pipeline.launchCred_add,
    show (OR6 : Dev nD → CellTallies nD τ sig Unit) = fun d => OR7 d + rT d 6 from rfl, Pipeline.launchCred_add,
    show (OR7 : Dev nD → CellTallies nD τ sig Unit) = fun d => rT d 7 from rfl]
  rw [show (bigSep (Finset.univ.erase (0 : Fin 8)) fun e => (cred (tallyAt (recvCell c e) () N) : sProp 𝕄))
      = iprop(cred (tallyAt (recvCell c 1) () N) ∗ cred (tallyAt (recvCell c 2) () N) ∗ cred (tallyAt (recvCell c 3) () N) ∗ cred (tallyAt (recvCell c 4) () N)
          ∗ cred (tallyAt (recvCell c 5) () N) ∗ cred (tallyAt (recvCell c 6) () N) ∗ cred (tallyAt (recvCell c 7) () N)) from by
    rw [bigSep_eq_bigSepL_of_eq [1, 2, 3, 4, 5, 6, 7] (by decide) (by decide)]; rfl]
  iintro ⟨⟨⟨⟨⟨⟨⟨⟨⟨⟨⟨⟨⟨R7, R6⟩, R5⟩, R4⟩, R3⟩, R2⟩, R1⟩, B7⟩, B6⟩, B5⟩, B4⟩, B3⟩, B2⟩, B1⟩
  ihave B7 := (hb 7) $$ B7
  ihave B6 := (hb 6) $$ B6
  ihave B5 := (hb 5) $$ B5
  ihave B4 := (hb 4) $$ B4
  ihave B3 := (hb 3) $$ B3
  ihave B2 := (hb 2) $$ B2
  ihave B1 := (hb 1) $$ B1
  ihave R7 := (hr 7) $$ R7
  ihave R6 := (hr 6) $$ R6
  ihave R5 := (hr 5) $$ R5
  ihave R4 := (hr 4) $$ R4
  ihave R3 := (hr 3) $$ R3
  ihave R2 := (hr 2) $$ R2
  ihave R1 := (hr 1) $$ R1
  isplitl [B1 B2 B3 B4 B5 B6 B7]
  · ihave C := (cred_tally_add (F := F) (barCell c) 1 1) $$ [B1 B2]
    · isplitl [B1] <;> iassumption
    ihave C := (cred_tally_add (F := F) (barCell c) 2 1) $$ [C B3]
    · isplitl [C] <;> iassumption
    ihave C := (cred_tally_add (F := F) (barCell c) 3 1) $$ [C B4]
    · isplitl [C] <;> iassumption
    ihave C := (cred_tally_add (F := F) (barCell c) 4 1) $$ [C B5]
    · isplitl [C] <;> iassumption
    ihave C := (cred_tally_add (F := F) (barCell c) 5 1) $$ [C B6]
    · isplitl [C] <;> iassumption
    ihave C := (cred_tally_add (F := F) (barCell c) 6 1) $$ [C B7]
    · isplitl [C] <;> iassumption
    iexact C
  isplitl [R1]; · iexact R1
  isplitl [R2]; · iexact R2
  isplitl [R3]; · iexact R3
  isplitl [R4]; · iexact R4
  isplitl [R5]; · iexact R5
  isplitl [R6]; · iexact R6
  iexact R7

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩, ⟨%g, Ht⟩⟩
  isplitl [Hs]; · iexact Hs
  isplitl [Hr]
  · iexists f; iexact Hr
  · iexists g; iexact Ht

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ Pipeline.ownSems0
  iintro ⟨Hr, Ht, Hz⟩
  isplitr; · iempintro
  isplitl [Hz]; · iexact Hz
  isplitl [Hr] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- The arrays after the run, as the proof data compute them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's arrays at the computed contents — given the
    body obligation of every device. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Dist.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the stored result block. -/
theorem finalA_out (c : Dev nD) : finalA m ρ c (1 : Fin 2) = outAt m ρ c := by
  unfold finalA
  -- the one grid point writes the result window back; its block is the whole array
  rw [show cfg0.N = (t₀ : Fin cfg0.N).val + 1 from rfl, (dats (F := F) m ρ 0 c).arrAt_succ (1 : Fin 2) t₀, if_pos (flush0_1 t₀)]
  exact Memref.write_access_unit_zero_univ (Elt F) main_v1 (funext fun a => by fin_cases a <;> rfl) _ _ _

/-- The staged input block is the device's input array. -/
theorem xstg_eq (c : Dev nD) : xstg m ρ c = m ((c : Thread nD τ).loc main_arg0) := by
  unfold xstg
  exact Memref.read_access_unit_zero (Elt F) main_arg0 (funext fun a => by fin_cases a <;> rfl) _ _

end Cert.KernelIdeal.Dist

end
-- ==== Proof.StepSig.lean ====
import proofs.«901060_g7700000000001061_dist_softmax_colshard_i_m1024_n512_v7x_i8_f32_1_alg».proof.Proof.Levels

/-!
The exchange's steps at a symbolic device `c` and offset `d`: a signal to the device `d` places on, the wait for the seven
units of the device's own barrier cell, a copy of the device's table into slot `d` of the device `d` places on, and the
waits for a copy's arrival and for its departure.
-/

noncomputable section

namespace Cert.KernelIdeal.Dist

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 17 → ℕ)

/-- The records hold every cell's invariant. -/
theorem records_cellInv (ck : Dev nD × Fin 17) :
    records m ρ K ⊢ cellInv ER (softRd m ρ) (K ck) (kcell ck) := by
  unfold records
  exact sep_elim_left.trans (show _ ⊢ _ from
    bigSep_elim (Φ := fun ck : Dev nD × Fin 17 => cellInv ER (softRd m ρ) (K ck) (kcell ck)) (Finset.mem_univ ck))

/-- The records hold that round 0 of every cell is reached. -/
theorem records_reached (ck : Dev nD × Fin 17) :
    records m ρ K ⊢ reached ER (kcell ck) 0 := by
  unfold records
  exact sep_elim_right.trans (show _ ⊢ _ from
    bigSep_elim (Φ := fun ck : Dev nD × Fin 17 => reached ER (kcell ck) 0) (Finset.mem_univ ck))

/-- Signal `d`: the device `n = peer c d` is handed slot `neg d` of `c`'s table buffer. -/
theorem wp_sig (c : Dev nD) (d : Fin 8) (hd : d ≠ 0) (n : Dev nD) (hn : n = peer c d) (O : CellTallies nD τ sig Unit) (W : Waits sig Unit)
    (f : Buf (Elt F) (tLoc c)) {α : Type} {Q : α → sProp 𝕄} {k : PUnit → Prog (TpuEff nD τ sig (Elt F) Λ₀ .tc) α} :
    iprop(records m ρ K ∗ owes (c : Thread nD τ) (O + bT c d) W ∗ dutyTok ER (barCell (peer c d)) 0 (neg d) ∗ slotPts c fullShare f (neg d))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n, Proc.tc) : Thread nD τ) barS (1#32).toNat) k) Q) := by
  subst hn
  iintro ⟨#Hrec, HO, Htok, Hslot⟩
  iapply (Rounds.wp_signal 𝒱₀ ER (softRd m ρ) (c : Thread nD τ) none (dst := (peer c d : Thread nD τ)) (κ := K (peer c d, 0))
      (d := neg d) (by rw [duties_bar]; exact Finset.mem_erase.2 ⟨neg_ne_zero hd, Finset.mem_univ _⟩)
      ((amount_bar m ρ (peer c d) (neg d)).trans (by decide)) () O rfl) $$ [HO Htok Hslot]
  isplitr
  · iapply (records_cellInv m ρ K (peer c d, 0)); iexact Hrec
  isplitl [HO]; · iexact HO
  isplitl [Htok]; · iexact Htok
  isplitl [Hslot]
  · rw [payload_bar]; unfold barPay; rw [peer_peer_neg]
    isplitl [Hslot]; · iexists f; iexact Hslot
    rw [← kcell_recv]
    iapply (records_reached m ρ K (c, kR (neg d))); iexact Hrec
  · iapply (records_reached m ρ K (peer c d, 0)); iexact Hrec

/-- The wait for the seven units of the own barrier cell: every other device's slot for `c` comes with it. -/
theorem wp_barwait (c : Dev nD) (W : Waits sig Unit) {α : Type} {Q : α → sProp 𝕄} {k : PUnit → Prog (TpuEff nD τ sig (Elt F) Λ₀ .tc) α} :
    iprop(records m ρ K ∗ levAts L lv ∗ cred (tallyAt (barCell c) () 7) ∗ owes (c : Thread nD τ) (OR1 c) W ∗ atPos ER (barCell c) 0 ∅ 0)
      ⊢ iprop(((owes (c : Thread nD τ) (OR1 c) (insert (SemLoc.reg barS, ()) W) ∗ atPos ER (barCell c) 1 ∅ 0
              ∗ barPay (F := F) c 1 ∗ barPay (F := F) c 2 ∗ barPay (F := F) c 3 ∗ barPay (F := F) c 4 ∗ barPay (F := F) c 5 ∗ barPay (F := F) c 6 ∗ barPay (F := F) c 7)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32).toNat) k) Q) := by
  iintro ⟨#Hrec, #Hlev, Hc, HO, Hat⟩ Hk
  iapply (Rounds.wp_wait_rest_token 𝒱₀ ER (softRd m ρ) (c : Thread nD τ) none (κ := K (c, 0))
      (wpE_semWait_eq 𝒱₀ (c : Thread nD τ) none Set.univ) (Set.mem_univ _) () (O := OR1 c) (W := W) (R := 0) (m := 0) (T := ∅)
      (by rw [expect_bar]; decide)) $$ [Hc HO Hat]
  · isplitr; · iapply (records_cellInv m ρ K (c, 0)); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexact HO
  isplitl [Hat]; · iexact Hat
  iexact Hp

end Cert.KernelIdeal.Dist

end
-- ==== Proof.Slots.lean ====
import proofs.«901060_g7700000000001061_dist_softmax_colshard_i_m1024_n512_v7x_i8_f32_1_alg».proof.Proof.Proto
import Idealize.ShloMosaic.Lib.ValueLayout

/-!
A device's table buffer cut into its eight slots and put together again; slot 0 cut into the shares the seven copies
borrow; and the contents a store or a landing copy leaves in a slot, read as the table of the device they come from.
-/

noncomputable section

namespace Cert.KernelIdeal.Dist

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rectangle of slot 0 in the table buffer, as the body stores its own table. -/
abbrev rS0 : Rect S8x2x1024 := Rect.unit (s := S8x2x1024) ![0, 0, 0] S1x2x1024.size inb_S8x2x1024_S1x2x1024_0_0_0

/-! ## The slots' element sets -/

/-- An index of the table buffer lies in the rectangle of slot `d` exactly when its first coordinate is `d`. -/
theorem mem_slotRect (d : Nat) (inb : ∀ a, (![d, 0, 0] : Fin 3 → Nat) a + S1x2x1024.size a ≤ S8x2x1024.size a)
    (i : S8x2x1024.Idx) :
    i ∈ (Rect.unit (s := S8x2x1024) ![d, 0, 0] S1x2x1024.size inb).set ↔ (i 0).val = d := by
  rw [Rect.mem_set_unit]
  constructor
  · intro h
    have h0 := h 0
    simp only [Matrix.cons_val_zero] at h0
    have : S1x2x1024.size 0 = 1 := rfl
    omega
  · intro h a
    have ha := (i a).isLt
    fin_cases a
    · have : S1x2x1024.size 0 = 1 := rfl
      simp only [Fin.zero_eta, Matrix.cons_val_zero]
      omega
    · exact ⟨Nat.zero_le _, by simpa using ha⟩
    · exact ⟨Nat.zero_le _, by simpa using ha⟩

/-- The elements under a slot's squeezed slice are the slot's rectangle. -/
theorem slot_set_eq (d : Nat) (inb : ∀ a, (![d, 0, 0] : Fin 3 → Nat) a + S1x2x1024.size a ≤ S8x2x1024.size a) :
    (((tM : Memref sig .tc .vmem S8x2x1024 .f32).slice (Rect.unit (s := S8x2x1024) ![d, 0, 0] S1x2x1024.size inb) (fun _ => rfl)).squeeze
        S2x1024 squeezes_S1x2x1024_S2x1024).view.set
      = (Rect.unit (s := S8x2x1024) ![d, 0, 0] S1x2x1024.size inb).set :=
  (View.set_reshape _ _).trans (View.set_slice_whole _ _)

theorem store0_sub : ((tM : Memref sig .tc .vmem S8x2x1024 .f32).access rS0 : View sig .tc _ _ _).setOn Finset.univ
    ⊆ (slot0 : Memref sig .tc .vmem S2x1024 .f32).view.set := by
  rw [View.setOn_univ, slot_set_eq 0 inb_S8x2x1024_S1x2x1024_0_0_0]
  exact (View.set_slice_whole _ _).subset

theorem load0_sub : (tM : Memref sig .tc .vmem S8x2x1024 .f32).view.setOn rS0.toLoadRect.set
    ⊆ (slot0 : Memref sig .tc .vmem S2x1024 .f32).view.set := by
  rw [slot_set_eq 0 inb_S8x2x1024_S1x2x1024_0_0_0]
  intro i hi
  rw [View.setOn, Finset.mem_map] at hi
  obtain ⟨x, hx, rfl⟩ := hi
  exact hx

/-- The in-bounds evidence of slot `d`'s rectangle, for any `d`. -/
theorem inbSlot (d : Fin 8) : ∀ a, (![d.val, 0, 0] : Fin 3 → Nat) a + S1x2x1024.size a ≤ S8x2x1024.size a := by
  intro a
  have hd := d.isLt
  fin_cases a
  · show d.val + 1 ≤ 8; omega
  · show 0 + 2 ≤ 2; omega
  · show 0 + 1024 ≤ 1024; omega

/-- The elements of slot `d`: those with first coordinate `d`. -/
def slotSet (d : Fin 8) : Finset S8x2x1024.Idx :=
  (Rect.unit (s := S8x2x1024) ![d.val, 0, 0] S1x2x1024.size (inbSlot d)).set

theorem mem_slotSet (d : Fin 8) (i : S8x2x1024.Idx) : i ∈ slotSet d ↔ (i 0).val = d.val := mem_slotRect _ _ i

omit [FloatOps F] in
/-- A slot's points-to, over the table buffer's own location and the slot's set of elements. -/
theorem slotPts_eq (c : Dev nD) (q : PosShare TreeShare) (f : Buf (Elt F) (tLoc c)) (d : Fin 8) :
    (slotPts c q f d : sProp 𝕄) = (tLoc c ↦[slotSet d]{q} f) := by
  fin_cases d
  · dsimp only [slotPts]; rw [slot_set_eq 0 inb_S8x2x1024_S1x2x1024_0_0_0]; rfl
  · dsimp only [slotPts]; rw [slot_set_eq 1 inb_S8x2x1024_S1x2x1024_1_0_0]; rfl
  · dsimp only [slotPts]; rw [slot_set_eq 2 inb_S8x2x1024_S1x2x1024_2_0_0]; rfl
  · dsimp only [slotPts]; rw [slot_set_eq 3 inb_S8x2x1024_S1x2x1024_3_0_0]; rfl
  · dsimp only [slotPts]; rw [slot_set_eq 4 inb_S8x2x1024_S1x2x1024_4_0_0]; rfl
  · dsimp only [slotPts]; rw [slot_set_eq 5 inb_S8x2x1024_S1x2x1024_5_0_0]; rfl
  · dsimp only [slotPts]; rw [slot_set_eq 6 inb_S8x2x1024_S1x2x1024_6_0_0]; rfl
  · dsimp only [slotPts]; rw [slot_set_eq 7 inb_S8x2x1024_S1x2x1024_7_0_0]; rfl

/-! ## Contents read and written through a slot -/

/-- The device `e` places before the device `e` places after `c` is `c`. -/
theorem back_peer (c : Dev nD) (e : Fin 8) : back (peer c e) e = c := by revert c e; decide

omit [FloatOps F] in
/-- Where a slot's view puts its index `y`: slot `d`, row `y 0`, column `y 1`. -/
theorem slot_emb (d : Nat) (inb : ∀ a, (![d, 0, 0] : Fin 3 → Nat) a + S1x2x1024.size a ≤ S8x2x1024.size a)
    (y : S2x1024.Idx) (a : Fin 3) :
    (((((tM : Memref sig .tc .vmem S8x2x1024 .f32).slice (Rect.unit (s := S8x2x1024) ![d, 0, 0] S1x2x1024.size inb) (fun _ => rfl)).squeeze
        S2x1024 squeezes_S1x2x1024_S2x1024).view.emb y : S8x2x1024.Idx) a).val
      = (![d, (y 0).val, (y 1).val] : Fin 3 → Nat) a := by
  show ((Rect.unit (s := S8x2x1024) ![d, 0, 0] S1x2x1024.size inb).emb
    (Shape.reshapeEquiv squeezes_S1x2x1024_S2x1024.numel_eq y) a).val = _
  have hr : Shape.reshapeEquiv squeezes_S1x2x1024_S2x1024.numel_eq y
      = ValueIdx.ix3 (n0 := 1) (n1 := 2) (n2 := 1024) ⟨0, Nat.one_pos⟩ (y 0) (y 1) :=
    (congrArg _ (ValueIdx.eq_ix2 (n0 := 2) (n1 := 1024) y)).trans
      (ValueIdx.reshapeEquiv_ix2_1ab (a := 2) (b := 1024) squeezes_S1x2x1024_S2x1024.numel_eq (y 0) (y 1))
  rw [hr]
  fin_cases a
  · show d + 1 * 0 = d; omega
  · show 0 + 1 * (y 0).val = (y 0).val; omega
  · show 0 + 1 * (y 1).val = (y 1).val; omega

/-- Slot `d` of the table buffer as a memref, for any `d` (the eight named slots are this at the literals). -/
abbrev slotAt (d : Nat) (inb : ∀ a, (![d, 0, 0] : Fin 3 → Nat) a + S1x2x1024.size a ≤ S8x2x1024.size a) :
    Memref sig .tc .vmem S2x1024 .f32 :=
  ((tM : Memref sig .tc .vmem S8x2x1024 .f32).slice (Rect.unit (s := S8x2x1024) ![d, 0, 0] S1x2x1024.size inb) (fun _ => rfl)).squeeze
    S2x1024 squeezes_S1x2x1024_S2x1024

omit [FloatOps F] in
/-- An index of the table buffer in slot `d` is where the slot's view puts its row and column. -/
theorem slot_emb_eq (d : Nat) (inb : ∀ a, (![d, 0, 0] : Fin 3 → Nat) a + S1x2x1024.size a ≤ S8x2x1024.size a)
    (i : S8x2x1024.Idx) (hi : (i 0).val = d) :
    ((slotAt d inb).view.emb (ValueIdx.ix2 (n0 := 2) (n1 := 1024) (i 1) (i 2)) : S8x2x1024.Idx) = i := by
  funext a
  apply Fin.ext
  rw [slot_emb]
  fin_cases a
  · exact hi.symm
  · rfl
  · rfl

/-- Written whole through slot `d`, the buffer holds the payload at every index of the slot. -/
theorem slot_write_apply (d : Nat) (inb : ∀ a, (![d, 0, 0] : Fin 3 → Nat) a + S1x2x1024.size a ≤ S8x2x1024.size a)
    (fd : S8x2x1024.Idx → Elt F .f32) (w : S2x1024.Idx → Elt F .f32) (i : S8x2x1024.Idx) (hi : (i 0).val = d) :
    ((slotAt d inb).view.write (Elt F) fd w Finset.univ) i = w (ValueIdx.ix2 (n0 := 2) (n1 := 1024) (i 1) (i 2)) := by
  have h := View.write_emb_of_mem (v := (slotAt d inb).view) (Val := Elt F) fd w (M := Finset.univ)
    (x := ValueIdx.ix2 (n0 := 2) (n1 := 1024) (i 1) (i 2)) (Finset.mem_univ _)
  rw [slot_emb_eq d inb i hi] at h
  exact h.trans (cast_eq _ _)

/-- Read through slot `d`, the buffer's contents at slot `d`, the index's row and column. -/
theorem slot_read_apply (d : Nat) (inb : ∀ a, (![d, 0, 0] : Fin 3 → Nat) a + S1x2x1024.size a ≤ S8x2x1024.size a) (hd : d < 8)
    (g : S8x2x1024.Idx → Elt F .f32) (y : S2x1024.Idx) :
    (slotAt d inb).view.read (Elt F) g y = g (ValueIdx.ix3 (n0 := 8) (n1 := 2) (n2 := 1024) ⟨d, hd⟩ (y 0) (y 1)) := by
  have he : ((slotAt d inb).view.emb y : S8x2x1024.Idx) = ValueIdx.ix3 (n0 := 8) (n1 := 2) (n2 := 1024) ⟨d, hd⟩ (y 0) (y 1) := by
    funext a
    apply Fin.ext
    rw [slot_emb]
    fin_cases a <;> rfl
  rw [View.read_apply, he]
  exact cast_eq _ _

/-- In slot `e` of the device `e` places on, the final table buffer holds device `c`'s table. -/
theorem allStats_of_slot (xs : Dev nD → Vec F S1024x512 .f32) (c : Dev nD) (e : Fin 8) (i : S8x2x1024.Idx)
    (hi : (i 0).val = e.val) : allStats xs (peer c e) i = statsOf (xs c) (inSlot i) := by
  show statsOf (xs (back (peer c e) ⟨(i 0).val, (i 0).isLt⟩)) (inSlot i) = _
  have h : (⟨(i 0).val, (i 0).isLt⟩ : Fin 8) = e := Fin.ext hi
  rw [h, back_peer]

/-- In its own slot 0 the final table buffer holds the device's own table. -/
theorem allStats_of_slot0 (xs : Dev nD → Vec F S1024x512 .f32) (c : Dev nD) (i : S8x2x1024.Idx)
    (hi : (i 0).val = 0) : allStats xs c i = statsOf (xs c) (inSlot i) := by
  have h := allStats_of_slot xs c 0 i hi
  rwa [peer_zero] at h

/-- What a copy of slot 0 of device `c`'s final table buffer leaves in slot `e` of the device `e` places on. -/
theorem landed_at (c : Dev nD) (e : Fin 8) (inb : ∀ a, (![e.val, 0, 0] : Fin 3 → Nat) a + S1x2x1024.size a ≤ S8x2x1024.size a)
    (fd : S8x2x1024.Idx → Elt F .f32) (i : S8x2x1024.Idx) (hi : i ∈ (slotAt e.val inb).view.set) :
    ((slotAt e.val inb).view.write (Elt F) fd
        ((slot0 : Memref sig .tc .vmem S2x1024 .f32).view.read (Elt F) (allStats (xs m ρ) c)) Finset.univ) i
      = allStats (xs m ρ) (peer c e) i := by
  rw [slot_set_eq] at hi
  have hi0 := (mem_slotRect _ _ i).mp hi
  rw [slot_write_apply e.val inb fd _ i hi0, slot_read_apply 0 inb_S8x2x1024_S1x2x1024_0_0_0 (by decide),
    allStats_of_slot (xs m ρ) c e i hi0, allStats_of_slot0 (xs m ρ) c _ rfl]
  congr 1

omit [FloatOps F] in
/-- The table buffer is its eight slots. -/
theorem table_split (c : Dev nD) (f : Buf (Elt F) (tLoc c)) :
    (tLoc c ↦{fullShare} f : sProp 𝕄) ⊣⊢ iprop(slotPts c fullShare f 0 ∗ slotPts c fullShare f 1 ∗ slotPts c fullShare f 2 ∗ slotPts c fullShare f 3 ∗ slotPts c fullShare f 4 ∗ slotPts c fullShare f 5 ∗ slotPts c fullShare f 6 ∗ slotPts c fullShare f 7) := by
  have hU : (Finset.univ : Finset (Idx (tLoc c))) = (Finset.univ : Finset (Fin 8)).biUnion slotSet := by
    ext i
    simp only [Finset.mem_univ, Finset.mem_biUnion, true_and, true_iff]
    exact ⟨⟨(i 0).val, (i 0).isLt⟩, (mem_slotSet _ i).mpr rfl⟩
  have hd : ∀ d ∈ (Finset.univ : Finset (Fin 8)), ∀ d' ∈ (Finset.univ : Finset (Fin 8)), d ≠ d' → Disjoint (slotSet d) (slotSet d') :=
    fun d _ d' _ hne => Finset.disjoint_left.mpr fun i hi hi' =>
      hne (Fin.ext (((mem_slotSet d i).mp hi).symm.trans ((mem_slotSet d' i).mp hi')))
  rw [hU, pointsTo_biUnion _ _ hd, bigSep_univ_eq_bigSepL [0, 1, 2, 3, 4, 5, 6, 7] (by decide) (by decide)]
  simp only [slotPts_eq]
  exact ⟨.rfl, .rfl⟩

omit [FloatOps F] in
/-- Slot 0 is the seven shares the copies borrow and what they leave. -/
theorem slot0_shares (c : Dev nD) (f : Buf (Elt F) (tLoc c)) :
    (slotPts c fullShare f 0 : sProp 𝕄) ⊣⊢ iprop(slotPts c (shr 1) f 0 ∗ slotPts c (shr 2) f 0 ∗ slotPts c (shr 3) f 0 ∗ slotPts c (shr 4) f 0 ∗ slotPts c (shr 5) f 0 ∗ slotPts c (shr 6) f 0 ∗ slotPts c (shr 7) f 0 ∗ slotPts c shrRest f 0) := by
  have e : ∀ q : PosShare TreeShare,
      (slotPts c q f 0 : sProp 𝕄) = iprop(slotPts c q.left f 0 ∗ slotPts c q.right f 0) := fun q => by
    rw [slotPts_eq, slotPts_eq, slotPts_eq]
    exact BI.equiv_iff.mp ⟨(pointsTo_share (PosShare.mem_left_op_right q)).1, (pointsTo_share (PosShare.mem_left_op_right q)).2⟩
  have h := e fullShare
  rw [e fullShare.right, e fullShare.right.right, e fullShare.right.right.right, e fullShare.right.right.right.right,
    e fullShare.right.right.right.right.right, e fullShare.right.right.right.right.right.right] at h
  rw [h]
  exact ⟨.rfl, .rfl⟩

omit [FloatOps F] in
/-- Only the contents inside the slot matter. -/
theorem slotPts_congr (c : Dev nD) (q : PosShare TreeShare) (d : Fin 8) (f g : Buf (Elt F) (tLoc c))
    (h : ∀ i : S8x2x1024.Idx, (i 0).val = d.val → (f : S8x2x1024.Idx → Elt F .f32) i = (g : S8x2x1024.Idx → Elt F .f32) i) :
    (slotPts c q f d : sProp 𝕄) = slotPts c q g d := by
  rw [slotPts_eq, slotPts_eq]
  exact pointsTo_congr fun i hi => h i ((mem_slotSet d i).mp hi)

/-- After the device's table is stored into slot 0, slot 0 holds the device's own table. -/
theorem stored_eq (c : Dev nD) (q : PosShare TreeShare) (f : Buf (Elt F) (tLoc c)) :
    (slotPts c q (((tM : Memref sig .tc .vmem S8x2x1024 .f32).access rS0 : View sig .tc _ _ _).write (Elt F) f (k0_pay5 (k0_pay2 (xstg m ρ c))) Finset.univ) 0 : sProp 𝕄)
      = slotPts c q (allStats (xs m ρ) c) 0 := by
  refine slotPts_congr c q 0 _ _ fun i hi => ?_
  have hi0 : (i 0).val = 0 := hi
  have he : (((tM : Memref sig .tc .vmem S8x2x1024 .f32).access rS0 : View sig .tc _ _ _).emb (inSlot i) : S8x2x1024.Idx) = i := by
    funext a
    apply Fin.ext
    fin_cases a
    · show 0 + 1 * 0 = (i 0).val; omega
    · show 0 + 1 * (i 1).val = (i 1).val; omega
    · show 0 + 1 * (i 2).val = (i 2).val; omega
  have h := View.write_emb_of_mem (v := ((tM : Memref sig .tc .vmem S8x2x1024 .f32).access rS0 : View sig .tc _ _ _)) (Val := Elt F)
    f (k0_pay5 (k0_pay2 (xstg m ρ c))) (M := Finset.univ) (x := inSlot i) (Finset.mem_univ _)
  rw [he] at h
  refine (h.trans (cast_eq _ _)).trans ?_
  exact (allStats_of_slot0 (xs m ρ) c i hi0).symm

/-- What a copy from device `c` lands in slot `e` of the device `e` places on: that device's table buffer as it will read it. -/
theorem landed_eq (c : Dev nD) (e : Fin 8) (he : e ≠ 0) (dst : Memref sig .tc .vmem S2x1024 .f32) (hdv : dst = slotV e)
    (fd : Buf (Elt F) (dst.view.loc (peer c e : Thread nD τ))) :
    (dst.view.loc (peer c e : Thread nD τ) ↦[dst.view.set]{fullShare}
        (dst.view.write (Elt F) fd ((slot0 : Memref sig .tc .vmem S2x1024 .f32).view.read (Elt F) (allStats (xs m ρ) c)) Finset.univ) : sProp 𝕄)
      ⊢ slotPts (peer c e) fullShare (allStats (xs m ρ) (peer c e)) e := by
  subst hdv
  fin_cases e
  · exact absurd rfl he
  · dsimp only [slotPts, slotV]; exact Entails.of_eq (pointsTo_congr fun i hi => landed_at m ρ c 1 inb_S8x2x1024_S1x2x1024_1_0_0 fd i hi)
  · dsimp only [slotPts, slotV]; exact Entails.of_eq (pointsTo_congr fun i hi => landed_at m ρ c 2 inb_S8x2x1024_S1x2x1024_2_0_0 fd i hi)
  · dsimp only [slotPts, slotV]; exact Entails.of_eq (pointsTo_congr fun i hi => landed_at m ρ c 3 inb_S8x2x1024_S1x2x1024_3_0_0 fd i hi)
  · dsimp only [slotPts, slotV]; exact Entails.of_eq (pointsTo_congr fun i hi => landed_at m ρ c 4 inb_S8x2x1024_S1x2x1024_4_0_0 fd i hi)
  · dsimp only [slotPts, slotV]; exact Entails.of_eq (pointsTo_congr fun i hi => landed_at m ρ c 5 inb_S8x2x1024_S1x2x1024_5_0_0 fd i hi)
  · dsimp only [slotPts, slotV]; exact Entails.of_eq (pointsTo_congr fun i hi => landed_at m ρ c 6 inb_S8x2x1024_S1x2x1024_6_0_0 fd i hi)
  · dsimp only [slotPts, slotV]; exact Entails.of_eq (pointsTo_congr fun i hi => landed_at m ρ c 7 inb_S8x2x1024_S1x2x1024_7_0_0 fd i hi)

end Cert.KernelIdeal.Dist

end
-- ==== Proof.StepXfer.lean ====
import proofs.«901060_g7700000000001061_dist_softmax_colshard_i_m1024_n512_v7x_i8_f32_1_alg».proof.Proof.Levels
import proofs.«901060_g7700000000001061_dist_softmax_colshard_i_m1024_n512_v7x_i8_f32_1_alg».proof.Proof.Slots

/-!
A copy of the device's table into the device `d` places on, the waits for a copy's arrival and departure, and the own
cells closed once their round is consumed.
-/

noncomputable section

namespace Cert.KernelIdeal.Dist

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 17 → ℕ)

/-- The invariant of a device's receive cell, among the records. -/
theorem inv_recv (c : Dev nD) (e : Fin 8) :
    records m ρ K ⊢ cellInv ER (softRd m ρ) (K (c, kR e)) (recvCell c e) := by
  have h : (bigSep Finset.univ fun ck : Dev nD × Fin 17 => cellInv ER (softRd m ρ) (K ck) (kcell ck))
      ⊢ cellInv ER (softRd m ρ) (K (c, kR e)) (kcell (c, kR e)) := bigSep_elim (Finset.mem_univ (c, kR e))
  rw [kcell_recv] at h
  unfold records
  iintro ⟨HI, -⟩
  iapply h $$ HI

/-- The invariant of a device's send cell, among the records. -/
theorem inv_send (c : Dev nD) (d : Fin 8) :
    records m ρ K ⊢ cellInv ER (softRd m ρ) (K (c, kS d)) (sendCell c d) := by
  have h : (bigSep Finset.univ fun ck : Dev nD × Fin 17 => cellInv ER (softRd m ρ) (K ck) (kcell ck))
      ⊢ cellInv ER (softRd m ρ) (K (c, kS d)) (kcell (c, kS d)) := bigSep_elim (Finset.mem_univ (c, kS d))
  rw [kcell_send] at h
  unfold records
  iintro ⟨HI, -⟩
  iapply h $$ HI

/-- Every slot's view carries one table's credit. -/
theorem credit_slot (e : Fin 8) : (slotV e : Memref sig .tc .vmem S2x1024 .f32).view.dmaCredit = N := by
  fin_cases e <;> rfl

/-- A send cell whose rounds from `R` on have no duty closes at its position `(R, ∅, 0)`: its counter reads zero. -/
theorem close_send (c : Dev nD) (d : Fin 8) (R : ℕ) (hR : ∀ r, R ≤ r → (softRd (F := F) m ρ).duties (sendCell c d) r = ∅) :
    iprop(records m ρ K ∗ atPos ER (sendCell c d) R ∅ 0) ⊢ (|={Set.univ}=> semVal (sendCell c d) 0 : sProp 𝕄) := by
  iintro ⟨#Hrec, Hat⟩
  ihave #HI := (inv_send m ρ K c d) $$ Hrec
  iapply (Rounds.cell_close ER (softRd m ρ) (κ := K (c, kS d)) (Set.mem_univ _) (fun h => h) hR)
  isplitr; · iexact HI
  iexact Hat

/-- The same for a receive cell. -/
theorem close_recv (c : Dev nD) (e : Fin 8) (R : ℕ) (hR : ∀ r, R ≤ r → (softRd (F := F) m ρ).duties (recvCell c e) r = ∅) :
    iprop(records m ρ K ∗ atPos ER (recvCell c e) R ∅ 0) ⊢ (|={Set.univ}=> semVal (recvCell c e) 0 : sProp 𝕄) := by
  iintro ⟨#Hrec, Hat⟩
  ihave #HI := (inv_recv m ρ K c e) $$ Hrec
  iapply (Rounds.cell_close ER (softRd m ρ) (κ := K (c, kR e)) (Set.mem_univ _) (fun h => h) hR)
  isplitr; · iexact HI
  iexact Hat

omit [FloatOps F] in
/-- A device's sixteen own counters, listed: the eight send cells, then the eight receive cells. -/
theorem own_listed (c : Dev nD) :
    (bigSep Finset.univ fun k : Fin 16 => semVal ((c : Thread nD τ), osem k) 0 : sProp 𝕄)
      = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) := by
  rw [bigSep_univ_eq_bigSepL [0, 1, 2, 3, 4, 5, 6, 7, 8, 9, 10, 11, 12, 13, 14, 15] (by decide) (by decide)]
  rfl

/-- Round 0 of a device's send cell is reached, among the records. -/
theorem reached_send (c : Dev nD) (d : Fin 8) : records m ρ K ⊢ reached ER (sendCell c d) 0 := by
  have h : (bigSep Finset.univ fun ck : Dev nD × Fin 17 => reached ER (kcell ck) 0 : sProp 𝕄)
      ⊢ reached ER (kcell (c, kS d)) 0 := bigSep_elim (Finset.mem_univ (c, kS d))
  rw [kcell_send] at h
  unfold records
  iintro ⟨-, HR⟩
  iapply h $$ HR

/-- Round 0 of a device's receive cell is reached, among the records. -/
theorem reached_recv (c : Dev nD) (e : Fin 8) : records m ρ K ⊢ reached ER (recvCell c e) 0 := by
  have h : (bigSep Finset.univ fun ck : Dev nD × Fin 17 => reached ER (kcell ck) 0 : sProp 𝕄)
      ⊢ reached ER (kcell (c, kR e)) 0 := bigSep_elim (Finset.mem_univ (c, kR e))
  rw [kcell_recv] at h
  unfold records
  iintro ⟨-, HR⟩
  iapply h $$ HR

/-- Copy `d`: a borrowed share of slot 0 is read, slot `d` of `n = peer c d` written. -/
theorem wp_snd (c : Dev nD) (d : Fin 8) (hd : d ≠ 0) (n : Dev nD) (hn : n = peer c d)
    (sS sR : DmaSem sig) (hS : sS = sendS d) (hR : sR = recvS d)
    (dst : Memref sig .tc .vmem S2x1024 .f32) (hdv : dst = slotV d)
    (O : CellTallies nD τ sig Unit) (W : Waits sig Unit) (fn : Buf (Elt F) (tLoc (peer c d)))
    {hsc : (dst : Memref sig (Dev.tc n : Thread nD τ).2.kind .vmem S2x1024 .f32).view.ref.isScScratch = false}
    {hsrc : (slot0 : Memref sig .tc .vmem S2x1024 .f32).view.WordExact} {hdst : (dst : Memref sig .tc .vmem S2x1024 .f32).view.WordExact}
    {hsem : DmaTarget.Typed .vmem (.dma sR) (.remote (Dev.tc n : Thread nD τ) (dst : Memref sig .tc .vmem S2x1024 .f32) (.dma sS) hsc)}
    {α : Type} {Q : α → sProp 𝕄} {k : PUnit → Prog (TpuEff nD τ sig (Elt F) Λ₀ .tc) α} :
    iprop(records m ρ K ∗ slotPts c (shr d) (allStats (xs m ρ) c) 0 ∗ slotPts (peer c d) fullShare fn d
        ∗ owes (c : Thread nD τ) (O + rT c d) W ∗ dutyTok ER (sendCell c d) 0 0 ∗ dutyTok ER (recvCell (peer c d) d) 0 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot0 : Memref sig .tc .vmem S2x1024 .f32) (.remote (Dev.tc n : Thread nD τ) dst (.dma sS) hsc) (.dma sR) hsrc hdst hsem) k) Q) := by
  subst hn hS hR hdv
  fin_cases d
  · exact absurd rfl hd
  · dsimp only [slotPts, slotV]
    have hi : (1 : Fin 8) ≠ 0 := by decide
    iintro ⟨#Hrec, Hsrc, Hdst, HO, HtS, HtR⟩
    ihave #HIs := (inv_send m ρ K c 1) $$ Hrec
    ihave #HIr := (inv_recv m ρ K (peer c 1) 1) $$ Hrec
    ihave #HrS := (reached_send m ρ K c 1) $$ Hrec
    ihave #HrR := (reached_recv m ρ K (peer c 1) 1) $$ Hrec
    iapply (Rounds.wp_send_pointsTo 𝒱₀ ER (softRd m ρ) (c : Thread nD τ) none
        (c' := (peer c 1 : Thread nD τ)) (src := slot0) (dst := slot1) (q := shr 1)
        (fs := allStats (xs m ρ) c) (fd := fn)
        (κ₁ := K (c, kS 1)) (κ₂ := K (peer c 1, kR 1)) (r₁ := 0) (r₂ := 0) (d₁ := 0) (d₂ := 0)
        (by rw [duties_send m ρ c hi]; exact Finset.mem_singleton_self _)
        (by rw [duties_recv m ρ (peer c 1) hi]; exact Finset.mem_singleton_self _)
        () () N rfl (amount_send m ρ c 1 0) (amount_recv m ρ (peer c 1) 1 0) O rfl (W := W)
        (by rw [payload_send]; exact Entails.refl _)
        (by rw [payload_recv]; exact landed_eq m ρ c 1 hi slot1 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  · dsimp only [slotPts, slotV]
    have hi : (2 : Fin 8) ≠ 0 := by decide
    iintro ⟨#Hrec, Hsrc, Hdst, HO, HtS, HtR⟩
    ihave #HIs := (inv_send m ρ K c 2) $$ Hrec
    ihave #HIr := (inv_recv m ρ K (peer c 2) 2) $$ Hrec
    ihave #HrS := (reached_send m ρ K c 2) $$ Hrec
    ihave #HrR := (reached_recv m ρ K (peer c 2) 2) $$ Hrec
    iapply (Rounds.wp_send_pointsTo 𝒱₀ ER (softRd m ρ) (c : Thread nD τ) none
        (c' := (peer c 2 : Thread nD τ)) (src := slot0) (dst := slot2) (q := shr 2)
        (fs := allStats (xs m ρ) c) (fd := fn)
        (κ₁ := K (c, kS 2)) (κ₂ := K (peer c 2, kR 2)) (r₁ := 0) (r₂ := 0) (d₁ := 0) (d₂ := 0)
        (by rw [duties_send m ρ c hi]; exact Finset.mem_singleton_self _)
        (by rw [duties_recv m ρ (peer c 2) hi]; exact Finset.mem_singleton_self _)
        () () N rfl (amount_send m ρ c 2 0) (amount_recv m ρ (peer c 2) 2 0) O rfl (W := W)
        (by rw [payload_send]; exact Entails.refl _)
        (by rw [payload_recv]; exact landed_eq m ρ c 2 hi slot2 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  · dsimp only [slotPts, slotV]
    have hi : (3 : Fin 8) ≠ 0 := by decide
    iintro ⟨#Hrec, Hsrc, Hdst, HO, HtS, HtR⟩
    ihave #HIs := (inv_send m ρ K c 3) $$ Hrec
    ihave #HIr := (inv_recv m ρ K (peer c 3) 3) $$ Hrec
    ihave #HrS := (reached_send m ρ K c 3) $$ Hrec
    ihave #HrR := (reached_recv m ρ K (peer c 3) 3) $$ Hrec
    iapply (Rounds.wp_send_pointsTo 𝒱₀ ER (softRd m ρ) (c : Thread nD τ) none
        (c' := (peer c 3 : Thread nD τ)) (src := slot0) (dst := slot3) (q := shr 3)
        (fs := allStats (xs m ρ) c) (fd := fn)
        (κ₁ := K (c, kS 3)) (κ₂ := K (peer c 3, kR 3)) (r₁ := 0) (r₂ := 0) (d₁ := 0) (d₂ := 0)
        (by rw [duties_send m ρ c hi]; exact Finset.mem_singleton_self _)
        (by rw [duties_recv m ρ (peer c 3) hi]; exact Finset.mem_singleton_self _)
        () () N rfl (amount_send m ρ c 3 0) (amount_recv m ρ (peer c 3) 3 0) O rfl (W := W)
        (by rw [payload_send]; exact Entails.refl _)
        (by rw [payload_recv]; exact landed_eq m ρ c 3 hi slot3 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  · dsimp only [slotPts, slotV]
    have hi : (4 : Fin 8) ≠ 0 := by decide
    iintro ⟨#Hrec, Hsrc, Hdst, HO, HtS, HtR⟩
    ihave #HIs := (inv_send m ρ K c 4) $$ Hrec
    ihave #HIr := (inv_recv m ρ K (peer c 4) 4) $$ Hrec
    ihave #HrS := (reached_send m ρ K c 4) $$ Hrec
    ihave #HrR := (reached_recv m ρ K (peer c 4) 4) $$ Hrec
    iapply (Rounds.wp_send_pointsTo 𝒱₀ ER (softRd m ρ) (c : Thread nD τ) none
        (c' := (peer c 4 : Thread nD τ)) (src := slot0) (dst := slot4) (q := shr 4)
        (fs := allStats (xs m ρ) c) (fd := fn)
        (κ₁ := K (c, kS 4)) (κ₂ := K (peer c 4, kR 4)) (r₁ := 0) (r₂ := 0) (d₁ := 0) (d₂ := 0)
        (by rw [duties_send m ρ c hi]; exact Finset.mem_singleton_self _)
        (by rw [duties_recv m ρ (peer c 4) hi]; exact Finset.mem_singleton_self _)
        () () N rfl (amount_send m ρ c 4 0) (amount_recv m ρ (peer c 4) 4 0) O rfl (W := W)
        (by rw [payload_send]; exact Entails.refl _)
        (by rw [payload_recv]; exact landed_eq m ρ c 4 hi slot4 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  · dsimp only [slotPts, slotV]
    have hi : (5 : Fin 8) ≠ 0 := by decide
    iintro ⟨#Hrec, Hsrc, Hdst, HO, HtS, HtR⟩
    ihave #HIs := (inv_send m ρ K c 5) $$ Hrec
    ihave #HIr := (inv_recv m ρ K (peer c 5) 5) $$ Hrec
    ihave #HrS := (reached_send m ρ K c 5) $$ Hrec
    ihave #HrR := (reached_recv m ρ K (peer c 5) 5) $$ Hrec
    iapply (Rounds.wp_send_pointsTo 𝒱₀ ER (softRd m ρ) (c : Thread nD τ) none
        (c' := (peer c 5 : Thread nD τ)) (src := slot0) (dst := slot5) (q := shr 5)
        (fs := allStats (xs m ρ) c) (fd := fn)
        (κ₁ := K (c, kS 5)) (κ₂ := K (peer c 5, kR 5)) (r₁ := 0) (r₂ := 0) (d₁ := 0) (d₂ := 0)
        (by rw [duties_send m ρ c hi]; exact Finset.mem_singleton_self _)
        (by rw [duties_recv m ρ (peer c 5) hi]; exact Finset.mem_singleton_self _)
        () () N rfl (amount_send m ρ c 5 0) (amount_recv m ρ (peer c 5) 5 0) O rfl (W := W)
        (by rw [payload_send]; exact Entails.refl _)
        (by rw [payload_recv]; exact landed_eq m ρ c 5 hi slot5 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  · dsimp only [slotPts, slotV]
    have hi : (6 : Fin 8) ≠ 0 := by decide
    iintro ⟨#Hrec, Hsrc, Hdst, HO, HtS, HtR⟩
    ihave #HIs := (inv_send m ρ K c 6) $$ Hrec
    ihave #HIr := (inv_recv m ρ K (peer c 6) 6) $$ Hrec
    ihave #HrS := (reached_send m ρ K c 6) $$ Hrec
    ihave #HrR := (reached_recv m ρ K (peer c 6) 6) $$ Hrec
    iapply (Rounds.wp_send_pointsTo 𝒱₀ ER (softRd m ρ) (c : Thread nD τ) none
        (c' := (peer c 6 : Thread nD τ)) (src := slot0) (dst := slot6) (q := shr 6)
        (fs := allStats (xs m ρ) c) (fd := fn)
        (κ₁ := K (c, kS 6)) (κ₂ := K (peer c 6, kR 6)) (r₁ := 0) (r₂ := 0) (d₁ := 0) (d₂ := 0)
        (by rw [duties_send m ρ c hi]; exact Finset.mem_singleton_self _)
        (by rw [duties_recv m ρ (peer c 6) hi]; exact Finset.mem_singleton_self _)
        () () N rfl (amount_send m ρ c 6 0) (amount_recv m ρ (peer c 6) 6 0) O rfl (W := W)
        (by rw [payload_send]; exact Entails.refl _)
        (by rw [payload_recv]; exact landed_eq m ρ c 6 hi slot6 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  · dsimp only [slotPts, slotV]
    have hi : (7 : Fin 8) ≠ 0 := by decide
    iintro ⟨#Hrec, Hsrc, Hdst, HO, HtS, HtR⟩
    ihave #HIs := (inv_send m ρ K c 7) $$ Hrec
    ihave #HIr := (inv_recv m ρ K (peer c 7) 7) $$ Hrec
    ihave #HrS := (reached_send m ρ K c 7) $$ Hrec
    ihave #HrR := (reached_recv m ρ K (peer c 7) 7) $$ Hrec
    iapply (Rounds.wp_send_pointsTo 𝒱₀ ER (softRd m ρ) (c : Thread nD τ) none
        (c' := (peer c 7 : Thread nD τ)) (src := slot0) (dst := slot7) (q := shr 7)
        (fs := allStats (xs m ρ) c) (fd := fn)
        (κ₁ := K (c, kS 7)) (κ₂ := K (peer c 7, kR 7)) (r₁ := 0) (r₂ := 0) (d₁ := 0) (d₂ := 0)
        (by rw [duties_send m ρ c hi]; exact Finset.mem_singleton_self _)
        (by rw [duties_recv m ρ (peer c 7) hi]; exact Finset.mem_singleton_self _)
        () () N rfl (amount_send m ρ c 7 0) (amount_recv m ρ (peer c 7) 7 0) O rfl (W := W)
        (by rw [payload_send]; exact Entails.refl _)
        (by rw [payload_recv]; exact landed_eq m ρ c 7 hi slot7 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR

/-- The wait for copy `e`'s arrival: slot `e` comes back holding the sender's table. -/
theorem wp_rwait (c : Dev nD) (e : Fin 8) (he : e ≠ 0) (sR : DmaSem sig) (hR : sR = recvS e) (W : Waits sig Unit)
    (src dst : Memref sig .tc .vmem S2x1024 .f32) (hdv : dst = slotV e) {h1 : src.view.WordExact} {h2 : dst.view.WordExact}
    {α : Type} {Q : α → sProp 𝕄} {k : PUnit → Prog (TpuEff nD τ sig (Elt F) Λ₀ .tc) α} :
    iprop(records m ρ K ∗ cred (tallyAt (recvCell c e) () N) ∗ owes (c : Thread nD τ) 0 W ∗ atPos ER (recvCell c e) 0 ∅ 0)
      ⊢ iprop(((owes (c : Thread nD τ) 0 (insert (SemLoc.dma (recvS e), ()) W) ∗ atPos ER (recvCell c e) 1 ∅ 0
              ∗ slotPts c fullShare (allStats (xs m ρ) c) e)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst h1 h2) k) Q) := by
  subst hR hdv
  iintro ⟨#Hrec, Hc, HO, Hat⟩ Hk
  ihave #HI := (inv_recv m ρ K c e) $$ Hrec
  iapply (Rounds.wp_wait_rest_token 𝒱₀ ER (softRd m ρ) (c : Thread nD τ) none (κ := K (c, kR e)) (k' := N)
      (fun K' => (wpE_waitDma2_eq 𝒱₀ (c : Thread nD τ) none Set.univ K').trans
        (congrArg (fun n => waitSpec (c : Thread nD τ) Set.univ (.dma (recvS e)) n K') (credit_slot e)))
      (Set.mem_univ _) () (O := 0) (W := W) (R := 0) (m := 0) (T := ∅)
      (by rw [Nat.zero_add, expect_recv m ρ c he])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c he)) $$ Hpay
  unfold recvPay
  iapply Hk
  isplitl [HO]; · iexact HO
  isplitl [Hat]; · iexact Hat
  iexact Hp

/-- The wait for copy `d`'s departure: the borrowed share of slot 0 comes back. -/
theorem wp_swait (c : Dev nD) (d : Fin 8) (hd : d ≠ 0) (sS : DmaSem sig) (hS : sS = sendS d) (W : Waits sig Unit)
    (src dst : Memref sig .tc .vmem S2x1024 .f32) (hdv : dst = slot0) {h1 : src.view.WordExact} {h2 : dst.view.WordExact}
    {α : Type} {Q : α → sProp 𝕄} {k : PUnit → Prog (TpuEff nD τ sig (Elt F) Λ₀ .tc) α} :
    iprop(records m ρ K ∗ cred (tallyAt (sendCell c d) () N) ∗ owes (c : Thread nD τ) 0 W ∗ atPos ER (sendCell c d) 0 ∅ 0)
      ⊢ iprop(((owes (c : Thread nD τ) 0 (insert (SemLoc.dma (sendS d), ()) W) ∗ atPos ER (sendCell c d) 1 ∅ 0
              ∗ slotPts c (shr d) (allStats (xs m ρ) c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst h1 h2) k) Q) := by
  subst hS hdv
  iintro ⟨#Hrec, Hc, HO, Hat⟩ Hk
  ihave #HI := (inv_send m ρ K c d) $$ Hrec
  iapply (Rounds.wp_wait_rest_token 𝒱₀ ER (softRd m ρ) (c : Thread nD τ) none (κ := K (c, kS d)) (k' := N)
      (fun K' => (wpE_waitDma2_eq 𝒱₀ (c : Thread nD τ) none Set.univ K').trans
        (congrArg (fun n => waitSpec (c : Thread nD τ) Set.univ (.dma (sendS d)) n K') (credit_slot 0)))
      (Set.mem_univ _) () (O := 0) (W := W) (R := 0) (m := 0) (T := ∅)
      (by rw [Nat.zero_add, expect_send m ρ c hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c hd)) $$ Hpay
  unfold sendPay
  iapply Hk
  isplitl [HO]; · iexact HO
  isplitl [Hat]; · iexact Hat
  iexact Hp

/-- Once every round of the sixteen own cells is consumed they close: their counters, at zero, are the device's again. -/
theorem close_own (c : Dev nD) :
    iprop(records m ρ K ∗ atPos ER (sendCell c 0) 0 ∅ 0 ∗ atPos ER (recvCell c 0) 0 ∅ 0
        ∗ atPos ER (sendCell c 1) 1 ∅ 0 ∗ atPos ER (sendCell c 2) 1 ∅ 0 ∗ atPos ER (sendCell c 3) 1 ∅ 0 ∗ atPos ER (sendCell c 4) 1 ∅ 0 ∗ atPos ER (sendCell c 5) 1 ∅ 0 ∗ atPos ER (sendCell c 6) 1 ∅ 0 ∗ atPos ER (sendCell c 7) 1 ∅ 0
        ∗ atPos ER (recvCell c 1) 1 ∅ 0 ∗ atPos ER (recvCell c 2) 1 ∅ 0 ∗ atPos ER (recvCell c 3) 1 ∅ 0 ∗ atPos ER (recvCell c 4) 1 ∅ 0 ∗ atPos ER (recvCell c 5) 1 ∅ 0 ∗ atPos ER (recvCell c 6) 1 ∅ 0 ∗ atPos ER (recvCell c 7) 1 ∅ 0)
      ⊢ (|={Set.univ}=> bigSep Finset.univ fun k : Fin 16 => semVal ((c : Thread nD τ), osem k) 0 : sProp 𝕄) := by
  rw [own_listed]
  iintro ⟨#Hrec, HS0, HR0, HS1, HS2, HS3, HS4, HS5, HS6, HS7, HR1, HR2, HR3, HR4, HR5, HR6, HR7⟩
  imod (close_send m ρ K c 0 0 (fun r _ => duties_send_zero m ρ c r)) $$ [HS0] with ZS0
  · isplitr; · iexact Hrec
    iexact HS0
  imod (close_send m ρ K c 1 1 (duties_later m ρ _)) $$ [HS1] with ZS1
  · isplitr; · iexact Hrec
    iexact HS1
  imod (close_send m ρ K c 2 1 (duties_later m ρ _)) $$ [HS2] with ZS2
  · isplitr; · iexact Hrec
    iexact HS2
  imod (close_send m ρ K c 3 1 (duties_later m ρ _)) $$ [HS3] with ZS3
  · isplitr; · iexact Hrec
    iexact HS3
  imod (close_send m ρ K c 4 1 (duties_later m ρ _)) $$ [HS4] with ZS4
  · isplitr; · iexact Hrec
    iexact HS4
  imod (close_send m ρ K c 5 1 (duties_later m ρ _)) $$ [HS5] with ZS5
  · isplitr; · iexact Hrec
    iexact HS5
  imod (close_send m ρ K c 6 1 (duties_later m ρ _)) $$ [HS6] with ZS6
  · isplitr; · iexact Hrec
    iexact HS6
  imod (close_send m ρ K c 7 1 (duties_later m ρ _)) $$ [HS7] with ZS7
  · isplitr; · iexact Hrec
    iexact HS7
  imod (close_recv m ρ K c 0 0 (fun r _ => duties_recv_zero m ρ c r)) $$ [HR0] with ZR0
  · isplitr; · iexact Hrec
    iexact HR0
  imod (close_recv m ρ K c 1 1 (duties_later m ρ _)) $$ [HR1] with ZR1
  · isplitr; · iexact Hrec
    iexact HR1
  imod (close_recv m ρ K c 2 1 (duties_later m ρ _)) $$ [HR2] with ZR2
  · isplitr; · iexact Hrec
    iexact HR2
  imod (close_recv m ρ K c 3 1 (duties_later m ρ _)) $$ [HR3] with ZR3
  · isplitr; · iexact Hrec
    iexact HR3
  imod (close_recv m ρ K c 4 1 (duties_later m ρ _)) $$ [HR4] with ZR4
  · isplitr; · iexact Hrec
    iexact HR4
  imod (close_recv m ρ K c 5 1 (duties_later m ρ _)) $$ [HR5] with ZR5
  · isplitr; · iexact Hrec
    iexact HR5
  imod (close_recv m ρ K c 6 1 (duties_later m ρ _)) $$ [HR6] with ZR6
  · isplitr; · iexact Hrec
    iexact HR6
  imod (close_recv m ρ K c 7 1 (duties_later m ρ _)) $$ [HR7] with ZR7
  · isplitr; · iexact Hrec
    iexact HR7
  imodintro
  isplitl [ZS0]; · iexact ZS0
  isplitl [ZS1]; · iexact ZS1
  isplitl [ZS2]; · iexact ZS2
  isplitl [ZS3]; · iexact ZS3
  isplitl [ZS4]; · iexact ZS4
  isplitl [ZS5]; · iexact ZS5
  isplitl [ZS6]; · iexact ZS6
  isplitl [ZS7]; · iexact ZS7
  isplitl [ZR0]; · iexact ZR0
  isplitl [ZR1]; · iexact ZR1
  isplitl [ZR2]; · iexact ZR2
  isplitl [ZR3]; · iexact ZR3
  isplitl [ZR4]; · iexact ZR4
  isplitl [ZR5]; · iexact ZR5
  isplitl [ZR6]; · iexact ZR6
  iexact ZR7

end Cert.KernelIdeal.Dist

end
-- ==== Proof.Body.lean ====
import proofs.«901060_g7700000000001061_dist_softmax_colshard_i_m1024_n512_v7x_i8_f32_1_alg».proof.Proof.StepSig
import proofs.«901060_g7700000000001061_dist_softmax_colshard_i_m1024_n512_v7x_i8_f32_1_alg».proof.Proof.StepXfer

/-!
One device's run of the kernel body, from what the launch hands it to the result block stored and every own cell closed.
-/

noncomputable section

namespace Cert.KernelIdeal.Dist

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

/-- The store's points-to, read as slot 0 holding the device's own table. -/
theorem stored_pts (c : Dev nD) (ft : Buf (Elt F) (tLoc c)) :
    (((tM : Memref sig .tc .vmem S8x2x1024 .f32).access rS0 : View sig .tc _ _ _).loc (c : Thread nD τ) ↦[(slot0 : Memref sig .tc .vmem S2x1024 .f32).view.set]{fullShare}
        (((tM : Memref sig .tc .vmem S8x2x1024 .f32).access rS0 : View sig .tc _ _ _).write (Elt F) ft (k0_pay5 (k0_pay2 (xstg m ρ c))) Finset.univ) : sProp 𝕄)
      ⊢ slotPts c fullShare (allStats (xs m ρ) c) 0 :=
  Entails.of_eq (stored_eq m ρ c fullShare ft)

omit [FloatOps F] in
theorem bigSep_off (Φ : Fin 8 → sProp 𝕄) :
    bigSep (Finset.univ.erase (0 : Fin 8)) Φ = iprop(Φ 1 ∗ Φ 2 ∗ Φ 3 ∗ Φ 4 ∗ Φ 5 ∗ Φ 6 ∗ Φ 7) := by
  rw [bigSep_eq_bigSepL_of_eq [1, 2, 3, 4, 5, 6, 7] (by decide) (by decide)]; rfl
omit [FloatOps F] in
theorem bigSep_fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) := by
  rw [bigSep_univ_eq_bigSepL [0, 1, 2, 3, 4, 5, 6, 7, 8, 9, 10, 11, 12, 13, 14, 15, 16] (by decide) (by decide)]; rfl

abbrev r2 : Rect S1024x512 := Rect.unit (s := S1024x512) ![0, 0] S1024x512.size inb_S1024x512_S1024x512_0_0
abbrev r3 : Rect S8x2x1024 := Rect.unit (s := S8x2x1024) ![0, 0, 0] S8x2x1024.size inb_S8x2x1024_S8x2x1024_0_0_0

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) r2.toLoadRect f = f :=
  Memref.readAt_unit_zero (Elt F) cc0_stg0_0 hz2 _ f
omit [FloatOps F] in
theorem read_e (f : (cc0_scratch0 : Ref sig .tc).ty.Contents (Elt F)) : (eM : Memref sig .tc .vmem S1024x512 .f32).view.readAt (Elt F) r2.toLoadRect f = f :=
  Memref.readAt_unit_zero (Elt F) cc0_scratch0 hz2 _ f
omit [FloatOps F] in
theorem read_t (f : (cc0_scratch1 : Ref sig .tc).ty.Contents (Elt F)) : (tM : Memref sig .tc .vmem S8x2x1024 .f32).view.readAt (Elt F) r3.toLoadRect f = f :=
  Memref.readAt_unit_zero (Elt F) cc0_scratch1 hz3 _ f
omit [FloatOps F] in
theorem write_e (f w : (cc0_scratch0 : Ref sig .tc).ty.Contents (Elt F)) :
    ((eM : Memref sig .tc .vmem S1024x512 .f32).access r2 : View sig .tc _ _ _).write (Elt F) f w Finset.univ = w :=
  Memref.write_access_unit_zero_univ (Elt F) cc0_scratch0 hz2 _ f w
omit [FloatOps F] in
theorem write_o (f w : (cc0_stg1_0 : Ref sig .tc).ty.Contents (Elt F)) :
    ((oM : Memref sig .tc .vmem S1024x512 .f32).access r2 : View sig .tc _ _ _).write (Elt F) f w Finset.univ = w :=
  Memref.write_access_unit_zero_univ (Elt F) cc0_stg1_0 hz2 _ f w

section Tables
variable (K : Dev nD × Fin 17 → ℕ)
theorem inv_bar' (c' : Dev nD) : records m ρ K ⊢ cellInv ER (softRd m ρ) (K (c', 0)) (barCell c') := records_cellInv m ρ K (c', 0)
theorem rch_bar' (c' : Dev nD) : records m ρ K ⊢ reached ER (barCell c') 0 := records_reached m ρ K (c', 0)
end Tables
theorem neg_1 : neg 1 = 7 := rfl
theorem neg_2 : neg 2 = 6 := rfl
theorem neg_3 : neg 3 = 5 := rfl
theorem neg_4 : neg 4 = 4 := rfl
theorem neg_5 : neg 5 = 3 := rfl
theorem neg_6 : neg 6 = 2 := rfl
theorem neg_7 : neg 7 = 1 := rfl

/-- The barrier duty `neg d` of the device `d` places on, seen from `c`: slot `neg d` of `c`'s own table buffer. -/
theorem payload_bar_peer (c : Dev nD) (d : Fin 8) :
    (softRd (F := F) m ρ).payload (barCell (peer c d)) 0 (neg d)
      = iprop((∃ f, slotPts c fullShare f (neg d)) ∗ reached ER (recvCell c (neg d)) 0) := by
  rw [payload_bar]; unfold barPay
  have h := peer_peer_neg c d
  generalize peer (peer c d) (neg d) = c' at h ⊢
  subst h; rfl

theorem payload_bar_peer1 (c : Dev nD) :
    (softRd (F := F) m ρ).payload (barCell (peer c 1)) 0 7
      = iprop((∃ f, ((slot7 : Memref sig .tc .vmem S2x1024 .f32).view.loc (c : Thread nD τ) ↦[(slot7 : Memref sig .tc .vmem S2x1024 .f32).view.set]{fullShare} f : sProp 𝕄)) ∗ reached ER (recvCell c 7) 0) :=
  payload_bar_peer m ρ c 1
theorem duties_bar_peer1_mem (c : Dev nD) : (7 : Fin 8) ∈ (softRd (F := F) m ρ).duties (barCell (peer c 1)) 0 := by
  rw [duties_bar]; decide

theorem payload_bar_peer2 (c : Dev nD) :
    (softRd (F := F) m ρ).payload (barCell (peer c 2)) 0 6
      = iprop((∃ f, ((slot6 : Memref sig .tc .vmem S2x1024 .f32).view.loc (c : Thread nD τ) ↦[(slot6 : Memref sig .tc .vmem S2x1024 .f32).view.set]{fullShare} f : sProp 𝕄)) ∗ reached ER (recvCell c 6) 0) :=
  payload_bar_peer m ρ c 2
theorem duties_bar_peer2_mem (c : Dev nD) : (6 : Fin 8) ∈ (softRd (F := F) m ρ).duties (barCell (peer c 2)) 0 := by
  rw [duties_bar]; decide

theorem payload_bar_peer3 (c : Dev nD) :
    (softRd (F := F) m ρ).payload (barCell (peer c 3)) 0 5
      = iprop((∃ f, ((slot5 : Memref sig .tc .vmem S2x1024 .f32).view.loc (c : Thread nD τ) ↦[(slot5 : Memref sig .tc .vmem S2x1024 .f32).view.set]{fullShare} f : sProp 𝕄)) ∗ reached ER (recvCell c 5) 0) :=
  payload_bar_peer m ρ c 3
theorem duties_bar_peer3_mem (c : Dev nD) : (5 : Fin 8) ∈ (softRd (F := F) m ρ).duties (barCell (peer c 3)) 0 := by
  rw [duties_bar]; decide

theorem payload_bar_peer4 (c : Dev nD) :
    (softRd (F := F) m ρ).payload (barCell (peer c 4)) 0 4
      = iprop((∃ f, ((slot4 : Memref sig .tc .vmem S2x1024 .f32).view.loc (c : Thread nD τ) ↦[(slot4 : Memref sig .tc .vmem S2x1024 .f32).view.set]{fullShare} f : sProp 𝕄)) ∗ reached ER (recvCell c 4) 0) :=
  payload_bar_peer m ρ c 4
theorem duties_bar_peer4_mem (c : Dev nD) : (4 : Fin 8) ∈ (softRd (F := F) m ρ).duties (barCell (peer c 4)) 0 := by
  rw [duties_bar]; decide

theorem payload_bar_peer5 (c : Dev nD) :
    (softRd (F := F) m ρ).payload (barCell (peer c 5)) 0 3
      = iprop((∃ f, ((slot3 : Memref sig .tc .vmem S2x1024 .f32).view.loc (c : Thread nD τ) ↦[(slot3 : Memref sig .tc .vmem S2x1024 .f32).view.set]{fullShare} f : sProp 𝕄)) ∗ reached ER (recvCell c 3) 0) :=
  payload_bar_peer m ρ c 5
theorem duties_bar_peer5_mem (c : Dev nD) : (3 : Fin 8) ∈ (softRd (F := F) m ρ).duties (barCell (peer c 5)) 0 := by
  rw [duties_bar]; decide

theorem payload_bar_peer6 (c : Dev nD) :
    (softRd (F := F) m ρ).payload (barCell (peer c 6)) 0 2
      = iprop((∃ f, ((slot2 : Memref sig .tc .vmem S2x1024 .f32).view.loc (c : Thread nD τ) ↦[(slot2 : Memref sig .tc .vmem S2x1024 .f32).view.set]{fullShare} f : sProp 𝕄)) ∗ reached ER (recvCell c 2) 0) :=
  payload_bar_peer m ρ c 6
theorem duties_bar_peer6_mem (c : Dev nD) : (2 : Fin 8) ∈ (softRd (F := F) m ρ).duties (barCell (peer c 6)) 0 := by
  rw [duties_bar]; decide

theorem payload_bar_peer7 (c : Dev nD) :
    (softRd (F := F) m ρ).payload (barCell (peer c 7)) 0 1
      = iprop((∃ f, ((slot1 : Memref sig .tc .vmem S2x1024 .f32).view.loc (c : Thread nD τ) ↦[(slot1 : Memref sig .tc .vmem S2x1024 .f32).view.set]{fullShare} f : sProp 𝕄)) ∗ reached ER (recvCell c 1) 0) :=
  payload_bar_peer m ρ c 7
theorem duties_bar_peer7_mem (c : Dev nD) : (1 : Fin 8) ∈ (softRd (F := F) m ρ).duties (barCell (peer c 7)) 0 := by
  rw [duties_bar]; decide

theorem duties_bar_lit (c : Dev nD) : (softRd (F := F) m ρ).duties (barCell c) 0 = {1, 2, 3, 4, 5, 6, 7} := by
  rw [duties_bar]; decide

attribute [local sl_rounds] duties_bar_lit amount_bar amount_send amount_recv expect_bar
  payload_bar_peer1 duties_bar_peer1_mem payload_bar_peer2 duties_bar_peer2_mem payload_bar_peer3 duties_bar_peer3_mem payload_bar_peer4 duties_bar_peer4_mem payload_bar_peer5 duties_bar_peer5_mem payload_bar_peer6 duties_bar_peer6_mem payload_bar_peer7 duties_bar_peer7_mem
attribute [local sl_canon] dev1_eq dev2_eq dev3_eq dev4_eq dev5_eq dev6_eq dev7_eq

theorem payload_bar_lit1 (c : Dev nD) :
    (softRd (F := F) m ρ).payload (barCell c) 0 1
      = iprop((∃ f, (((slot1 : Memref sig .tc .vmem S2x1024 .f32).view.loc (peer c 1 : Thread nD τ) ↦[(slot1 : Memref sig .tc .vmem S2x1024 .f32).view.set]{fullShare} f) : sProp 𝕄)) ∗ reached ER (recvCell (peer c 1) 1) 0) := rfl

theorem payload_bar_lit2 (c : Dev nD) :
    (softRd (F := F) m ρ).payload (barCell c) 0 2
      = iprop((∃ f, (((slot2 : Memref sig .tc .vmem S2x1024 .f32).view.loc (peer c 2 : Thread nD τ) ↦[(slot2 : Memref sig .tc .vmem S2x1024 .f32).view.set]{fullShare} f) : sProp 𝕄)) ∗ reached ER (recvCell (peer c 2) 2) 0) := rfl

theorem payload_bar_lit3 (c : Dev nD) :
    (softRd (F := F) m ρ).payload (barCell c) 0 3
      = iprop((∃ f, (((slot3 : Memref sig .tc .vmem S2x1024 .f32).view.loc (peer c 3 : Thread nD τ) ↦[(slot3 : Memref sig .tc .vmem S2x1024 .f32).view.set]{fullShare} f) : sProp 𝕄)) ∗ reached ER (recvCell (peer c 3) 3) 0) := rfl

theorem payload_bar_lit4 (c : Dev nD) :
    (softRd (F := F) m ρ).payload (barCell c) 0 4
      = iprop((∃ f, (((slot4 : Memref sig .tc .vmem S2x1024 .f32).view.loc (peer c 4 : Thread nD τ) ↦[(slot4 : Memref sig .tc .vmem S2x1024 .f32).view.set]{fullShare} f) : sProp 𝕄)) ∗ reached ER (recvCell (peer c 4) 4) 0) := rfl

theorem payload_bar_lit5 (c : Dev nD) :
    (softRd (F := F) m ρ).payload (barCell c) 0 5
      = iprop((∃ f, (((slot5 : Memref sig .tc .vmem S2x1024 .f32).view.loc (peer c 5 : Thread nD τ) ↦[(slot5 : Memref sig .tc .vmem S2x1024 .f32).view.set]{fullShare} f) : sProp 𝕄)) ∗ reached ER (recvCell (peer c 5) 5) 0) := rfl

theorem payload_bar_lit6 (c : Dev nD) :
    (softRd (F := F) m ρ).payload (barCell c) 0 6
      = iprop((∃ f, (((slot6 : Memref sig .tc .vmem S2x1024 .f32).view.loc (peer c 6 : Thread nD τ) ↦[(slot6 : Memref sig .tc .vmem S2x1024 .f32).view.set]{fullShare} f) : sProp 𝕄)) ∗ reached ER (recvCell (peer c 6) 6) 0) := rfl

theorem payload_bar_lit7 (c : Dev nD) :
    (softRd (F := F) m ρ).payload (barCell c) 0 7
      = iprop((∃ f, (((slot7 : Memref sig .tc .vmem S2x1024 .f32).view.loc (peer c 7 : Thread nD τ) ↦[(slot7 : Memref sig .tc .vmem S2x1024 .f32).view.set]{fullShare} f) : sProp 𝕄)) ∗ reached ER (recvCell (peer c 7) 7) 0) := rfl

attribute [local sl_rounds high] payload_bar_peer1 payload_bar_peer2 payload_bar_peer3 payload_bar_peer4 payload_bar_peer5 payload_bar_peer6 payload_bar_peer7
attribute [local sl_rounds] payload_bar_lit1 payload_bar_lit2 payload_bar_lit3 payload_bar_lit4 payload_bar_lit5 payload_bar_lit6 payload_bar_lit7

set_option maxRecDepth 65536 in
set_option maxHeartbeats 4000000 in
/-- The body, from `bodyPre'` to `bodyPost`. -/
theorem sound_body (c : Dev nD) :
    bodyPre' m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _) cc0_scratch2 cc0_scratch3)
      (fun _ => bodyPost m ρ c) := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId]
  unfold bodyPre' Φ₀ start ghost linear payToks
  rw [bigSep_off, bigSep_off, bigSep_fin17]
  simp only [neg_1, neg_2, neg_3, neg_4, neg_5, neg_6, neg_7]
  iintro ⟨⟨⟨⟨%K, #Hrec, ⟨HpB, HpS0, HpS1, HpS2, HpS3, HpS4, HpS5, HpS6, HpS7, HpR0, HpR1, HpR2, HpR3, HpR4, HpR5, HpR6, HpR7⟩,
      ⟨HtB1, HtR1, HtS1⟩, ⟨HtB2, HtR2, HtS2⟩, ⟨HtB3, HtR3, HtS3⟩, ⟨HtB4, HtR4, HtS4⟩, ⟨HtB5, HtR5, HtS5⟩, ⟨HtB6, HtR6, HtS6⟩, ⟨HtB7, HtR7, HtS7⟩⟩,
      HcB, ⟨HcR1, HcR2, HcR3, HcR4, HcR5, HcR6, HcR7⟩, #Hlev⟩, ⟨%fe, He⟩, ⟨%ft, Ht⟩⟩,
    Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = (tallyAt (recvCell (peer c 7) 7) () N + tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N + tallyAt (barCell (peer c 7)) () 1 + tallyAt (barCell (peer c 6)) () 1 + tallyAt (barCell (peer c 5)) () 1 + tallyAt (barCell (peer c 4)) () 1 + tallyAt (barCell (peer c 3)) () 1 + tallyAt (barCell (peer c 2)) () 1 + tallyAt (barCell (peer c 1)) () 1 : CellTallies nD τ sig Unit) from rfl]
  -- the cells' invariants and the rounds reached, of the seven devices signalled and of the own barrier cell
  ihave #HIb1 := (inv_bar' m ρ K (peer c 1)) $$ Hrec
  ihave #Hrb1 := (rch_bar' m ρ K (peer c 1)) $$ Hrec
  ihave #Hrr1 := (reached_recv m ρ K c 1) $$ Hrec
  ihave #HIb2 := (inv_bar' m ρ K (peer c 2)) $$ Hrec
  ihave #Hrb2 := (rch_bar' m ρ K (peer c 2)) $$ Hrec
  ihave #Hrr2 := (reached_recv m ρ K c 2) $$ Hrec
  ihave #HIb3 := (inv_bar' m ρ K (peer c 3)) $$ Hrec
  ihave #Hrb3 := (rch_bar' m ρ K (peer c 3)) $$ Hrec
  ihave #Hrr3 := (reached_recv m ρ K c 3) $$ Hrec
  ihave #HIb4 := (inv_bar' m ρ K (peer c 4)) $$ Hrec
  ihave #Hrb4 := (rch_bar' m ρ K (peer c 4)) $$ Hrec
  ihave #Hrr4 := (reached_recv m ρ K c 4) $$ Hrec
  ihave #HIb5 := (inv_bar' m ρ K (peer c 5)) $$ Hrec
  ihave #Hrb5 := (rch_bar' m ρ K (peer c 5)) $$ Hrec
  ihave #Hrr5 := (reached_recv m ρ K c 5) $$ Hrec
  ihave #HIb6 := (inv_bar' m ρ K (peer c 6)) $$ Hrec
  ihave #Hrb6 := (rch_bar' m ρ K (peer c 6)) $$ Hrec
  ihave #Hrr6 := (reached_recv m ρ K c 6) $$ Hrec
  ihave #HIb7 := (inv_bar' m ρ K (peer c 7)) $$ Hrec
  ihave #Hrb7 := (rch_bar' m ρ K (peer c 7)) $$ Hrec
  ihave #Hrr7 := (reached_recv m ρ K c 7) $$ Hrec
  ihave #HIb0 := (inv_bar' m ρ K c) $$ Hrec
  -- the block's staging buffer through its memref's view
  have hxv : ∀ f : Buf (Elt F) ((c : Thread nD τ).loc cc0_stg0_0), (((c : Thread nD τ).loc cc0_stg0_0) ↦{fullShare} f : sProp 𝕄)
      ⊢ ((Memref.whole cc0_stg0_0 : Memref sig .tc .vmem S1024x512 .f32).view.loc (c : Thread nD τ) ↦[Finset.univ]{fullShare} f) := fun _ => Entails.rfl
  have hxv' : ∀ f : Buf (Elt F) ((c : Thread nD τ).loc cc0_stg0_0), ((Memref.whole cc0_stg0_0 : Memref sig .tc .vmem S1024x512 .f32).view.loc (c : Thread nD τ) ↦[Finset.univ]{fullShare} f : sProp 𝕄)
      ⊢ (((c : Thread nD τ).loc cc0_stg0_0) ↦{fullShare} f) := fun _ => Entails.rfl
  ihave Hx := (hxv _) $$ Hx
  -- the table buffer slot by slot, each through its slice's view, in the order the signals hand the slots over
  have hslots : (tLoc c ↦{fullShare} ft : sProp 𝕄) ⊢ iprop(((slot7 : Memref sig .tc .vmem S2x1024 .f32).view.loc (c : Thread nD τ) ↦[(slot7 : Memref sig .tc .vmem S2x1024 .f32).view.set]{fullShare} ft)
      ∗ ((slot6 : Memref sig .tc .vmem S2x1024 .f32).view.loc (c : Thread nD τ) ↦[(slot6 : Memref sig .tc .vmem S2x1024 .f32).view.set]{fullShare} ft)
      ∗ ((slot5 : Memref sig .tc .vmem S2x1024 .f32).view.loc (c : Thread nD τ) ↦[(slot5 : Memref sig .tc .vmem S2x1024 .f32).view.set]{fullShare} ft)
      ∗ ((slot4 : Memref sig .tc .vmem S2x1024 .f32).view.loc (c : Thread nD τ) ↦[(slot4 : Memref sig .tc .vmem S2x1024 .f32).view.set]{fullShare} ft)
      ∗ ((slot3 : Memref sig .tc .vmem S2x1024 .f32).view.loc (c : Thread nD τ) ↦[(slot3 : Memref sig .tc .vmem S2x1024 .f32).view.set]{fullShare} ft)
      ∗ ((slot2 : Memref sig .tc .vmem S2x1024 .f32).view.loc (c : Thread nD τ) ↦[(slot2 : Memref sig .tc .vmem S2x1024 .f32).view.set]{fullShare} ft)
      ∗ ((slot1 : Memref sig .tc .vmem S2x1024 .f32).view.loc (c : Thread nD τ) ↦[(slot1 : Memref sig .tc .vmem S2x1024 .f32).view.set]{fullShare} ft)
      ∗ ((slot0 : Memref sig .tc .vmem S2x1024 .f32).view.loc (c : Thread nD τ) ↦[(slot0 : Memref sig .tc .vmem S2x1024 .f32).view.set]{fullShare} ft)) := by
    refine (table_split c ft).1.trans ?_
    iintro ⟨H0, H1, H2, H3, H4, H5, H6, H7⟩
    isplitl [H7]; · iapply (Entails.of_eq (show (slotPts c fullShare ft 7 : sProp 𝕄) = ((slot7 : Memref sig .tc .vmem S2x1024 .f32).view.loc (c : Thread nD τ) ↦[(slot7 : Memref sig .tc .vmem S2x1024 .f32).view.set]{fullShare} ft) from rfl)) $$ H7
    isplitl [H6]; · iapply (Entails.of_eq (show (slotPts c fullShare ft 6 : sProp 𝕄) = ((slot6 : Memref sig .tc .vmem S2x1024 .f32).view.loc (c : Thread nD τ) ↦[(slot6 : Memref sig .tc .vmem S2x1024 .f32).view.set]{fullShare} ft) from rfl)) $$ H6
    isplitl [H5]; · iapply (Entails.of_eq (show (slotPts c fullShare ft 5 : sProp 𝕄) = ((slot5 : Memref sig .tc .vmem S2x1024 .f32).view.loc (c : Thread nD τ) ↦[(slot5 : Memref sig .tc .vmem S2x1024 .f32).view.set]{fullShare} ft) from rfl)) $$ H5
    isplitl [H4]; · iapply (Entails.of_eq (show (slotPts c fullShare ft 4 : sProp 𝕄) = ((slot4 : Memref sig .tc .vmem S2x1024 .f32).view.loc (c : Thread nD τ) ↦[(slot4 : Memref sig .tc .vmem S2x1024 .f32).view.set]{fullShare} ft) from rfl)) $$ H4
    isplitl [H3]; · iapply (Entails.of_eq (show (slotPts c fullShare ft 3 : sProp 𝕄) = ((slot3 : Memref sig .tc .vmem S2x1024 .f32).view.loc (c : Thread nD τ) ↦[(slot3 : Memref sig .tc .vmem S2x1024 .f32).view.set]{fullShare} ft) from rfl)) $$ H3
    isplitl [H2]; · iapply (Entails.of_eq (show (slotPts c fullShare ft 2 : sProp 𝕄) = ((slot2 : Memref sig .tc .vmem S2x1024 .f32).view.loc (c : Thread nD τ) ↦[(slot2 : Memref sig .tc .vmem S2x1024 .f32).view.set]{fullShare} ft) from rfl)) $$ H2
    isplitl [H1]; · iapply (Entails.of_eq (show (slotPts c fullShare ft 1 : sProp 𝕄) = ((slot1 : Memref sig .tc .vmem S2x1024 .f32).view.loc (c : Thread nD τ) ↦[(slot1 : Memref sig .tc .vmem S2x1024 .f32).view.set]{fullShare} ft) from rfl)) $$ H1
    iapply (Entails.of_eq (show (slotPts c fullShare ft 0 : sProp 𝕄) = ((slot0 : Memref sig .tc .vmem S2x1024 .f32).view.loc (c : Thread nD τ) ↦[(slot0 : Memref sig .tc .vmem S2x1024 .f32).view.set]{fullShare} ft) from rfl)) $$ H0
  ihave Hsl := hslots $$ Ht
  icases Hsl with ⟨Hs7, Hs6, Hs5, Hs4, Hs3, Hs2, Hs1, Hs0⟩
  have hmw : (levAts L lv : sProp 𝕄) ⊢ MayWait (c : Thread nD τ) (.reg barS) () (tallyAt (recvCell (peer c 7) 7) () N + tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N : CellTallies nD τ sig Unit) := mayWait_bar c
  -- the seven signals, the block loaded, the own table stored into slot 0, the wait for the seven units of the own barrier cell
  sl_exec
  rw [read_x]
  ihave Hx := (hxv' _) $$ Hx
  have hw : sound_body.sl.Hs0_w1 m ρ c ft = ((tM : Memref sig .tc .vmem S8x2x1024 .f32).access rS0 : View sig .tc _ _ _).write (Elt F) ft (k0_pay5 (k0_pay2 (xstg m ρ c))) Finset.univ := by
    unfold sound_body.sl.Hs0_w1
    exact congrArg (fun x => ((tM : Memref sig .tc .vmem S8x2x1024 .f32).access rS0 : View sig .tc _ _ _).write (Elt F) ft (k0_pay5 (k0_pay2 x)) Finset.univ) (read_x (xstg m ρ c))
  rw [hw]
  ihave Hs0 := (Entails.of_eq (show (((slot0 : Memref sig .tc .vmem S2x1024 .f32).view.loc (c : Thread nD τ) ↦[(slot0 : Memref sig .tc .vmem S2x1024 .f32).view.set]{fullShare} (((tM : Memref sig .tc .vmem S8x2x1024 .f32).access rS0 : View sig .tc _ _ _).write (Elt F) ft (k0_pay5 (k0_pay2 (xstg m ρ c))) Finset.univ)) : sProp 𝕄)
      = (((tM : Memref sig .tc .vmem S8x2x1024 .f32).access rS0 : View sig .tc _ _ _).loc (c : Thread nD τ) ↦[(slot0 : Memref sig .tc .vmem S2x1024 .f32).view.set]{fullShare}
        (((tM : Memref sig .tc .vmem S8x2x1024 .f32).access rS0 : View sig .tc _ _ _).write (Elt F) ft (k0_pay5 (k0_pay2 (xstg m ρ c))) Finset.univ)) from rfl)) $$ Hs0
  ihave Hs0 := (stored_pts m ρ c ft) $$ Hs0
  ihave HO := (Entails.of_eq (show (owes (c : Thread nD τ) (tallyAt (recvCell (peer c 7) 7) () N + tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N : CellTallies nD τ sig Unit) _ : sProp 𝕄) = owes (c : Thread nD τ) (OR1 c) _ from rfl)) $$ HO
  -- every other device's slot for this one
  have hch : ∀ A1 A2 A3 A4 A5 A6 A7 : sProp 𝕄, BI.sep A1 (BI.sep A2 (BI.sep A3 (BI.sep A4 (BI.sep A5 (BI.sep A6 A7))))) ⊢ iprop(A1 ∗ A2 ∗ A3 ∗ A4 ∗ A5 ∗ A6 ∗ A7) :=
    fun _ _ _ _ _ _ _ => Entails.rfl
  ihave Hpay := (hch _ _ _ _ _ _ _) $$ HpB_pay1
  icases Hpay with ⟨⟨⟨%fp1, Hp1⟩, -⟩, ⟨⟨%fp2, Hp2⟩, -⟩, ⟨⟨%fp3, Hp3⟩, -⟩, ⟨⟨%fp4, Hp4⟩, -⟩, ⟨⟨%fp5, Hp5⟩, -⟩, ⟨⟨%fp6, Hp6⟩, -⟩, ⟨⟨%fp7, Hp7⟩, -⟩⟩
  ihave Hp1 := (Entails.of_eq (show (((slot1 : Memref sig .tc .vmem S2x1024 .f32).view.loc (peer c 1 : Thread nD τ) ↦[(slot1 : Memref sig .tc .vmem S2x1024 .f32).view.set]{fullShare} fp1) : sProp 𝕄) = slotPts (peer c 1) fullShare fp1 1 from rfl)) $$ Hp1
  ihave Hp2 := (Entails.of_eq (show (((slot2 : Memref sig .tc .vmem S2x1024 .f32).view.loc (peer c 2 : Thread nD τ) ↦[(slot2 : Memref sig .tc .vmem S2x1024 .f32).view.set]{fullShare} fp2) : sProp 𝕄) = slotPts (peer c 2) fullShare fp2 2 from rfl)) $$ Hp2
  ihave Hp3 := (Entails.of_eq (show (((slot3 : Memref sig .tc .vmem S2x1024 .f32).view.loc (peer c 3 : Thread nD τ) ↦[(slot3 : Memref sig .tc .vmem S2x1024 .f32).view.set]{fullShare} fp3) : sProp 𝕄) = slotPts (peer c 3) fullShare fp3 3 from rfl)) $$ Hp3
  ihave Hp4 := (Entails.of_eq (show (((slot4 : Memref sig .tc .vmem S2x1024 .f32).view.loc (peer c 4 : Thread nD τ) ↦[(slot4 : Memref sig .tc .vmem S2x1024 .f32).view.set]{fullShare} fp4) : sProp 𝕄) = slotPts (peer c 4) fullShare fp4 4 from rfl)) $$ Hp4
  ihave Hp5 := (Entails.of_eq (show (((slot5 : Memref sig .tc .vmem S2x1024 .f32).view.loc (peer c 5 : Thread nD τ) ↦[(slot5 : Memref sig .tc .vmem S2x1024 .f32).view.set]{fullShare} fp5) : sProp 𝕄) = slotPts (peer c 5) fullShare fp5 5 from rfl)) $$ Hp5
  ihave Hp6 := (Entails.of_eq (show (((slot6 : Memref sig .tc .vmem S2x1024 .f32).view.loc (peer c 6 : Thread nD τ) ↦[(slot6 : Memref sig .tc .vmem S2x1024 .f32).view.set]{fullShare} fp6) : sProp 𝕄) = slotPts (peer c 6) fullShare fp6 6 from rfl)) $$ Hp6
  ihave Hp7 := (Entails.of_eq (show (((slot7 : Memref sig .tc .vmem S2x1024 .f32).view.loc (peer c 7 : Thread nD τ) ↦[(slot7 : Memref sig .tc .vmem S2x1024 .f32).view.set]{fullShare} fp7) : sProp 𝕄) = slotPts (peer c 7) fullShare fp7 7 from rfl)) $$ Hp7
  -- slot 0 is lent to the seven copies share by share
  ihave Hsh := (slot0_shares c _).1 $$ Hs0
  icases Hsh with ⟨Hq1, Hq2, Hq3, Hq4, Hq5, Hq6, Hq7, Hqr⟩
  -- copy 1: the table into slot 1 of the device 1 places on
  iapply (wp_snd m ρ K c 1 (by decide) _ (dev8_eq c) _ _ sendA1_sem recvA1_sem _ rfl (OR2 c) _ fp1) $$ [Hq1 Hp1 HO HtS1 HtR1]
  · isplitr; · iexact Hrec
    isplitl [Hq1]; · iexact Hq1
    isplitl [Hp1]; · iexact Hp1
    isplitl [HO]; · iexact HO
    isplitl [HtS1]; · iexact HtS1
    iexact HtR1
  iintro ⟨HcS1, HO⟩
  -- copy 2: the table into slot 2 of the device 2 places on
  iapply (wp_snd m ρ K c 2 (by decide) _ (dev9_eq c) _ _ sendA2_sem recvA2_sem _ rfl (OR3 c) _ fp2) $$ [Hq2 Hp2 HO HtS2 HtR2]
  · isplitr; · iexact Hrec
    isplitl [Hq2]; · iexact Hq2
    isplitl [Hp2]; · iexact Hp2
    isplitl [HO]; · iexact HO
    isplitl [HtS2]; · iexact HtS2
    iexact HtR2
  iintro ⟨HcS2, HO⟩
  -- copy 3: the table into slot 3 of the device 3 places on
  iapply (wp_snd m ρ K c 3 (by decide) _ (dev10_eq c) _ _ sendA3_sem recvA3_sem _ rfl (OR4 c) _ fp3) $$ [Hq3 Hp3 HO HtS3 HtR3]
  · isplitr; · iexact Hrec
    isplitl [Hq3]; · iexact Hq3
    isplitl [Hp3]; · iexact Hp3
    isplitl [HO]; · iexact HO
    isplitl [HtS3]; · iexact HtS3
    iexact HtR3
  iintro ⟨HcS3, HO⟩
  -- copy 4: the table into slot 4 of the device 4 places on
  iapply (wp_snd m ρ K c 4 (by decide) _ (dev11_eq c) _ _ sendA4_sem recvA4_sem _ rfl (OR5 c) _ fp4) $$ [Hq4 Hp4 HO HtS4 HtR4]
  · isplitr; · iexact Hrec
    isplitl [Hq4]; · iexact Hq4
    isplitl [Hp4]; · iexact Hp4
    isplitl [HO]; · iexact HO
    isplitl [HtS4]; · iexact HtS4
    iexact HtR4
  iintro ⟨HcS4, HO⟩
  -- copy 5: the table into slot 5 of the device 5 places on
  iapply (wp_snd m ρ K c 5 (by decide) _ (dev12_eq c) _ _ sendA5_sem recvA5_sem _ rfl (OR6 c) _ fp5) $$ [Hq5 Hp5 HO HtS5 HtR5]
  · isplitr; · iexact Hrec
    isplitl [Hq5]; · iexact Hq5
    isplitl [Hp5]; · iexact Hp5
    isplitl [HO]; · iexact HO
    isplitl [HtS5]; · iexact HtS5
    iexact HtR5
  iintro ⟨HcS5, HO⟩
  -- copy 6: the table into slot 6 of the device 6 places on
  iapply (wp_snd m ρ K c 6 (by decide) _ (dev13_eq c) _ _ sendA6_sem recvA6_sem _ rfl (OR7 c) _ fp6) $$ [Hq6 Hp6 HO HtS6 HtR6]
  · isplitr; · iexact Hrec
    isplitl [Hq6]; · iexact Hq6
    isplitl [Hp6]; · iexact Hp6
    isplitl [HO]; · iexact HO
    isplitl [HtS6]; · iexact HtS6
    iexact HtR6
  iintro ⟨HcS6, HO⟩
  ihave HO := (Entails.of_eq (show (owes (c : Thread nD τ) (OR7 c) _ : sProp 𝕄) = owes (c : Thread nD τ) (0 + rT c 7) _ from by unfold OR7; rw [zero_add])) $$ HO
  -- copy 7: the table into slot 7 of the device 7 places on
  iapply (wp_snd m ρ K c 7 (by decide) _ (dev14_eq c) _ _ sendA7_sem recvA7_sem _ rfl 0 _ fp7) $$ [Hq7 Hp7 HO HtS7 HtR7]
  · isplitr; · iexact Hrec
    isplitl [Hq7]; · iexact Hq7
    isplitl [Hp7]; · iexact Hp7
    isplitl [HO]; · iexact HO
    isplitl [HtS7]; · iexact HtS7
    iexact HtR7
  iintro ⟨HcS7, HO⟩
  -- the shifted exponentials are kept in their scratch buffer
  iapply (wp_load 𝒱₀ (c : Thread nD τ) none Set.univ (m := eM) (Finset.subset_univ _)) $$ He; iintro He
  iapply (wp_store 𝒱₀ (c : Thread nD τ) none Set.univ (m := eM) (r := r2) (Mk := Finset.univ) (Finset.subset_univ _)) $$ He; iintro He
  rw [write_e]
  -- arrival 1
  iapply (wp_rwait m ρ K c 1 (by decide) _ recvA1_sem _ _ _ rfl) $$ [HcR1 HO HpR1]
  · isplitr; · iexact Hrec
    isplitl [HcR1]; · iexact HcR1
    isplitl [HO]; · iexact HO
    iexact HpR1
  iintro ⟨HO, HpR1, Hl1⟩
  -- arrival 2
  iapply (wp_rwait m ρ K c 2 (by decide) _ recvA2_sem _ _ _ rfl) $$ [HcR2 HO HpR2]
  · isplitr; · iexact Hrec
    isplitl [HcR2]; · iexact HcR2
    isplitl [HO]; · iexact HO
    iexact HpR2
  iintro ⟨HO, HpR2, Hl2⟩
  -- arrival 3
  iapply (wp_rwait m ρ K c 3 (by decide) _ recvA3_sem _ _ _ rfl) $$ [HcR3 HO HpR3]
  · isplitr; · iexact Hrec
    isplitl [HcR3]; · iexact HcR3
    isplitl [HO]; · iexact HO
    iexact HpR3
  iintro ⟨HO, HpR3, Hl3⟩
  -- arrival 4
  iapply (wp_rwait m ρ K c 4 (by decide) _ recvA4_sem _ _ _ rfl) $$ [HcR4 HO HpR4]
  · isplitr; · iexact Hrec
    isplitl [HcR4]; · iexact HcR4
    isplitl [HO]; · iexact HO
    iexact HpR4
  iintro ⟨HO, HpR4, Hl4⟩
  -- arrival 5
  iapply (wp_rwait m ρ K c 5 (by decide) _ recvA5_sem _ _ _ rfl) $$ [HcR5 HO HpR5]
  · isplitr; · iexact Hrec
    isplitl [HcR5]; · iexact HcR5
    isplitl [HO]; · iexact HO
    iexact HpR5
  iintro ⟨HO, HpR5, Hl5⟩
  -- arrival 6
  iapply (wp_rwait m ρ K c 6 (by decide) _ recvA6_sem _ _ _ rfl) $$ [HcR6 HO HpR6]
  · isplitr; · iexact Hrec
    isplitl [HcR6]; · iexact HcR6
    isplitl [HO]; · iexact HO
    iexact HpR6
  iintro ⟨HO, HpR6, Hl6⟩
  -- arrival 7
  iapply (wp_rwait m ρ K c 7 (by decide) _ recvA7_sem _ _ _ rfl) $$ [HcR7 HO HpR7]
  · isplitr; · iexact Hrec
    isplitl [HcR7]; · iexact HcR7
    isplitl [HO]; · iexact HO
    iexact HpR7
  iintro ⟨HO, HpR7, Hl7⟩
  -- departure 1
  iapply (wp_swait m ρ K c 1 (by decide) _ sendA1_sem _ _ _ rfl) $$ [HcS1 HO HpS1]
  · isplitr; · iexact Hrec
    isplitl [HcS1]; · iexact HcS1
    isplitl [HO]; · iexact HO
    iexact HpS1
  iintro ⟨HO, HpS1, Hq1⟩
  -- departure 2
  iapply (wp_swait m ρ K c 2 (by decide) _ sendA2_sem _ _ _ rfl) $$ [HcS2 HO HpS2]
  · isplitr; · iexact Hrec
    isplitl [HcS2]; · iexact HcS2
    isplitl [HO]; · iexact HO
    iexact HpS2
  iintro ⟨HO, HpS2, Hq2⟩
  -- departure 3
  iapply (wp_swait m ρ K c 3 (by decide) _ sendA3_sem _ _ _ rfl) $$ [HcS3 HO HpS3]
  · isplitr; · iexact Hrec
    isplitl [HcS3]; · iexact HcS3
    isplitl [HO]; · iexact HO
    iexact HpS3
  iintro ⟨HO, HpS3, Hq3⟩
  -- departure 4
  iapply (wp_swait m ρ K c 4 (by decide) _ sendA4_sem _ _ _ rfl) $$ [HcS4 HO HpS4]
  · isplitr; · iexact Hrec
    isplitl [HcS4]; · iexact HcS4
    isplitl [HO]; · iexact HO
    iexact HpS4
  iintro ⟨HO, HpS4, Hq4⟩
  -- departure 5
  iapply (wp_swait m ρ K c 5 (by decide) _ sendA5_sem _ _ _ rfl) $$ [HcS5 HO HpS5]
  · isplitr; · iexact Hrec
    isplitl [HcS5]; · iexact HcS5
    isplitl [HO]; · iexact HO
    iexact HpS5
  iintro ⟨HO, HpS5, Hq5⟩
  -- departure 6
  iapply (wp_swait m ρ K c 6 (by decide) _ sendA6_sem _ _ _ rfl) $$ [HcS6 HO HpS6]
  · isplitr; · iexact Hrec
    isplitl [HcS6]; · iexact HcS6
    isplitl [HO]; · iexact HO
    iexact HpS6
  iintro ⟨HO, HpS6, Hq6⟩
  -- departure 7
  iapply (wp_swait m ρ K c 7 (by decide) _ sendA7_sem _ _ _ rfl) $$ [HcS7 HO HpS7]
  · isplitr; · iexact Hrec
    isplitl [HcS7]; · iexact HcS7
    isplitl [HO]; · iexact HO
    iexact HpS7
  iintro ⟨HO, HpS7, Hq7⟩
  -- every round of the sixteen own cells is consumed: they close
  imod (close_own m ρ K c) $$ [HpS0 HpR0 HpS1 HpS2 HpS3 HpS4 HpS5 HpS6 HpS7 HpR1 HpR2 HpR3 HpR4 HpR5 HpR6 HpR7] with Hz
  · isplitr; · iexact Hrec
    isplitl [HpS0]; · iexact HpS0
    isplitl [HpR0]; · iexact HpR0
    isplitl [HpS1]; · iexact HpS1
    isplitl [HpS2]; · iexact HpS2
    isplitl [HpS3]; · iexact HpS3
    isplitl [HpS4]; · iexact HpS4
    isplitl [HpS5]; · iexact HpS5
    isplitl [HpS6]; · iexact HpS6
    isplitl [HpS7]; · iexact HpS7
    isplitl [HpR1]; · iexact HpR1
    isplitl [HpR2]; · iexact HpR2
    isplitl [HpR3]; · iexact HpR3
    isplitl [HpR4]; · iexact HpR4
    isplitl [HpR5]; · iexact HpR5
    isplitl [HpR6]; · iexact HpR6
    iexact HpR7
  -- the table buffer whole again, every table in its slot
  ihave Hs0 := (slot0_shares c _).2 $$ [Hq1 Hq2 Hq3 Hq4 Hq5 Hq6 Hq7 Hqr]
  ·
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hqr
  ihave Ht := (table_split c _).2 $$ [Hs0 Hl1 Hl2 Hl3 Hl4 Hl5 Hl6 Hl7]
  ·
    isplitl [Hs0]; · iexact Hs0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  -- the eight tables, the own maxima again, the exponentials; the rescaled block stored
  iapply (wp_load 𝒱₀ (c : Thread nD τ) none Set.univ (m := tM) (Finset.subset_univ _)) $$ Ht; iintro Ht
  rw [read_t]
  iapply (wp_load 𝒱₀ (c : Thread nD τ) none Set.univ (m := tM) (Finset.subset_univ _)) $$ Ht; iintro Ht
  iapply (wp_load 𝒱₀ (c : Thread nD τ) none Set.univ (m := eM) (Finset.subset_univ _)) $$ He; iintro He
  rw [read_e]
  iapply (wp_load 𝒱₀ (c : Thread nD τ) none Set.univ (m := oM) (Finset.subset_univ _)) $$ Hout; iintro Hout
  iapply (wp_store 𝒱₀ (c : Thread nD τ) none Set.univ (m := oM) (r := r2) (Mk := Finset.univ) (Finset.subset_univ _)) $$ Hout; iintro Hout
  rw [write_o, wp_ret]; imodintro
  unfold bodyPost Φ₁ Dat.owesAt Pipeline.owesWithin
  rw [show (dats m ρ 0 c).owed t₀.succ = 0 from rfl]
  isplitl [He Ht Hz]
  · isplitl [He]; · iexists _; iexact He
    isplitl [Ht]; · iexists _; iexact Ht
    iexact Hz
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

end Cert.KernelIdeal.Dist

end
-- ==== Proof.KVals.lean ====
import proofs.«901060_g7700000000001061_dist_softmax_colshard_i_m1024_n512_v7x_i8_f32_1_alg».proof.Proof.Gen.Kernel.Skeleton

/-!
The values one device's run of the kernel body moves, as pure functions of every device's block of the input.

Device `c` first reduces its own block `xs c` to a 2 × 1024 table (row 0: each row's maximum; row 1: each row's sum of
exponentials shifted by that maximum) and keeps the shifted exponentials. The tables are then exchanged: slot `e` of
device `c`'s 8 × 2 × 1024 table buffer ends holding the table of the device `e` places before it on the ring of eight.
From the eight tables every device rescales its own exponentials to the softmax over the whole row.
-/

noncomputable section

namespace Cert.Kernel.Vals

open Cert.Kernel Cert.Kernel.Gen Idealize.ShloMosaic

variable {F : FTy → Type} [FloatOps F]

/-- The device `e` places before `c` on the ring of eight devices. -/
def back (c : Dev nD) (e : Fin 8) : Dev nD := ⟨(c.val + 8 - e.val) % 8, Nat.mod_lt _ (by decide)⟩

/-- The device `d` places after `c` on the ring. -/
def peer (c : Dev nD) (d : Fin 8) : Dev nD := ⟨(c.val + d.val) % 8, Nat.mod_lt _ (by decide)⟩

/-- A block's table: row maxima and shifted exponential row sums, as the 1 × 2 × 1024 vector the body stores. -/
def statsOf (x : Vec F S1024x512 .f32) : FVec F S1x2x1024 .f32 := k0_pay5 (k0_pay2 x)

/-- A block's shifted exponentials, as the body keeps them in its scratch buffer. -/
def eOf (x : Vec F S1024x512 .f32) : FVec F S1024x512 .f32 := k0_pay6 (k0_pay4 (k0_pay2 x))

/-- An index of the 8 × 2 × 1024 table buffer, read inside its slot. -/
def inSlot (i : S8x2x1024.Idx) : S1x2x1024.Idx := fun a => match a with
  | ⟨0, _⟩ => ⟨0, Nat.one_pos⟩
  | ⟨1, _⟩ => ⟨(i 1).val, (i 1).isLt⟩
  | ⟨2, _⟩ => ⟨(i 2).val, (i 2).isLt⟩

/-- Device `c`'s table buffer once every table has landed: slot `e` is the table of the device `e` places before `c`. -/
def allStats (xs : Dev nD → Vec F S1024x512 .f32) (c : Dev nD) : Vec F S8x2x1024 .f32 :=
  fun i => statsOf (xs (back c ⟨(i 0).val, (i 0).isLt⟩)) (inSlot i)

/-- The first row of slot 0 of that buffer (the device's own row maxima), as the body loads it again. -/
def row0 (xs : Dev nD → Vec F S1024x512 .f32) (c : Dev nD) : Vec F S1x1x1024 .f32 :=
  (Memref.whole cc0_scratch1 : Memref sig .tc .vmem S8x2x1024 .f32).view.readAt (Elt F)
    (Rect.unit (s := S8x2x1024) ![0, 0, 0] S1x1x1024.size inb_S8x2x1024_S1x1x1024_0_0_0).toLoadRect (allStats xs c)

/-- What device `c` stores into its block of the result. -/
def outOf (xs : Dev nD → Vec F S1024x512 .f32) (c : Dev nD) : FVec F S1024x512 .f32 :=
  k0_pay1 (allStats xs c) (row0 xs c) (eOf (xs c))

end Cert.Kernel.Vals

end
-- ==== Proof.KProto.lean ====
import proofs.«901060_g7700000000001061_dist_softmax_colshard_i_m1024_n512_v7x_i8_f32_1_alg».proof.Proof.KVals
import proofs.«901060_g7700000000001061_dist_softmax_colshard_i_m1024_n512_v7x_i8_f32_1_alg».proof.Proof.Gen.Kernel
import proofs.«901060_g7700000000001061_dist_softmax_colshard_i_m1024_n512_v7x_i8_f32_1_alg».proof.Proof.Gen.Kernel.Skeleton
import proofs.«901060_g7700000000001061_dist_softmax_colshard_i_m1024_n512_v7x_i8_f32_1_alg».proof.Proof.Gen.Kernel.Launch
import proofs.«901060_g7700000000001061_dist_softmax_colshard_i_m1024_n512_v7x_i8_f32_1_alg».proof.Proof.Gen.Kernel.Points
import Idealize.ShloMosaic.Lib.Pipeline.Launch
import Idealize.ShloMosaic.Lib.Pipeline.Kit
import Idealize.ShloMosaic.Lib.Tactic

/-!
The exchange of the eight devices' tables as a protocol of semaphore cells.

Every device `c` has one barrier cell, seven send cells and seven receive cells (offsets `d = 1 … 7`; the cells at
offset `0` are never used and have no duty). At entry `c` signals the barrier cell of every other device; the signal to
`peer c d` hands that device slot `neg d` of `c`'s table buffer, the slot it will write. After waiting for its seven
units `c` holds slot `e` of `peer c e` for every `e`, and copies its own table (slot 0, of which each copy borrows a
share) into each. A receive cell's unit hands its owner the slot with the sender's table in it; a send cell's unit hands
the borrowed share back.
-/

noncomputable section

namespace Cert.Kernel.Dist

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (duties named by an offset) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring of eight -/

/-- The offset back: `neg d` places after `peer c d` is `c` again. -/
def neg (d : Fin 8) : Fin 8 := ⟨(8 - d.val) % 8, Nat.mod_lt _ (by decide)⟩

theorem peer_peer_neg (c : Dev nD) (d : Fin 8) : peer (peer c d) (neg d) = c := by revert c d; decide
theorem peer_neg_peer (c : Dev nD) (d : Fin 8) : peer (peer c (neg d)) d = c := by revert c d; decide
theorem back_eq_peer_neg (c : Dev nD) (d : Fin 8) : back c d = peer c (neg d) := by revert c d; decide
theorem neg_neg (d : Fin 8) : neg (neg d) = d := by revert d; decide
theorem neg_ne_zero {d : Fin 8} (h : d ≠ 0) : neg d ≠ 0 := by revert d; decide
theorem peer_zero (c : Dev nD) : peer c 0 = c := by revert c; decide
theorem back_zero (c : Dev nD) : back c 0 = c := by revert c; decide
theorem peer_ne_self (c : Dev nD) {d : Fin 8} (h : d ≠ 0) : peer c d ≠ c := by revert c d; decide
theorem peer_injective (d : Fin 8) : Function.Injective (fun c : Dev nD => peer c d) := by revert d; decide

/-- Going `d` places round the ring, as a permutation of the devices. -/
def ringBy (d : Fin 8) : Dev nD ≃ Dev nD := ⟨fun c => peer c d, fun c => peer c (neg d), fun c => peer_peer_neg c d, fun c => peer_neg_peer c d⟩

/-- The kernel's `device_id` chains: signal `d` and copy `d` both name the device `d` places on. -/
theorem dev1_eq (c : Dev nD) : (⟨k0_dev1 c, k0_dev1_lt c⟩ : Dev nD) = peer c 1 := by revert c; decide +kernel
theorem dev2_eq (c : Dev nD) : (⟨k0_dev2 c, k0_dev2_lt c⟩ : Dev nD) = peer c 2 := by revert c; decide +kernel
theorem dev3_eq (c : Dev nD) : (⟨k0_dev3 c, k0_dev3_lt c⟩ : Dev nD) = peer c 3 := by revert c; decide +kernel
theorem dev4_eq (c : Dev nD) : (⟨k0_dev4 c, k0_dev4_lt c⟩ : Dev nD) = peer c 4 := by revert c; decide +kernel
theorem dev5_eq (c : Dev nD) : (⟨k0_dev5 c, k0_dev5_lt c⟩ : Dev nD) = peer c 5 := by revert c; decide +kernel
theorem dev6_eq (c : Dev nD) : (⟨k0_dev6 c, k0_dev6_lt c⟩ : Dev nD) = peer c 6 := by revert c; decide +kernel
theorem dev7_eq (c : Dev nD) : (⟨k0_dev7 c, k0_dev7_lt c⟩ : Dev nD) = peer c 7 := by revert c; decide +kernel
theorem dev8_eq (c : Dev nD) : (⟨k0_dev8 c, k0_dev8_lt c⟩ : Dev nD) = peer c 1 := by revert c; decide +kernel
theorem dev9_eq (c : Dev nD) : (⟨k0_dev9 c, k0_dev9_lt c⟩ : Dev nD) = peer c 2 := by revert c; decide +kernel
theorem dev10_eq (c : Dev nD) : (⟨k0_dev10 c, k0_dev10_lt c⟩ : Dev nD) = peer c 3 := by revert c; decide +kernel
theorem dev11_eq (c : Dev nD) : (⟨k0_dev11 c, k0_dev11_lt c⟩ : Dev nD) = peer c 4 := by revert c; decide +kernel
theorem dev12_eq (c : Dev nD) : (⟨k0_dev12 c, k0_dev12_lt c⟩ : Dev nD) = peer c 5 := by revert c; decide +kernel
theorem dev13_eq (c : Dev nD) : (⟨k0_dev13 c, k0_dev13_lt c⟩ : Dev nD) = peer c 6 := by revert c; decide +kernel
theorem dev14_eq (c : Dev nD) : (⟨k0_dev14 c, k0_dev14_lt c⟩ : Dev nD) = peer c 7 := by revert c; decide +kernel

/-! ## The memrefs and the cells -/

abbrev xM : Memref sig .tc .vmem S1024x512 .f32 := Memref.whole cc0_stg0_0
abbrev oM : Memref sig .tc .vmem S1024x512 .f32 := Memref.whole cc0_stg1_0
abbrev eM : Memref sig .tc .vmem S1024x512 .f32 := Memref.whole cc0_scratch0
/-- The table buffer, 8 slots of 2 × 1024. -/
abbrev tM : Memref sig .tc .vmem S8x2x1024 .f32 := Memref.whole cc0_scratch1

abbrev slot0 : Memref sig .tc .vmem S2x1024 .f32 := (tM.slice (Rect.unit (s := S8x2x1024) ![0, 0, 0] S1x2x1024.size inb_S8x2x1024_S1x2x1024_0_0_0) (fun _ => rfl)).squeeze S2x1024 squeezes_S1x2x1024_S2x1024
abbrev slot1 : Memref sig .tc .vmem S2x1024 .f32 := (tM.slice (Rect.unit (s := S8x2x1024) ![1, 0, 0] S1x2x1024.size inb_S8x2x1024_S1x2x1024_1_0_0) (fun _ => rfl)).squeeze S2x1024 squeezes_S1x2x1024_S2x1024
abbrev slot2 : Memref sig .tc .vmem S2x1024 .f32 := (tM.slice (Rect.unit (s := S8x2x1024) ![2, 0, 0] S1x2x1024.size inb_S8x2x1024_S1x2x1024_2_0_0) (fun _ => rfl)).squeeze S2x1024 squeezes_S1x2x1024_S2x1024
abbrev slot3 : Memref sig .tc .vmem S2x1024 .f32 := (tM.slice (Rect.unit (s := S8x2x1024) ![3, 0, 0] S1x2x1024.size inb_S8x2x1024_S1x2x1024_3_0_0) (fun _ => rfl)).squeeze S2x1024 squeezes_S1x2x1024_S2x1024
abbrev slot4 : Memref sig .tc .vmem S2x1024 .f32 := (tM.slice (Rect.unit (s := S8x2x1024) ![4, 0, 0] S1x2x1024.size inb_S8x2x1024_S1x2x1024_4_0_0) (fun _ => rfl)).squeeze S2x1024 squeezes_S1x2x1024_S2x1024
abbrev slot5 : Memref sig .tc .vmem S2x1024 .f32 := (tM.slice (Rect.unit (s := S8x2x1024) ![5, 0, 0] S1x2x1024.size inb_S8x2x1024_S1x2x1024_5_0_0) (fun _ => rfl)).squeeze S2x1024 squeezes_S1x2x1024_S2x1024
abbrev slot6 : Memref sig .tc .vmem S2x1024 .f32 := (tM.slice (Rect.unit (s := S8x2x1024) ![6, 0, 0] S1x2x1024.size inb_S8x2x1024_S1x2x1024_6_0_0) (fun _ => rfl)).squeeze S2x1024 squeezes_S1x2x1024_S2x1024
abbrev slot7 : Memref sig .tc .vmem S2x1024 .f32 := (tM.slice (Rect.unit (s := S8x2x1024) ![7, 0, 0] S1x2x1024.size inb_S8x2x1024_S1x2x1024_7_0_0) (fun _ => rfl)).squeeze S2x1024 squeezes_S1x2x1024_S2x1024

abbrev sendA1 : DmaSems sig S_ := (cc0_scratch2.slice (Rect.unit (s := S8) ![1] S1.size inb_S8_S1_1)).squeeze S_ squeezes_S1_S_
abbrev sendA2 : DmaSems sig S_ := (cc0_scratch2.slice (Rect.unit (s := S8) ![2] S1.size inb_S8_S1_2)).squeeze S_ squeezes_S1_S_
abbrev sendA3 : DmaSems sig S_ := (cc0_scratch2.slice (Rect.unit (s := S8) ![3] S1.size inb_S8_S1_3)).squeeze S_ squeezes_S1_S_
abbrev sendA4 : DmaSems sig S_ := (cc0_scratch2.slice (Rect.unit (s := S8) ![4] S1.size inb_S8_S1_4)).squeeze S_ squeezes_S1_S_
abbrev sendA5 : DmaSems sig S_ := (cc0_scratch2.slice (Rect.unit (s := S8) ![5] S1.size inb_S8_S1_5)).squeeze S_ squeezes_S1_S_
abbrev sendA6 : DmaSems sig S_ := (cc0_scratch2.slice (Rect.unit (s := S8) ![6] S1.size inb_S8_S1_6)).squeeze S_ squeezes_S1_S_
abbrev sendA7 : DmaSems sig S_ := (cc0_scratch2.slice (Rect.unit (s := S8) ![7] S1.size inb_S8_S1_7)).squeeze S_ squeezes_S1_S_
abbrev recvA1 : DmaSems sig S_ := (cc0_scratch3.slice (Rect.unit (s := S8) ![1] S1.size inb_S8_S1_1)).squeeze S_ squeezes_S1_S_
abbrev recvA2 : DmaSems sig S_ := (cc0_scratch3.slice (Rect.unit (s := S8) ![2] S1.size inb_S8_S1_2)).squeeze S_ squeezes_S1_S_
abbrev recvA3 : DmaSems sig S_ := (cc0_scratch3.slice (Rect.unit (s := S8) ![3] S1.size inb_S8_S1_3)).squeeze S_ squeezes_S1_S_
abbrev recvA4 : DmaSems sig S_ := (cc0_scratch3.slice (Rect.unit (s := S8) ![4] S1.size inb_S8_S1_4)).squeeze S_ squeezes_S1_S_
abbrev recvA5 : DmaSems sig S_ := (cc0_scratch3.slice (Rect.unit (s := S8) ![5] S1.size inb_S8_S1_5)).squeeze S_ squeezes_S1_S_
abbrev recvA6 : DmaSems sig S_ := (cc0_scratch3.slice (Rect.unit (s := S8) ![6] S1.size inb_S8_S1_6)).squeeze S_ squeezes_S1_S_
abbrev recvA7 : DmaSems sig S_ := (cc0_scratch3.slice (Rect.unit (s := S8) ![7] S1.size inb_S8_S1_7)).squeeze S_ squeezes_S1_S_

/-- The runtime's barrier semaphore of collective id 0 (unscoped); the send and receive DMA semaphores by offset. -/
abbrev barS : Sem sig := (SemArray.scalar (sig.barrier 0 rfl) : Sems sig S_).sem
def sendS (d : Fin 8) : DmaSem sig := ⟨2 + d.val, by have := d.isLt; show 2 + d.val < 18; omega⟩
def recvS (d : Fin 8) : DmaSem sig := ⟨10 + d.val, by have := d.isLt; show 10 + d.val < 18; omega⟩

theorem sendA1_sem : sendA1.sem = sendS 1 := by decide
theorem sendA2_sem : sendA2.sem = sendS 2 := by decide
theorem sendA3_sem : sendA3.sem = sendS 3 := by decide
theorem sendA4_sem : sendA4.sem = sendS 4 := by decide
theorem sendA5_sem : sendA5.sem = sendS 5 := by decide
theorem sendA6_sem : sendA6.sem = sendS 6 := by decide
theorem sendA7_sem : sendA7.sem = sendS 7 := by decide
theorem recvA1_sem : recvA1.sem = recvS 1 := by decide
theorem recvA2_sem : recvA2.sem = recvS 2 := by decide
theorem recvA3_sem : recvA3.sem = recvS 3 := by decide
theorem recvA4_sem : recvA4.sem = recvS 4 := by decide
theorem recvA5_sem : recvA5.sem = recvS 5 := by decide
theorem recvA6_sem : recvA6.sem = recvS 6 := by decide
theorem recvA7_sem : recvA7.sem = recvS 7 := by decide

abbrev barCell (c : Dev nD) : GSem nD τ sig := ((c : Thread nD τ), .reg barS)
abbrev sendCell (c : Dev nD) (d : Fin 8) : GSem nD τ sig := ((c : Thread nD τ), .dma (sendS d))
abbrev recvCell (c : Dev nD) (d : Fin 8) : GSem nD τ sig := ((c : Thread nD τ), .dma (recvS d))

/-- The kernel's OWN (scoped) semaphores as the launch indexes them: the sixteen DMA semaphores of its two arrays; -/
abbrev osem : Fin 16 → SemLoc sig := fun k => .dma ⟨2 + k.val, by have := k.isLt; show 2 + k.val < 18; omega⟩
/-- all seventeen of the exchange's: the barrier, then those. -/
abbrev csem : Fin 17 → SemLoc sig := fun k => if h : k.val = 0 then .reg barS else .dma ⟨1 + k.val, by have := k.isLt; show 1 + k.val < 18; omega⟩
abbrev kcell (ck : Dev nD × Fin 17) : GSem nD τ sig := ((ck.1 : Thread nD τ), csem ck.2)

/-- The units one table's copy puts on a DMA semaphore. -/
abbrev N : ℕ := (slot1 : Memref sig .tc .vmem S2x1024 .f32).view.dmaCredit
theorem N_pos : 0 < N := View.dmaCredit_pos _ (by decide)

/-- The view of slot `d` of a table buffer, as the body slices it. -/
def slotV : Fin 8 → Memref sig .tc .vmem S2x1024 .f32
  | ⟨0, _⟩ => slot0
  | ⟨1, _⟩ => slot1
  | ⟨2, _⟩ => slot2
  | ⟨3, _⟩ => slot3
  | ⟨4, _⟩ => slot4
  | ⟨5, _⟩ => slot5
  | ⟨6, _⟩ => slot6
  | ⟨7, _⟩ => slot7
  | ⟨_ + 8, h⟩ => absurd h (Nat.not_lt.2 (Nat.le_add_left _ _))

/-! ## Contents -/

/-- Device `c`'s block of the input, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- Every device's block. -/
def xs : Dev nD → Vec F S1024x512 .f32 := fun c => xstg m ρ c

abbrev tLoc (c : Dev nD) : Loc nD τ sig := (c : Thread nD τ).loc cc0_scratch1

/-- Share `q` of slot `d` of device `c`'s table buffer, the buffer's contents `f`. -/
def slotPts (c : Dev nD) (q : PosShare TreeShare) (f : Buf (Elt F) (tLoc c)) : Fin 8 → sProp 𝕄
  | ⟨0, _⟩ => (slot0 : Memref sig .tc .vmem S2x1024 .f32).view.loc (c : Thread nD τ) ↦[(slot0 : Memref sig .tc .vmem S2x1024 .f32).view.set]{q} f
  | ⟨1, _⟩ => (slot1 : Memref sig .tc .vmem S2x1024 .f32).view.loc (c : Thread nD τ) ↦[(slot1 : Memref sig .tc .vmem S2x1024 .f32).view.set]{q} f
  | ⟨2, _⟩ => (slot2 : Memref sig .tc .vmem S2x1024 .f32).view.loc (c : Thread nD τ) ↦[(slot2 : Memref sig .tc .vmem S2x1024 .f32).view.set]{q} f
  | ⟨3, _⟩ => (slot3 : Memref sig .tc .vmem S2x1024 .f32).view.loc (c : Thread nD τ) ↦[(slot3 : Memref sig .tc .vmem S2x1024 .f32).view.set]{q} f
  | ⟨4, _⟩ => (slot4 : Memref sig .tc .vmem S2x1024 .f32).view.loc (c : Thread nD τ) ↦[(slot4 : Memref sig .tc .vmem S2x1024 .f32).view.set]{q} f
  | ⟨5, _⟩ => (slot5 : Memref sig .tc .vmem S2x1024 .f32).view.loc (c : Thread nD τ) ↦[(slot5 : Memref sig .tc .vmem S2x1024 .f32).view.set]{q} f
  | ⟨6, _⟩ => (slot6 : Memref sig .tc .vmem S2x1024 .f32).view.loc (c : Thread nD τ) ↦[(slot6 : Memref sig .tc .vmem S2x1024 .f32).view.set]{q} f
  | ⟨7, _⟩ => (slot7 : Memref sig .tc .vmem S2x1024 .f32).view.loc (c : Thread nD τ) ↦[(slot7 : Memref sig .tc .vmem S2x1024 .f32).view.set]{q} f
  | ⟨_ + 8, h⟩ => absurd h (Nat.not_lt.2 (Nat.le_add_left _ _))

omit [FloatOps F] in
instance slotPts_storable (c : Dev nD) (q : PosShare TreeShare) (f : Buf (Elt F) (tLoc c)) (d : Fin 8) :
    BI.Storable (upEmb : UEmb _ 𝕄) (slotPts c q f d) := by
  fin_cases d <;> (dsimp only [slotPts]; infer_instance)

/-- The share of slot 0 that copy `d` borrows: the left half of what the copies before it left. -/
def shr (d : Fin 8) : PosShare TreeShare := (Nat.iterate PosShare.right (d.val - 1) fullShare).left
/-- What the seven copies leave of slot 0 with its owner. -/
def shrRest : PosShare TreeShare := Nat.iterate PosShare.right 7 fullShare

/-! ## The schedule -/

/-- What `peer c e`'s signal hands `c`: slot `e` of that device's table buffer, and that it has reached round 0 of the
    slot's receive cell. -/
def barPay (c : Dev nD) (e : Fin 8) : sProp 𝕄 :=
  iprop((∃ f, slotPts (peer c e) fullShare f e) ∗ reached ER (recvCell (peer c e) e) 0)
/-- What the copy into slot `e` hands its owner: the slot, holding the table of the device `e` places before. -/
def recvPay (c : Dev nD) (e : Fin 8) : sProp 𝕄 := slotPts c fullShare (allStats (xs m ρ) c) e
/-- What copy `d`'s departure hands back: the share of slot 0 it borrowed. -/
def sendPay (c : Dev nD) (d : Fin 8) : sProp 𝕄 := slotPts c (shr d) (allStats (xs m ρ) c) 0

/-- One round, round 0. A barrier cell has the seven duties `e = 1 … 7` of one unit (duty `e` paid by `peer c e`); the
    send and receive cells of offsets `1 … 7` the duty `0` of a copy's credit; every other cell none. -/
def softRd : Rounds.Schedule (GSem nD τ sig) (Fin 8) 𝕄 where
  duties g r := if r = 0 ∧ g.1.2 = .tc then
      (match g.2 with
       | .reg s => if s = barS then Finset.univ.erase 0 else ∅
       | .dma q => if q.val ≤ 2 ∨ q.val = 10 then ∅ else {0})
    else ∅
  unitless _ := False
  amount g _ _ := match g.2 with | .reg _ => 1 | .dma _ => N
  payload g _ e := match g.2 with
    | .reg _ => barPay g.1.1 e
    | .dma q => if 10 ≤ q.val then recvPay m ρ g.1.1 ⟨(q.val - 10) % 8, Nat.mod_lt _ (by decide)⟩
                else sendPay m ρ g.1.1 ⟨(q.val - 2) % 8, Nat.mod_lt _ (by decide)⟩
  amount_pos g _ _ _ := by
    cases g.2 with
    | reg _ => exact Nat.one_pos
    | dma _ => exact N_pos

instance softRd_payload_storable (g : GSem nD τ sig) (r : ℕ) (d : Fin 8) :
    BI.Storable (upEmb : UEmb _ 𝕄) ((softRd (F := F) m ρ).payload g r d) := by
  obtain ⟨t, sm⟩ := g
  cases sm with
  | reg s => show BI.Storable upEmb (barPay t.1 d); unfold barPay; infer_instance
  | dma q =>
    show BI.Storable upEmb (if 10 ≤ q.val then recvPay m ρ t.1 _ else sendPay m ρ t.1 _)
    unfold recvPay sendPay
    split <;> infer_instance

section Sched
variable (c : Dev nD)

theorem duties_bar : (softRd (F := F) m ρ).duties (barCell c) 0 = Finset.univ.erase 0 := by
  dsimp only [softRd]; rw [if_pos ⟨rfl, rfl⟩]; exact if_pos rfl
theorem duties_send {d : Fin 8} (hd : d ≠ 0) : (softRd (F := F) m ρ).duties (sendCell c d) 0 = {0} := by
  dsimp only [softRd]; rw [if_pos ⟨rfl, rfl⟩]; revert d; decide
theorem duties_recv {d : Fin 8} (hd : d ≠ 0) : (softRd (F := F) m ρ).duties (recvCell c d) 0 = {0} := by
  dsimp only [softRd]; rw [if_pos ⟨rfl, rfl⟩]; revert d; decide
theorem duties_send_zero (r : ℕ) : (softRd (F := F) m ρ).duties (sendCell c 0) r = ∅ := by
  dsimp only [softRd]; split
  · exact if_pos (by decide)
  · rfl
theorem duties_recv_zero (r : ℕ) : (softRd (F := F) m ρ).duties (recvCell c 0) r = ∅ := by
  dsimp only [softRd]; split
  · exact if_pos (by decide)
  · rfl
theorem duties_later (g : GSem nD τ sig) : ∀ r, 1 ≤ r → (softRd (F := F) m ρ).duties g r = ∅ :=
  fun r hr => by dsimp only [softRd]; rw [if_neg fun h => by omega]

theorem amount_bar (e : Fin 8) : (softRd (F := F) m ρ).amount (barCell c) 0 e = 1 := rfl
theorem amount_send (d e : Fin 8) : (softRd (F := F) m ρ).amount (sendCell c d) 0 e = N := rfl
theorem amount_recv (d e : Fin 8) : (softRd (F := F) m ρ).amount (recvCell c d) 0 e = N := rfl

theorem expect_bar : (softRd (F := F) m ρ).expect (barCell c) 0 = 7 := by
  unfold Schedule.expect Schedule.amountOf
  rw [duties_bar, Finset.sum_congr rfl fun d _ => amount_bar m ρ c d, Finset.sum_const, smul_eq_mul]; decide
theorem expect_send {d : Fin 8} (hd : d ≠ 0) : (softRd (F := F) m ρ).expect (sendCell c d) 0 = N := by
  unfold Schedule.expect Schedule.amountOf; rw [duties_send m ρ c hd, Finset.sum_singleton, amount_send]
theorem expect_recv {d : Fin 8} (hd : d ≠ 0) : (softRd (F := F) m ρ).expect (recvCell c d) 0 = N := by
  unfold Schedule.expect Schedule.amountOf; rw [duties_recv m ρ c hd, Finset.sum_singleton, amount_recv]

theorem payload_bar (e : Fin 8) : (softRd (F := F) m ρ).payload (barCell c) 0 e = barPay c e := rfl
theorem payload_send (d e : Fin 8) : (softRd (F := F) m ρ).payload (sendCell c d) 0 e = sendPay m ρ c d := by
  fin_cases d <;> rfl
theorem payload_recv (d e : Fin 8) : (softRd (F := F) m ρ).payload (recvCell c d) 0 e = recvPay m ρ c d := by
  fin_cases d <;> rfl

/-- The rest of the barrier cell's round, no duty taken: the seven devices' slots. -/
theorem rest_bar : bigSep ((softRd (F := F) m ρ).duties (barCell c) 0 \ ∅) (fun d => (softRd (F := F) m ρ).payload (barCell c) 0 d)
    = iprop(barPay c 1 ∗ barPay c 2 ∗ barPay c 3 ∗ barPay c 4 ∗ barPay c 5 ∗ barPay c 6 ∗ barPay c 7) := by
  rw [Finset.sdiff_empty, duties_bar, bigSep_eq_bigSepL_of_eq [1, 2, 3, 4, 5, 6, 7] (by decide) (by decide)]
  rfl
theorem rest_send {d : Fin 8} (hd : d ≠ 0) : bigSep ((softRd (F := F) m ρ).duties (sendCell c d) 0 \ ∅) (fun e => (softRd (F := F) m ρ).payload (sendCell c d) 0 e) = sendPay m ρ c d := by
  rw [Finset.sdiff_empty, duties_send m ρ c hd, bigSep_singleton, payload_send]
theorem rest_recv {d : Fin 8} (hd : d ≠ 0) : bigSep ((softRd (F := F) m ρ).duties (recvCell c d) 0 \ ∅) (fun e => (softRd (F := F) m ρ).payload (recvCell c d) 0 e) = recvPay m ρ c d := by
  rw [Finset.sdiff_empty, duties_recv m ρ c hd, bigSep_singleton, payload_recv]

end Sched

/-! ## What each device owes at launch; the levels -/

/-- A unit owed to the barrier cell `d` places on; a copy's credit owed to the receive cell `d` of the device `d` places on. -/
def bT (c : Dev nD) (d : Fin 8) : CellTallies nD τ sig Unit := tallyAt (barCell (peer c d)) () 1
def rT (c : Dev nD) (d : Fin 8) : CellTallies nD τ sig Unit := tallyAt (recvCell (peer c d) d) () N

/-- What is still owed before copy `d` (the copies go `1, 2, …, 7`; the last summand is paid first). -/
def OR7 (c : Dev nD) : CellTallies nD τ sig Unit := rT c 7
def OR6 (c : Dev nD) : CellTallies nD τ sig Unit := OR7 c + rT c 6
def OR5 (c : Dev nD) : CellTallies nD τ sig Unit := OR6 c + rT c 5
def OR4 (c : Dev nD) : CellTallies nD τ sig Unit := OR5 c + rT c 4
def OR3 (c : Dev nD) : CellTallies nD τ sig Unit := OR4 c + rT c 3
def OR2 (c : Dev nD) : CellTallies nD τ sig Unit := OR3 c + rT c 2
def OR1 (c : Dev nD) : CellTallies nD τ sig Unit := OR2 c + rT c 1
/-- What is still owed before signal `d` (the signals go `1, 2, …, 7`, all before the copies). -/
def OB7 (c : Dev nD) : CellTallies nD τ sig Unit := OR1 c + bT c 7
def OB6 (c : Dev nD) : CellTallies nD τ sig Unit := OB7 c + bT c 6
def OB5 (c : Dev nD) : CellTallies nD τ sig Unit := OB6 c + bT c 5
def OB4 (c : Dev nD) : CellTallies nD τ sig Unit := OB5 c + bT c 4
def OB3 (c : Dev nD) : CellTallies nD τ sig Unit := OB4 c + bT c 3
def OB2 (c : Dev nD) : CellTallies nD τ sig Unit := OB3 c + bT c 2
/-- Everything a device owes at launch: seven barrier units and seven copies' credits. -/
def O₀ (c : Dev nD) : CellTallies nD τ sig Unit := OB2 c + bT c 1

def L (g : GSem nD τ sig) : Finset Unit := if g.1.2 = .tc then {()} else ∅
/-- Barrier cells at 1, receive cells at 2, everything else (staging, send) at 0. -/
def lv (g : GSem nD τ sig) (_ : Unit) : ℕ := match g.2 with | .reg _ => 1 | .dma q => if 10 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`. -/
def outAt (c : Dev nD) : (cc0_stg1_0 : Ref sig .tc).ty.Contents (Elt F) := outOf (xs m ρ) c

/-- The cell of a send or receive semaphore among a device's seventeen. -/
def kS (d : Fin 8) : Fin 17 := ⟨1 + d.val, by have := d.isLt; omega⟩
def kR (d : Fin 8) : Fin 17 := ⟨9 + d.val, by have := d.isLt; omega⟩
theorem kcell_bar (c : Dev nD) : kcell (c, 0) = barCell c := rfl
theorem kcell_send (c : Dev nD) (d : Fin 8) : kcell (c, kS d) = sendCell c d := by fin_cases d <;> rfl
theorem kcell_recv (c : Dev nD) (d : Fin 8) : kcell (c, kR d) = recvCell c d := by fin_cases d <;> rfl

/-- Every cell's invariant under the names `K` the launch allocated them at, and that round 0 of every cell is reached. -/
def records (K : Dev nD × Fin 17 → ℕ) : sProp 𝕄 :=
  iprop((bigSep Finset.univ fun ck : Dev nD × Fin 17 => cellInv ER (softRd m ρ) (K ck) (kcell ck))
    ∗ bigSep Finset.univ fun ck : Dev nD × Fin 17 => reached ER (kcell ck) 0)

instance records_persistent (K : Dev nD × Fin 17 → ℕ) : BI.Persistent (records m ρ K) := by unfold records; infer_instance

/-- The tokens of the duties device `c` pays: per offset `d`, the barrier duty `neg d` of the device `d` places on, the
    duty of that device's receive cell `d`, and the duty of its own send cell `d`. -/
def payToks (c : Dev nD) : sProp 𝕄 :=
  bigSep (Finset.univ.erase (0 : Fin 8)) fun d =>
    iprop(dutyTok ER (barCell (peer c d)) 0 (neg d) ∗ dutyTok ER (recvCell (peer c d) d) 0 0 ∗ dutyTok ER (sendCell c d) 0 0)

/-- What stays with device `c`: its positions at round 0 of its seventeen cells, and the tokens it pays with. -/
def linear (c : Dev nD) : sProp 𝕄 :=
  iprop((bigSep Finset.univ fun k : Fin 17 => atPos ER (kcell (c, k)) 0 ∅ 0) ∗ payToks c)

def ghost (K : Dev nD × Fin 17 → ℕ) (c : Dev nD) : sProp 𝕄 := iprop(records m ρ K ∗ linear c)

/-- What device `c`'s body starts from: that at some names, the credit tokens for what the others owe its cells (seven
    barrier units; a copy's credit on each receive cell) and the level facts. -/
def start (c : Dev nD) : sProp 𝕄 :=
  iprop((∃ K, ghost m ρ K c) ∗ cred (tallyAt (barCell c) () 7)
    ∗ (bigSep (Finset.univ.erase (0 : Fin 8)) fun e => cred (tallyAt (recvCell c e) () N)) ∗ levAts L lv)

def Φ₀ (c : Dev nD) : sProp 𝕄 :=
  iprop(start m ρ c ∗ (∃ f : Buf (Elt F) ((c : Thread nD τ).loc cc0_scratch0), ((c : Thread nD τ).loc cc0_scratch0) ↦{fullShare} f)
    ∗ (∃ f : Buf (Elt F) (tLoc c), tLoc c ↦{fullShare} f))
/-- After the point: the two scratch buffers whole again, the sixteen own cells closed, their counters at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) (tLoc c), tLoc c ↦{fullShare} f)
    ∗ bigSep Finset.univ fun k : Fin 16 => semVal ((c : Thread nD τ), osem k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem share_eq (c : Dev nD) (w : Fin cfg0.W) : (dats m ρ 0 c).share w = fullShare := by unfold Dat.share; split <;> rfl

end Cert.Kernel.Dist

end
-- ==== Proof.KLevels.lean ====
import proofs.«901060_g7700000000001061_dist_softmax_colshard_i_m1024_n512_v7x_i8_f32_1_alg».proof.Proof.KProto

/-!
The deadlock argument's levels: a wait is allowed at a cell whose level lies below everything the waiter still owes.
A device owes barrier cells (level 1) and receive cells (level 2); it waits on staging and send cells (level 0) at any
time, and on its barrier cell (level 1) once only receive cells are owed.
-/

noncomputable section

namespace Cert.Kernel.Dist

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where the launch debt is positive -/

theorem bT_pos {c : Dev nD} {d : Fin 8} {g : GSem nD τ sig} {u : Unit} (h : 0 < bT c d g u) : g = barCell (peer c d) := by
  unfold bT at h
  rw [tallyAt_apply] at h
  by_contra hn
  rw [if_neg (fun h' => hn h'.1)] at h
  exact Nat.lt_irrefl 0 h

theorem rT_pos {c : Dev nD} {d : Fin 8} {g : GSem nD τ sig} {u : Unit} (h : 0 < rT c d g u) : g = recvCell (peer c d) d := by
  unfold rT at h
  rw [tallyAt_apply] at h
  by_contra hn
  rw [if_neg (fun h' => hn h'.1)] at h
  exact Nat.lt_irrefl 0 h

/-- The seven copies' credits are owed to receive cells of the offsets `1 … 7` only. -/
theorem OR1_pos_ne {c : Dev nD} {g : GSem nD τ sig} {u : Unit} (h : 0 < OR1 c g u) : ∃ d : Fin 8, d ≠ 0 ∧ g = recvCell (peer c d) d := by
  unfold OR1 OR2 OR3 OR4 OR5 OR6 OR7 at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  all_goals exact ⟨_, by decide, rT_pos h⟩

theorem OR1_pos {c : Dev nD} {g : GSem nD τ sig} {u : Unit} (h : 0 < OR1 c g u) : ∃ d : Fin 8, g = recvCell (peer c d) d :=
  let ⟨d, _, hd⟩ := OR1_pos_ne h
  ⟨d, hd⟩

/-- The launch debt is owed to barrier cells and to receive cells, of the offsets `1 … 7`. -/
theorem O₀_pos {c : Dev nD} {g : GSem nD τ sig} {u : Unit} (h : 0 < O₀ c g u) :
    (∃ d : Fin 8, d ≠ 0 ∧ g = barCell (peer c d)) ∨ (∃ d : Fin 8, d ≠ 0 ∧ g = recvCell (peer c d) d) := by
  unfold O₀ OB2 OB3 OB4 OB5 OB6 OB7 at h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  rcases Pipeline.add_pos_cases h with h | h
  · exact Or.inr (OR1_pos_ne h)
  all_goals exact Or.inl ⟨_, by decide, bT_pos h⟩

/-! ## The cells' levels -/

theorem lv_bar (c : Dev nD) (u : Unit) : lv (barCell c) u = 1 := rfl

theorem lv_recv (c : Dev nD) (d : Fin 8) (u : Unit) : lv (recvCell c d) u = 2 := by
  dsimp only [lv, recvS]
  exact if_pos (Nat.le_add_right 10 d.val)

theorem lv_low (c : Dev nD) (q : DmaSem sig) (hq : q.val < 10) (u : Unit) : lv ((c : Thread nD τ), .dma q) u = 0 := by
  dsimp only [lv]
  exact if_neg (by omega)

omit [FloatOps F] in
/-- A wait on a staging or send cell, whatever of its launch debt the device still owes. -/
theorem mayWait_stage (c : Dev nD) (q : DmaSem sig) (hq : q.val < 10) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨d, -, rfl⟩ | ⟨d, -, rfl⟩ <;> (rw [L_tc]; exact Finset.mem_singleton_self _))
      (fun p hp => by rw [Finset.mem_singleton.mp hp, lv_low c q hq])
      (fun g u hg => by
        rcases O₀_pos hg with ⟨d, -, rfl⟩ | ⟨d, -, rfl⟩
        · rw [lv_bar]; decide
        · rw [lv_recv]; decide)
  · rw [MayWait_zero]; iintro -; iempintro

omit [FloatOps F] in
/-- At its barrier wait a device owes receive cells only, all above its barrier cell. -/
theorem mayWait_bar (c : Dev nD) :
    (levAts L lv : sProp 𝕄) ⊢ MayWait (c : Thread nD τ) (.reg barS) () (OR1 c) := by
  exact MayOwe.of_cut (L := L) (lev := lv) 1
    (fun p hp => by rw [Finset.mem_singleton.mp hp, L_tc]; exact Finset.mem_singleton_self _)
    (fun g u hg => by
      obtain ⟨d, rfl⟩ := OR1_pos hg
      rw [L_tc]; exact Finset.mem_singleton_self _)
    (fun p hp => by rw [Finset.mem_singleton.mp hp, lv_bar])
    (fun g u hg => by
      obtain ⟨d, rfl⟩ := OR1_pos hg
      rw [lv_recv]; decide)

end Cert.Kernel.Dist

end
-- ==== Proof.KLaunch.lean ====
import proofs.«901060_g7700000000001061_dist_softmax_colshard_i_m1024_n512_v7x_i8_f32_1_alg».proof.Proof.KLevels

/-!
The launch: the exchange's ghost state funded and dealt round the ring, every cell's invariant allocated under one update,
the launch credit counted, and the run of @main on the eight devices from any memory with zero counters.
-/

noncomputable section

namespace Cert.Kernel.Dist

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem ownSemFacts : Pipeline.OwnSemFacts cfg0.spec osem := by decide

theorem csem_inj : ∀ k k' : Fin 17, csem k = csem k' → k = k' := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_inj k k' h2]

/-- The 8 × 17 cells of the exchange. -/
def ringCells : Finset (GSem nD τ sig) := Finset.univ.map ⟨kcell, kcell_injective⟩

/-- The semaphore and the duty name of a device's minted token: per offset `i + 1`, its barrier cell's duty of that
    name, and the one duty of its send and of its receive cell of that offset. -/
def tokSem (ij : Fin 7 × Fin 3) : SemLoc sig × Fin 8 := match ij.2 with
  | 0 => (.reg barS, ij.1.succ) | 1 => (.dma (sendS ij.1.succ), 0) | 2 => (.dma (recvS ij.1.succ), 0)

theorem tokSem_inj : ∀ a b : Fin 7 × Fin 3, tokSem a = tokSem b → a = b := by decide

abbrev tokOf (x : Dev nD × Fin 7 × Fin 3) : GSem nD τ sig × ℕ × Fin 8 :=
  (((x.1 : Thread nD τ), (tokSem x.2).1), 0, (tokSem x.2).2)

theorem tokOf_injective : Function.Injective (tokOf : Dev nD × Fin 7 × Fin 3 → GSem nD τ sig × ℕ × Fin 8) := by
  rintro ⟨c, ij⟩ ⟨c', ij'⟩ h
  have h1 : c = c' := by have := congrArg (fun x : GSem nD τ sig × ℕ × Fin 8 => x.1.1.1) h; exact this
  subst h1
  have h2 : tokSem ij = tokSem ij' := Prod.ext (congrArg (fun x : GSem nD τ sig × ℕ × Fin 8 => x.1.2) h) (congrArg (fun x : GSem nD τ sig × ℕ × Fin 8 => x.2.2) h)
  rw [tokSem_inj ij ij' h2]

def ringToks : Finset (GSem nD τ sig × ℕ × Fin 8) := Finset.univ.map ⟨tokOf, tokOf_injective⟩

/-- The launch element: the pipeline's copy and the exchange's. -/
def u₀ : UU :=
  (initOf (Pipeline.cells cfgs cellOf_inj) (Pipeline.launchToks cfgs cellOf_inj), initOf ringCells ringToks)

/-- The duty tokens of device `c`'s own cells, as minted. -/
def toks (c : Dev nD) : sProp 𝕄 :=
  bigSep (Finset.univ.erase (0 : Fin 8)) fun d =>
    iprop(dutyTok ER (barCell c) 0 d ∗ dutyTok ER (sendCell c d) 0 0 ∗ dutyTok ER (recvCell c d) 0 0)

/-- What the launch element deals device `c`. -/
def G (c : Dev nD) : sProp 𝕄 :=
  iprop((bigSep Finset.univ fun k : Fin 17 => roundState ER (softRd m ρ) (kcell (c, k)) 0)
    ∗ (bigSep Finset.univ fun k : Fin 17 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

omit [FloatOps F] in
/-- Iterated conjunctions over two finite sets commute. -/
theorem bigSep_comm' {α β : Type} (s : Finset α) (t : Finset β) (Φ : α → β → sProp 𝕄) :
    bigSep s (fun a => bigSep t (fun b => Φ a b)) = bigSep t (fun b => bigSep s (fun a => Φ a b)) := by
  classical
  induction s using Finset.induction_on with
  | empty => simp only [bigSep_empty]; exact (bigSep_emp_const t).symm
  | insert a s ha ih => simp only [bigSep_insert ha]; rw [ih, ← bigSep_sep]

omit [FloatOps F] in
/-- The offsets `1 … 7` are the successors of `0 … 6`. -/
theorem erase_zero_eq : (Finset.univ.erase (0 : Fin 8)) = Finset.univ.map (Fin.succEmb 7) := by decide

omit [FloatOps F] in
theorem toks_eq (c : Dev nD) :
    (bigSep Finset.univ fun ij : Fin 7 × Fin 3 => (dutyTok ER (tokOf (c, ij)).1 (tokOf (c, ij)).2.1 (tokOf (c, ij)).2.2 : sProp 𝕄)) = toks c := by
  unfold toks
  rw [bigSep_univ_prod, erase_zero_eq, bigSep_map]
  exact bigSep_congr fun i _ => by rw [bigSep_fin3]; rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (softRd m ρ) ringCells ringToks) $$ HX with ⟨Hst, Hr, Hat, Htok⟩
  imodintro
  ihave Hst' := (Entails.of_eq (hX fun g => roundState ER (softRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### Every cell's invariant, allocated for all devices under one update -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem csem_succ : ∀ k : Fin 16, csem k.succ = osem k := by decide

omit [FloatOps F] in
theorem erase_zero_eq17 : (Finset.univ.erase (0 : Fin 17)) = Finset.univ.map (Fin.succEmb 16) := by decide

omit [FloatOps F] in
/-- A device's seventeen counters at zero: its barrier semaphore's and its sixteen own. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [unscopedSems0_eq, bigSep_univ_at _ (0 : Fin 17), erase_zero_eq17, bigSep_map]
  unfold Pipeline.ownSems0
  iintro ⟨HS, HB⟩
  isplitl [HB]; · iexact HB
  iapply (Entails.of_eq (bigSep_congr (s := Finset.univ) fun (k : Fin 16) _ =>
    show (semVal ((c : Thread nD τ), osem k) 0 : sProp 𝕄) = semVal (kcell (c, Fin.succEmb 16 k)) 0 from by
      show _ = semVal ((c : Thread nD τ), csem k.succ) 0
      rw [csem_succ]))
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (softRd m ρ) κ (kcell (c, k))))
          ∗ (bigSep Finset.univ fun k : Fin 17 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (softRd m ρ) (kcell (c, k)) 0)
      ⊢ (|={Set.univ}=> bigSep Finset.univ fun k => iprop(∃ κ : ℕ, cellInv ER (softRd m ρ) κ (kcell (c, k))) : sProp 𝕄) from by
        rw [← bigSep_sep']
        exact (bigSep_mono fun k _ => (Rounds.body_intro ER (softRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The reflection of the offsets `1 … 7`. -/
def negE : Fin 8 ≃ Fin 8 := ⟨neg, neg, neg_neg, neg_neg⟩

omit [FloatOps F] in
theorem erase_zero_neg : (Finset.univ.erase (0 : Fin 8)).map negE.toEmbedding = Finset.univ.erase (0 : Fin 8) := by decide

omit [FloatOps F] in
/-- The tokens dealt round the ring: a barrier cell's token of duty `e` goes `e` places back (to the device that pays it),
    a receive cell's token of offset `d` goes `d` places back, a send cell's stays. -/
theorem toks_around : (bigSep Finset.univ fun c : Dev nD => (toks c : sProp 𝕄)) ⊢ bigSep Finset.univ fun c : Dev nD => payToks c := by
  have hneg (X : Fin 8 → sProp 𝕄) : bigSep (Finset.univ.erase (0 : Fin 8)) (fun d => X (neg d)) = bigSep (Finset.univ.erase (0 : Fin 8)) X := by
    conv_rhs => rw [← erase_zero_neg]
    rw [bigSep_map]; rfl
  have hA : (bigSep (Finset.univ.erase (0 : Fin 8)) fun d => bigSep Finset.univ fun c : Dev nD => (dutyTok ER (barCell (peer c d)) 0 (neg d) : sProp 𝕄))
      = bigSep (Finset.univ.erase (0 : Fin 8)) fun d => bigSep Finset.univ fun c : Dev nD => (dutyTok ER (barCell c) 0 d : sProp 𝕄) :=
    (bigSep_congr fun d _ => (bigSep_univ_equiv (ringBy d) fun c' : Dev nD => (dutyTok ER (barCell c') 0 (neg d) : sProp 𝕄)).symm).trans
      (hneg fun e => bigSep Finset.univ fun c : Dev nD => (dutyTok ER (barCell c) 0 e : sProp 𝕄))
  have hR : (bigSep (Finset.univ.erase (0 : Fin 8)) fun d => bigSep Finset.univ fun c : Dev nD => (dutyTok ER (recvCell (peer c d) d) 0 0 : sProp 𝕄))
      = bigSep (Finset.univ.erase (0 : Fin 8)) fun d => bigSep Finset.univ fun c : Dev nD => (dutyTok ER (recvCell c d) 0 0 : sProp 𝕄) :=
    bigSep_congr fun d _ => (bigSep_univ_equiv (ringBy d) fun c' : Dev nD => (dutyTok ER (recvCell c' d) 0 0 : sProp 𝕄)).symm
  unfold toks payToks
  rw [bigSep_comm', bigSep_comm' Finset.univ]
  simp only [bigSep_sep']
  rw [hA, hR]
  iintro ⟨H1, H2, H3⟩
  isplitl [H1]; · iexact H1
  isplitl [H3]; · iexact H3
  iexact H2

theorem ghost_intro (K : Dev nD × Fin 17 → ℕ) (c : Dev nD) : iprop(records m ρ K ∗ linear c) ⊢ G' m ρ c := by
  unfold G' ghost
  iintro H
  iexists K
  iexact H

theorem regroup :
    (bigSep Finset.univ fun c : Dev nD => iprop((bigSep Finset.univ fun k => iprop(∃ κ : ℕ, cellInv ER (softRd m ρ) κ (kcell (c, k))))
          ∗ (bigSep Finset.univ fun k : Fin 17 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (softRd m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (softRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : Fin 17 => (atPos ER (kcell (c, k)) 0 ∅ 0 : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem cred_tally_add (g : GSem nD τ sig) (a b : ℕ) :
    iprop(cred (tallyAt g () a) ∗ cred (tallyAt g () b)) ⊢ (cred (tallyAt g () (a + b)) : sProp 𝕄) := by
  rw [← tallyAt_add]; exact (cred_add _ _).2

omit [FloatOps F] in
/-- Every other device owes `c`'s barrier cell one unit, and the device `e` places back owes its receive cell `e` a copy's
    credit: the launch deals `c` the matching credit tokens. -/
theorem creds (c : Dev nD) :
    (Pipeline.launchCred O₀ c : sProp 𝕄) ⊢ iprop(cred (tallyAt (barCell c) () 7) ∗ bigSep (Finset.univ.erase (0 : Fin 8)) fun e => cred (tallyAt (recvCell c e) () N)) := by
  have hb (k : Fin 8) : (Pipeline.launchCred (fun d => bT d k) c : sProp 𝕄) ⊢ cred (tallyAt (barCell c) () 1) :=
    Pipeline.launchCred_tallyAt (.reg barS) (fun d => peer d k) (fun d => peer d (neg k)) (fun c => peer_neg_peer c k) (fun d => peer_peer_neg d k) () 1 c
  have hr (k : Fin 8) : (Pipeline.launchCred (fun d => rT d k) c : sProp 𝕄) ⊢ cred (tallyAt (recvCell c k) () N) :=
    Pipeline.launchCred_tallyAt (.dma (recvS k)) (fun d => peer d k) (fun d => peer d (neg k)) (fun c => peer_neg_peer c k) (fun d => peer_peer_neg d k) () N c
  rw [show (O₀ : Dev nD → CellTallies nD τ sig Unit) = fun d => OB2 d + bT d 1 from rfl, Pipeline.launchCred_add,
    show (OB2 : Dev nD → CellTallies nD τ sig Unit) = fun d => OB3 d + bT d 2 from rfl, Pipeline.launchCred_add,
    show (OB3 : Dev nD → CellTallies nD τ sig Unit) = fun d => OB4 d + bT d 3 from rfl, Pipeline.launchCred_add,
    show (OB4 : Dev nD → CellTallies nD τ sig Unit) = fun d => OB5 d + bT d 4 from rfl, Pipeline.launchCred_add,
    show (OB5 : Dev nD → CellTallies nD τ sig Unit) = fun d => OB6 d + bT d 5 from rfl, Pipeline.launchCred_add,
    show (OB6 : Dev nD → CellTallies nD τ sig Unit) = fun d => OB7 d + bT d 6 from rfl, Pipeline.launchCred_add,
    show (OB7 : Dev nD → CellTallies nD τ sig Unit) = fun d => OR1 d + bT d 7 from rfl, Pipeline.launchCred_add,
    show (OR1 : Dev nD → CellTallies nD τ sig Unit) = fun d => OR2 d + rT d 1 from rfl, Pipeline.launchCred_add,
    show (OR2 : Dev nD → CellTallies nD τ sig Unit) = fun d => OR3 d + rT d 2 from rfl, Pipeline.launchCred_add,
    show (OR3 : Dev nD → CellTallies nD τ sig Unit) = fun d => OR4 d + rT d 3 from rfl, Pipeline.launchCred_add,
    show (OR4 : Dev nD → CellTallies nD τ sig Unit) = fun d => OR5 d + rT d 4 from rfl, Pipeline.launchCred_add,
    show (OR5 : Dev nD → CellTallies nD τ sig Unit) = fun d => OR6 d + rT d 5 from rfl, Pipeline.launchCred_add,
    show (OR6 : Dev nD → CellTallies nD τ sig Unit) = fun d => OR7 d + rT d 6 from rfl, Pipeline.launchCred_add,
    show (OR7 : Dev nD → CellTallies nD τ sig Unit) = fun d => rT d 7 from rfl]
  rw [show (bigSep (Finset.univ.erase (0 : Fin 8)) fun e => (cred (tallyAt (recvCell c e) () N) : sProp 𝕄))
      = iprop(cred (tallyAt (recvCell c 1) () N) ∗ cred (tallyAt (recvCell c 2) () N) ∗ cred (tallyAt (recvCell c 3) () N) ∗ cred (tallyAt (recvCell c 4) () N)
          ∗ cred (tallyAt (recvCell c 5) () N) ∗ cred (tallyAt (recvCell c 6) () N) ∗ cred (tallyAt (recvCell c 7) () N)) from by
    rw [bigSep_eq_bigSepL_of_eq [1, 2, 3, 4, 5, 6, 7] (by decide) (by decide)]; rfl]
  iintro ⟨⟨⟨⟨⟨⟨⟨⟨⟨⟨⟨⟨⟨R7, R6⟩, R5⟩, R4⟩, R3⟩, R2⟩, R1⟩, B7⟩, B6⟩, B5⟩, B4⟩, B3⟩, B2⟩, B1⟩
  ihave B7 := (hb 7) $$ B7
  ihave B6 := (hb 6) $$ B6
  ihave B5 := (hb 5) $$ B5
  ihave B4 := (hb 4) $$ B4
  ihave B3 := (hb 3) $$ B3
  ihave B2 := (hb 2) $$ B2
  ihave B1 := (hb 1) $$ B1
  ihave R7 := (hr 7) $$ R7
  ihave R6 := (hr 6) $$ R6
  ihave R5 := (hr 5) $$ R5
  ihave R4 := (hr 4) $$ R4
  ihave R3 := (hr 3) $$ R3
  ihave R2 := (hr 2) $$ R2
  ihave R1 := (hr 1) $$ R1
  isplitl [B1 B2 B3 B4 B5 B6 B7]
  · ihave C := (cred_tally_add (F := F) (barCell c) 1 1) $$ [B1 B2]
    · isplitl [B1] <;> iassumption
    ihave C := (cred_tally_add (F := F) (barCell c) 2 1) $$ [C B3]
    · isplitl [C] <;> iassumption
    ihave C := (cred_tally_add (F := F) (barCell c) 3 1) $$ [C B4]
    · isplitl [C] <;> iassumption
    ihave C := (cred_tally_add (F := F) (barCell c) 4 1) $$ [C B5]
    · isplitl [C] <;> iassumption
    ihave C := (cred_tally_add (F := F) (barCell c) 5 1) $$ [C B6]
    · isplitl [C] <;> iassumption
    ihave C := (cred_tally_add (F := F) (barCell c) 6 1) $$ [C B7]
    · isplitl [C] <;> iassumption
    iexact C
  isplitl [R1]; · iexact R1
  isplitl [R2]; · iexact R2
  isplitl [R3]; · iexact R3
  isplitl [R4]; · iexact R4
  isplitl [R5]; · iexact R5
  isplitl [R6]; · iexact R6
  iexact R7

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩, ⟨%g, Ht⟩⟩
  isplitl [Hs]; · iexact Hs
  isplitl [Hr]
  · iexists f; iexact Hr
  · iexists g; iexact Ht

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ Pipeline.ownSems0
  iintro ⟨Hr, Ht, Hz⟩
  isplitr; · iempintro
  isplitl [Hz]; · iexact Hz
  isplitl [Hr] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- The arrays after the run, as the proof data compute them. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main terminates, and every final state has each device's arrays at the computed contents — given the
    body obligation of every device. -/
theorem run_main (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Dist.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the stored result block. -/
theorem finalA_out (c : Dev nD) : finalA m ρ c (1 : Fin 2) = outAt m ρ c := by
  unfold finalA
  -- the one grid point writes the result window back; its block is the whole array
  rw [show cfg0.N = (t₀ : Fin cfg0.N).val + 1 from rfl, (dats (F := F) m ρ 0 c).arrAt_succ (1 : Fin 2) t₀, if_pos (flush0_1 t₀)]
  exact Memref.write_access_unit_zero_univ (Elt F) main_v1 (funext fun a => by fin_cases a <;> rfl) _ _ _

/-- The staged input block is the device's input array. -/
theorem xstg_eq (c : Dev nD) : xstg m ρ c = m ((c : Thread nD τ).loc main_arg0) := by
  unfold xstg
  exact Memref.read_access_unit_zero (Elt F) main_arg0 (funext fun a => by fin_cases a <;> rfl) _ _

end Cert.Kernel.Dist

end
-- ==== Proof.KStepSig.lean ====
import proofs.«901060_g7700000000001061_dist_softmax_colshard_i_m1024_n512_v7x_i8_f32_1_alg».proof.Proof.KLevels

/-!
The exchange's steps at a symbolic device `c` and offset `d`: a signal to the device `d` places on, the wait for the seven
units of the device's own barrier cell, a copy of the device's table into slot `d` of the device `d` places on, and the
waits for a copy's arrival and for its departure.
-/

noncomputable section

namespace Cert.Kernel.Dist

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 17 → ℕ)

/-- The records hold every cell's invariant. -/
theorem records_cellInv (ck : Dev nD × Fin 17) :
    records m ρ K ⊢ cellInv ER (softRd m ρ) (K ck) (kcell ck) := by
  unfold records
  exact sep_elim_left.trans (show _ ⊢ _ from
    bigSep_elim (Φ := fun ck : Dev nD × Fin 17 => cellInv ER (softRd m ρ) (K ck) (kcell ck)) (Finset.mem_univ ck))

/-- The records hold that round 0 of every cell is reached. -/
theorem records_reached (ck : Dev nD × Fin 17) :
    records m ρ K ⊢ reached ER (kcell ck) 0 := by
  unfold records
  exact sep_elim_right.trans (show _ ⊢ _ from
    bigSep_elim (Φ := fun ck : Dev nD × Fin 17 => reached ER (kcell ck) 0) (Finset.mem_univ ck))

/-- Signal `d`: the device `n = peer c d` is handed slot `neg d` of `c`'s table buffer. -/
theorem wp_sig (c : Dev nD) (d : Fin 8) (hd : d ≠ 0) (n : Dev nD) (hn : n = peer c d) (O : CellTallies nD τ sig Unit) (W : Waits sig Unit)
    (f : Buf (Elt F) (tLoc c)) {α : Type} {Q : α → sProp 𝕄} {k : PUnit → Prog (TpuEff nD τ sig (Elt F) Λ₀ .tc) α} :
    iprop(records m ρ K ∗ owes (c : Thread nD τ) (O + bT c d) W ∗ dutyTok ER (barCell (peer c d)) 0 (neg d) ∗ slotPts c fullShare f (neg d))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n, Proc.tc) : Thread nD τ) barS (1#32).toNat) k) Q) := by
  subst hn
  iintro ⟨#Hrec, HO, Htok, Hslot⟩
  iapply (Rounds.wp_signal 𝒱₀ ER (softRd m ρ) (c : Thread nD τ) none (dst := (peer c d : Thread nD τ)) (κ := K (peer c d, 0))
      (d := neg d) (by rw [duties_bar]; exact Finset.mem_erase.2 ⟨neg_ne_zero hd, Finset.mem_univ _⟩)
      ((amount_bar m ρ (peer c d) (neg d)).trans (by decide)) () O rfl) $$ [HO Htok Hslot]
  isplitr
  · iapply (records_cellInv m ρ K (peer c d, 0)); iexact Hrec
  isplitl [HO]; · iexact HO
  isplitl [Htok]; · iexact Htok
  isplitl [Hslot]
  · rw [payload_bar]; unfold barPay; rw [peer_peer_neg]
    isplitl [Hslot]; · iexists f; iexact Hslot
    rw [← kcell_recv]
    iapply (records_reached m ρ K (c, kR (neg d))); iexact Hrec
  · iapply (records_reached m ρ K (peer c d, 0)); iexact Hrec

/-- The wait for the seven units of the own barrier cell: every other device's slot for `c` comes with it. -/
theorem wp_barwait (c : Dev nD) (W : Waits sig Unit) {α : Type} {Q : α → sProp 𝕄} {k : PUnit → Prog (TpuEff nD τ sig (Elt F) Λ₀ .tc) α} :
    iprop(records m ρ K ∗ levAts L lv ∗ cred (tallyAt (barCell c) () 7) ∗ owes (c : Thread nD τ) (OR1 c) W ∗ atPos ER (barCell c) 0 ∅ 0)
      ⊢ iprop(((owes (c : Thread nD τ) (OR1 c) (insert (SemLoc.reg barS, ()) W) ∗ atPos ER (barCell c) 1 ∅ 0
              ∗ barPay (F := F) c 1 ∗ barPay (F := F) c 2 ∗ barPay (F := F) c 3 ∗ barPay (F := F) c 4 ∗ barPay (F := F) c 5 ∗ barPay (F := F) c 6 ∗ barPay (F := F) c 7)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32).toNat) k) Q) := by
  iintro ⟨#Hrec, #Hlev, Hc, HO, Hat⟩ Hk
  iapply (Rounds.wp_wait_rest_token 𝒱₀ ER (softRd m ρ) (c : Thread nD τ) none (κ := K (c, 0))
      (wpE_semWait_eq 𝒱₀ (c : Thread nD τ) none Set.univ) (Set.mem_univ _) () (O := OR1 c) (W := W) (R := 0) (m := 0) (T := ∅)
      (by rw [expect_bar]; decide)) $$ [Hc HO Hat]
  · isplitr; · iapply (records_cellInv m ρ K (c, 0)); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [HO]; · iexact HO
  isplitl [Hat]; · iexact Hat
  iexact Hp

end Cert.Kernel.Dist

end
-- ==== Proof.KSlots.lean ====
import proofs.«901060_g7700000000001061_dist_softmax_colshard_i_m1024_n512_v7x_i8_f32_1_alg».proof.Proof.KProto
import Idealize.ShloMosaic.Lib.ValueLayout

/-!
A device's table buffer cut into its eight slots and put together again; slot 0 cut into the shares the seven copies
borrow; and the contents a store or a landing copy leaves in a slot, read as the table of the device they come from.
-/

noncomputable section

namespace Cert.Kernel.Dist

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The rectangle of slot 0 in the table buffer, as the body stores its own table. -/
abbrev rS0 : Rect S8x2x1024 := Rect.unit (s := S8x2x1024) ![0, 0, 0] S1x2x1024.size inb_S8x2x1024_S1x2x1024_0_0_0

/-! ## The slots' element sets -/

/-- An index of the table buffer lies in the rectangle of slot `d` exactly when its first coordinate is `d`. -/
theorem mem_slotRect (d : Nat) (inb : ∀ a, (![d, 0, 0] : Fin 3 → Nat) a + S1x2x1024.size a ≤ S8x2x1024.size a)
    (i : S8x2x1024.Idx) :
    i ∈ (Rect.unit (s := S8x2x1024) ![d, 0, 0] S1x2x1024.size inb).set ↔ (i 0).val = d := by
  rw [Rect.mem_set_unit]
  constructor
  · intro h
    have h0 := h 0
    simp only [Matrix.cons_val_zero] at h0
    have : S1x2x1024.size 0 = 1 := rfl
    omega
  · intro h a
    have ha := (i a).isLt
    fin_cases a
    · have : S1x2x1024.size 0 = 1 := rfl
      simp only [Fin.zero_eta, Matrix.cons_val_zero]
      omega
    · exact ⟨Nat.zero_le _, by simpa using ha⟩
    · exact ⟨Nat.zero_le _, by simpa using ha⟩

/-- The elements under a slot's squeezed slice are the slot's rectangle. -/
theorem slot_set_eq (d : Nat) (inb : ∀ a, (![d, 0, 0] : Fin 3 → Nat) a + S1x2x1024.size a ≤ S8x2x1024.size a) :
    (((tM : Memref sig .tc .vmem S8x2x1024 .f32).slice (Rect.unit (s := S8x2x1024) ![d, 0, 0] S1x2x1024.size inb) (fun _ => rfl)).squeeze
        S2x1024 squeezes_S1x2x1024_S2x1024).view.set
      = (Rect.unit (s := S8x2x1024) ![d, 0, 0] S1x2x1024.size inb).set :=
  (View.set_reshape _ _).trans (View.set_slice_whole _ _)

theorem store0_sub : ((tM : Memref sig .tc .vmem S8x2x1024 .f32).access rS0 : View sig .tc _ _ _).setOn Finset.univ
    ⊆ (slot0 : Memref sig .tc .vmem S2x1024 .f32).view.set := by
  rw [View.setOn_univ, slot_set_eq 0 inb_S8x2x1024_S1x2x1024_0_0_0]
  exact (View.set_slice_whole _ _).subset

theorem load0_sub : (tM : Memref sig .tc .vmem S8x2x1024 .f32).view.setOn rS0.toLoadRect.set
    ⊆ (slot0 : Memref sig .tc .vmem S2x1024 .f32).view.set := by
  rw [slot_set_eq 0 inb_S8x2x1024_S1x2x1024_0_0_0]
  intro i hi
  rw [View.setOn, Finset.mem_map] at hi
  obtain ⟨x, hx, rfl⟩ := hi
  exact hx

/-- The in-bounds evidence of slot `d`'s rectangle, for any `d`. -/
theorem inbSlot (d : Fin 8) : ∀ a, (![d.val, 0, 0] : Fin 3 → Nat) a + S1x2x1024.size a ≤ S8x2x1024.size a := by
  intro a
  have hd := d.isLt
  fin_cases a
  · show d.val + 1 ≤ 8; omega
  · show 0 + 2 ≤ 2; omega
  · show 0 + 1024 ≤ 1024; omega

/-- The elements of slot `d`: those with first coordinate `d`. -/
def slotSet (d : Fin 8) : Finset S8x2x1024.Idx :=
  (Rect.unit (s := S8x2x1024) ![d.val, 0, 0] S1x2x1024.size (inbSlot d)).set

theorem mem_slotSet (d : Fin 8) (i : S8x2x1024.Idx) : i ∈ slotSet d ↔ (i 0).val = d.val := mem_slotRect _ _ i

omit [FloatOps F] in
/-- A slot's points-to, over the table buffer's own location and the slot's set of elements. -/
theorem slotPts_eq (c : Dev nD) (q : PosShare TreeShare) (f : Buf (Elt F) (tLoc c)) (d : Fin 8) :
    (slotPts c q f d : sProp 𝕄) = (tLoc c ↦[slotSet d]{q} f) := by
  fin_cases d
  · dsimp only [slotPts]; rw [slot_set_eq 0 inb_S8x2x1024_S1x2x1024_0_0_0]; rfl
  · dsimp only [slotPts]; rw [slot_set_eq 1 inb_S8x2x1024_S1x2x1024_1_0_0]; rfl
  · dsimp only [slotPts]; rw [slot_set_eq 2 inb_S8x2x1024_S1x2x1024_2_0_0]; rfl
  · dsimp only [slotPts]; rw [slot_set_eq 3 inb_S8x2x1024_S1x2x1024_3_0_0]; rfl
  · dsimp only [slotPts]; rw [slot_set_eq 4 inb_S8x2x1024_S1x2x1024_4_0_0]; rfl
  · dsimp only [slotPts]; rw [slot_set_eq 5 inb_S8x2x1024_S1x2x1024_5_0_0]; rfl
  · dsimp only [slotPts]; rw [slot_set_eq 6 inb_S8x2x1024_S1x2x1024_6_0_0]; rfl
  · dsimp only [slotPts]; rw [slot_set_eq 7 inb_S8x2x1024_S1x2x1024_7_0_0]; rfl

/-! ## Contents read and written through a slot -/

/-- The device `e` places before the device `e` places after `c` is `c`. -/
theorem back_peer (c : Dev nD) (e : Fin 8) : back (peer c e) e = c := by revert c e; decide

omit [FloatOps F] in
/-- Where a slot's view puts its index `y`: slot `d`, row `y 0`, column `y 1`. -/
theorem slot_emb (d : Nat) (inb : ∀ a, (![d, 0, 0] : Fin 3 → Nat) a + S1x2x1024.size a ≤ S8x2x1024.size a)
    (y : S2x1024.Idx) (a : Fin 3) :
    (((((tM : Memref sig .tc .vmem S8x2x1024 .f32).slice (Rect.unit (s := S8x2x1024) ![d, 0, 0] S1x2x1024.size inb) (fun _ => rfl)).squeeze
        S2x1024 squeezes_S1x2x1024_S2x1024).view.emb y : S8x2x1024.Idx) a).val
      = (![d, (y 0).val, (y 1).val] : Fin 3 → Nat) a := by
  show ((Rect.unit (s := S8x2x1024) ![d, 0, 0] S1x2x1024.size inb).emb
    (Shape.reshapeEquiv squeezes_S1x2x1024_S2x1024.numel_eq y) a).val = _
  have hr : Shape.reshapeEquiv squeezes_S1x2x1024_S2x1024.numel_eq y
      = ValueIdx.ix3 (n0 := 1) (n1 := 2) (n2 := 1024) ⟨0, Nat.one_pos⟩ (y 0) (y 1) :=
    (congrArg _ (ValueIdx.eq_ix2 (n0 := 2) (n1 := 1024) y)).trans
      (ValueIdx.reshapeEquiv_ix2_1ab (a := 2) (b := 1024) squeezes_S1x2x1024_S2x1024.numel_eq (y 0) (y 1))
  rw [hr]
  fin_cases a
  · show d + 1 * 0 = d; omega
  · show 0 + 1 * (y 0).val = (y 0).val; omega
  · show 0 + 1 * (y 1).val = (y 1).val; omega

/-- Slot `d` of the table buffer as a memref, for any `d` (the eight named slots are this at the literals). -/
abbrev slotAt (d : Nat) (inb : ∀ a, (![d, 0, 0] : Fin 3 → Nat) a + S1x2x1024.size a ≤ S8x2x1024.size a) :
    Memref sig .tc .vmem S2x1024 .f32 :=
  ((tM : Memref sig .tc .vmem S8x2x1024 .f32).slice (Rect.unit (s := S8x2x1024) ![d, 0, 0] S1x2x1024.size inb) (fun _ => rfl)).squeeze
    S2x1024 squeezes_S1x2x1024_S2x1024

omit [FloatOps F] in
/-- An index of the table buffer in slot `d` is where the slot's view puts its row and column. -/
theorem slot_emb_eq (d : Nat) (inb : ∀ a, (![d, 0, 0] : Fin 3 → Nat) a + S1x2x1024.size a ≤ S8x2x1024.size a)
    (i : S8x2x1024.Idx) (hi : (i 0).val = d) :
    ((slotAt d inb).view.emb (ValueIdx.ix2 (n0 := 2) (n1 := 1024) (i 1) (i 2)) : S8x2x1024.Idx) = i := by
  funext a
  apply Fin.ext
  rw [slot_emb]
  fin_cases a
  · exact hi.symm
  · rfl
  · rfl

/-- Written whole through slot `d`, the buffer holds the payload at every index of the slot. -/
theorem slot_write_apply (d : Nat) (inb : ∀ a, (![d, 0, 0] : Fin 3 → Nat) a + S1x2x1024.size a ≤ S8x2x1024.size a)
    (fd : S8x2x1024.Idx → Elt F .f32) (w : S2x1024.Idx → Elt F .f32) (i : S8x2x1024.Idx) (hi : (i 0).val = d) :
    ((slotAt d inb).view.write (Elt F) fd w Finset.univ) i = w (ValueIdx.ix2 (n0 := 2) (n1 := 1024) (i 1) (i 2)) := by
  have h := View.write_emb_of_mem (v := (slotAt d inb).view) (Val := Elt F) fd w (M := Finset.univ)
    (x := ValueIdx.ix2 (n0 := 2) (n1 := 1024) (i 1) (i 2)) (Finset.mem_univ _)
  rw [slot_emb_eq d inb i hi] at h
  exact h.trans (cast_eq _ _)

/-- Read through slot `d`, the buffer's contents at slot `d`, the index's row and column. -/
theorem slot_read_apply (d : Nat) (inb : ∀ a, (![d, 0, 0] : Fin 3 → Nat) a + S1x2x1024.size a ≤ S8x2x1024.size a) (hd : d < 8)
    (g : S8x2x1024.Idx → Elt F .f32) (y : S2x1024.Idx) :
    (slotAt d inb).view.read (Elt F) g y = g (ValueIdx.ix3 (n0 := 8) (n1 := 2) (n2 := 1024) ⟨d, hd⟩ (y 0) (y 1)) := by
  have he : ((slotAt d inb).view.emb y : S8x2x1024.Idx) = ValueIdx.ix3 (n0 := 8) (n1 := 2) (n2 := 1024) ⟨d, hd⟩ (y 0) (y 1) := by
    funext a
    apply Fin.ext
    rw [slot_emb]
    fin_cases a <;> rfl
  rw [View.read_apply, he]
  exact cast_eq _ _

/-- In slot `e` of the device `e` places on, the final table buffer holds device `c`'s table. -/
theorem allStats_of_slot (xs : Dev nD → Vec F S1024x512 .f32) (c : Dev nD) (e : Fin 8) (i : S8x2x1024.Idx)
    (hi : (i 0).val = e.val) : allStats xs (peer c e) i = statsOf (xs c) (inSlot i) := by
  show statsOf (xs (back (peer c e) ⟨(i 0).val, (i 0).isLt⟩)) (inSlot i) = _
  have h : (⟨(i 0).val, (i 0).isLt⟩ : Fin 8) = e := Fin.ext hi
  rw [h, back_peer]

/-- In its own slot 0 the final table buffer holds the device's own table. -/
theorem allStats_of_slot0 (xs : Dev nD → Vec F S1024x512 .f32) (c : Dev nD) (i : S8x2x1024.Idx)
    (hi : (i 0).val = 0) : allStats xs c i = statsOf (xs c) (inSlot i) := by
  have h := allStats_of_slot xs c 0 i hi
  rwa [peer_zero] at h

/-- What a copy of slot 0 of device `c`'s final table buffer leaves in slot `e` of the device `e` places on. -/
theorem landed_at (c : Dev nD) (e : Fin 8) (inb : ∀ a, (![e.val, 0, 0] : Fin 3 → Nat) a + S1x2x1024.size a ≤ S8x2x1024.size a)
    (fd : S8x2x1024.Idx → Elt F .f32) (i : S8x2x1024.Idx) (hi : i ∈ (slotAt e.val inb).view.set) :
    ((slotAt e.val inb).view.write (Elt F) fd
        ((slot0 : Memref sig .tc .vmem S2x1024 .f32).view.read (Elt F) (allStats (xs m ρ) c)) Finset.univ) i
      = allStats (xs m ρ) (peer c e) i := by
  rw [slot_set_eq] at hi
  have hi0 := (mem_slotRect _ _ i).mp hi
  rw [slot_write_apply e.val inb fd _ i hi0, slot_read_apply 0 inb_S8x2x1024_S1x2x1024_0_0_0 (by decide),
    allStats_of_slot (xs m ρ) c e i hi0, allStats_of_slot0 (xs m ρ) c _ rfl]
  congr 1

omit [FloatOps F] in
/-- The table buffer is its eight slots. -/
theorem table_split (c : Dev nD) (f : Buf (Elt F) (tLoc c)) :
    (tLoc c ↦{fullShare} f : sProp 𝕄) ⊣⊢ iprop(slotPts c fullShare f 0 ∗ slotPts c fullShare f 1 ∗ slotPts c fullShare f 2 ∗ slotPts c fullShare f 3 ∗ slotPts c fullShare f 4 ∗ slotPts c fullShare f 5 ∗ slotPts c fullShare f 6 ∗ slotPts c fullShare f 7) := by
  have hU : (Finset.univ : Finset (Idx (tLoc c))) = (Finset.univ : Finset (Fin 8)).biUnion slotSet := by
    ext i
    simp only [Finset.mem_univ, Finset.mem_biUnion, true_and, true_iff]
    exact ⟨⟨(i 0).val, (i 0).isLt⟩, (mem_slotSet _ i).mpr rfl⟩
  have hd : ∀ d ∈ (Finset.univ : Finset (Fin 8)), ∀ d' ∈ (Finset.univ : Finset (Fin 8)), d ≠ d' → Disjoint (slotSet d) (slotSet d') :=
    fun d _ d' _ hne => Finset.disjoint_left.mpr fun i hi hi' =>
      hne (Fin.ext (((mem_slotSet d i).mp hi).symm.trans ((mem_slotSet d' i).mp hi')))
  rw [hU, pointsTo_biUnion _ _ hd, bigSep_univ_eq_bigSepL [0, 1, 2, 3, 4, 5, 6, 7] (by decide) (by decide)]
  simp only [slotPts_eq]
  exact ⟨.rfl, .rfl⟩

omit [FloatOps F] in
/-- Slot 0 is the seven shares the copies borrow and what they leave. -/
theorem slot0_shares (c : Dev nD) (f : Buf (Elt F) (tLoc c)) :
    (slotPts c fullShare f 0 : sProp 𝕄) ⊣⊢ iprop(slotPts c (shr 1) f 0 ∗ slotPts c (shr 2) f 0 ∗ slotPts c (shr 3) f 0 ∗ slotPts c (shr 4) f 0 ∗ slotPts c (shr 5) f 0 ∗ slotPts c (shr 6) f 0 ∗ slotPts c (shr 7) f 0 ∗ slotPts c shrRest f 0) := by
  have e : ∀ q : PosShare TreeShare,
      (slotPts c q f 0 : sProp 𝕄) = iprop(slotPts c q.left f 0 ∗ slotPts c q.right f 0) := fun q => by
    rw [slotPts_eq, slotPts_eq, slotPts_eq]
    exact BI.equiv_iff.mp ⟨(pointsTo_share (PosShare.mem_left_op_right q)).1, (pointsTo_share (PosShare.mem_left_op_right q)).2⟩
  have h := e fullShare
  rw [e fullShare.right, e fullShare.right.right, e fullShare.right.right.right, e fullShare.right.right.right.right,
    e fullShare.right.right.right.right.right, e fullShare.right.right.right.right.right.right] at h
  rw [h]
  exact ⟨.rfl, .rfl⟩

omit [FloatOps F] in
/-- Only the contents inside the slot matter. -/
theorem slotPts_congr (c : Dev nD) (q : PosShare TreeShare) (d : Fin 8) (f g : Buf (Elt F) (tLoc c))
    (h : ∀ i : S8x2x1024.Idx, (i 0).val = d.val → (f : S8x2x1024.Idx → Elt F .f32) i = (g : S8x2x1024.Idx → Elt F .f32) i) :
    (slotPts c q f d : sProp 𝕄) = slotPts c q g d := by
  rw [slotPts_eq, slotPts_eq]
  exact pointsTo_congr fun i hi => h i ((mem_slotSet d i).mp hi)

/-- After the device's table is stored into slot 0, slot 0 holds the device's own table. -/
theorem stored_eq (c : Dev nD) (q : PosShare TreeShare) (f : Buf (Elt F) (tLoc c)) :
    (slotPts c q (((tM : Memref sig .tc .vmem S8x2x1024 .f32).access rS0 : View sig .tc _ _ _).write (Elt F) f (k0_pay5 (k0_pay2 (xstg m ρ c))) Finset.univ) 0 : sProp 𝕄)
      = slotPts c q (allStats (xs m ρ) c) 0 := by
  refine slotPts_congr c q 0 _ _ fun i hi => ?_
  have hi0 : (i 0).val = 0 := hi
  have he : (((tM : Memref sig .tc .vmem S8x2x1024 .f32).access rS0 : View sig .tc _ _ _).emb (inSlot i) : S8x2x1024.Idx) = i := by
    funext a
    apply Fin.ext
    fin_cases a
    · show 0 + 1 * 0 = (i 0).val; omega
    · show 0 + 1 * (i 1).val = (i 1).val; omega
    · show 0 + 1 * (i 2).val = (i 2).val; omega
  have h := View.write_emb_of_mem (v := ((tM : Memref sig .tc .vmem S8x2x1024 .f32).access rS0 : View sig .tc _ _ _)) (Val := Elt F)
    f (k0_pay5 (k0_pay2 (xstg m ρ c))) (M := Finset.univ) (x := inSlot i) (Finset.mem_univ _)
  rw [he] at h
  refine (h.trans (cast_eq _ _)).trans ?_
  exact (allStats_of_slot0 (xs m ρ) c i hi0).symm

/-- What a copy from device `c` lands in slot `e` of the device `e` places on: that device's table buffer as it will read it. -/
theorem landed_eq (c : Dev nD) (e : Fin 8) (he : e ≠ 0) (dst : Memref sig .tc .vmem S2x1024 .f32) (hdv : dst = slotV e)
    (fd : Buf (Elt F) (dst.view.loc (peer c e : Thread nD τ))) :
    (dst.view.loc (peer c e : Thread nD τ) ↦[dst.view.set]{fullShare}
        (dst.view.write (Elt F) fd ((slot0 : Memref sig .tc .vmem S2x1024 .f32).view.read (Elt F) (allStats (xs m ρ) c)) Finset.univ) : sProp 𝕄)
      ⊢ slotPts (peer c e) fullShare (allStats (xs m ρ) (peer c e)) e := by
  subst hdv
  fin_cases e
  · exact absurd rfl he
  · dsimp only [slotPts, slotV]; exact Entails.of_eq (pointsTo_congr fun i hi => landed_at m ρ c 1 inb_S8x2x1024_S1x2x1024_1_0_0 fd i hi)
  · dsimp only [slotPts, slotV]; exact Entails.of_eq (pointsTo_congr fun i hi => landed_at m ρ c 2 inb_S8x2x1024_S1x2x1024_2_0_0 fd i hi)
  · dsimp only [slotPts, slotV]; exact Entails.of_eq (pointsTo_congr fun i hi => landed_at m ρ c 3 inb_S8x2x1024_S1x2x1024_3_0_0 fd i hi)
  · dsimp only [slotPts, slotV]; exact Entails.of_eq (pointsTo_congr fun i hi => landed_at m ρ c 4 inb_S8x2x1024_S1x2x1024_4_0_0 fd i hi)
  · dsimp only [slotPts, slotV]; exact Entails.of_eq (pointsTo_congr fun i hi => landed_at m ρ c 5 inb_S8x2x1024_S1x2x1024_5_0_0 fd i hi)
  · dsimp only [slotPts, slotV]; exact Entails.of_eq (pointsTo_congr fun i hi => landed_at m ρ c 6 inb_S8x2x1024_S1x2x1024_6_0_0 fd i hi)
  · dsimp only [slotPts, slotV]; exact Entails.of_eq (pointsTo_congr fun i hi => landed_at m ρ c 7 inb_S8x2x1024_S1x2x1024_7_0_0 fd i hi)

end Cert.Kernel.Dist

end
-- ==== Proof.KStepXfer.lean ====
import proofs.«901060_g7700000000001061_dist_softmax_colshard_i_m1024_n512_v7x_i8_f32_1_alg».proof.Proof.KLevels
import proofs.«901060_g7700000000001061_dist_softmax_colshard_i_m1024_n512_v7x_i8_f32_1_alg».proof.Proof.KSlots

/-!
A copy of the device's table into the device `d` places on, the waits for a copy's arrival and departure, and the own
cells closed once their round is consumed.
-/

noncomputable section

namespace Cert.Kernel.Dist

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 17 → ℕ)

/-- The invariant of a device's receive cell, among the records. -/
theorem inv_recv (c : Dev nD) (e : Fin 8) :
    records m ρ K ⊢ cellInv ER (softRd m ρ) (K (c, kR e)) (recvCell c e) := by
  have h : (bigSep Finset.univ fun ck : Dev nD × Fin 17 => cellInv ER (softRd m ρ) (K ck) (kcell ck))
      ⊢ cellInv ER (softRd m ρ) (K (c, kR e)) (kcell (c, kR e)) := bigSep_elim (Finset.mem_univ (c, kR e))
  rw [kcell_recv] at h
  unfold records
  iintro ⟨HI, -⟩
  iapply h $$ HI

/-- The invariant of a device's send cell, among the records. -/
theorem inv_send (c : Dev nD) (d : Fin 8) :
    records m ρ K ⊢ cellInv ER (softRd m ρ) (K (c, kS d)) (sendCell c d) := by
  have h : (bigSep Finset.univ fun ck : Dev nD × Fin 17 => cellInv ER (softRd m ρ) (K ck) (kcell ck))
      ⊢ cellInv ER (softRd m ρ) (K (c, kS d)) (kcell (c, kS d)) := bigSep_elim (Finset.mem_univ (c, kS d))
  rw [kcell_send] at h
  unfold records
  iintro ⟨HI, -⟩
  iapply h $$ HI

/-- Every slot's view carries one table's credit. -/
theorem credit_slot (e : Fin 8) : (slotV e : Memref sig .tc .vmem S2x1024 .f32).view.dmaCredit = N := by
  fin_cases e <;> rfl

/-- A send cell whose rounds from `R` on have no duty closes at its position `(R, ∅, 0)`: its counter reads zero. -/
theorem close_send (c : Dev nD) (d : Fin 8) (R : ℕ) (hR : ∀ r, R ≤ r → (softRd (F := F) m ρ).duties (sendCell c d) r = ∅) :
    iprop(records m ρ K ∗ atPos ER (sendCell c d) R ∅ 0) ⊢ (|={Set.univ}=> semVal (sendCell c d) 0 : sProp 𝕄) := by
  iintro ⟨#Hrec, Hat⟩
  ihave #HI := (inv_send m ρ K c d) $$ Hrec
  iapply (Rounds.cell_close ER (softRd m ρ) (κ := K (c, kS d)) (Set.mem_univ _) (fun h => h) hR)
  isplitr; · iexact HI
  iexact Hat

/-- The same for a receive cell. -/
theorem close_recv (c : Dev nD) (e : Fin 8) (R : ℕ) (hR : ∀ r, R ≤ r → (softRd (F := F) m ρ).duties (recvCell c e) r = ∅) :
    iprop(records m ρ K ∗ atPos ER (recvCell c e) R ∅ 0) ⊢ (|={Set.univ}=> semVal (recvCell c e) 0 : sProp 𝕄) := by
  iintro ⟨#Hrec, Hat⟩
  ihave #HI := (inv_recv m ρ K c e) $$ Hrec
  iapply (Rounds.cell_close ER (softRd m ρ) (κ := K (c, kR e)) (Set.mem_univ _) (fun h => h) hR)
  isplitr; · iexact HI
  iexact Hat

omit [FloatOps F] in
/-- A device's sixteen own counters, listed: the eight send cells, then the eight receive cells. -/
theorem own_listed (c : Dev nD) :
    (bigSep Finset.univ fun k : Fin 16 => semVal ((c : Thread nD τ), osem k) 0 : sProp 𝕄)
      = iprop(semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0) := by
  rw [bigSep_univ_eq_bigSepL [0, 1, 2, 3, 4, 5, 6, 7, 8, 9, 10, 11, 12, 13, 14, 15] (by decide) (by decide)]
  rfl

/-- Round 0 of a device's send cell is reached, among the records. -/
theorem reached_send (c : Dev nD) (d : Fin 8) : records m ρ K ⊢ reached ER (sendCell c d) 0 := by
  have h : (bigSep Finset.univ fun ck : Dev nD × Fin 17 => reached ER (kcell ck) 0 : sProp 𝕄)
      ⊢ reached ER (kcell (c, kS d)) 0 := bigSep_elim (Finset.mem_univ (c, kS d))
  rw [kcell_send] at h
  unfold records
  iintro ⟨-, HR⟩
  iapply h $$ HR

/-- Round 0 of a device's receive cell is reached, among the records. -/
theorem reached_recv (c : Dev nD) (e : Fin 8) : records m ρ K ⊢ reached ER (recvCell c e) 0 := by
  have h : (bigSep Finset.univ fun ck : Dev nD × Fin 17 => reached ER (kcell ck) 0 : sProp 𝕄)
      ⊢ reached ER (kcell (c, kR e)) 0 := bigSep_elim (Finset.mem_univ (c, kR e))
  rw [kcell_recv] at h
  unfold records
  iintro ⟨-, HR⟩
  iapply h $$ HR

/-- Copy `d`: a borrowed share of slot 0 is read, slot `d` of `n = peer c d` written. -/
theorem wp_snd (c : Dev nD) (d : Fin 8) (hd : d ≠ 0) (n : Dev nD) (hn : n = peer c d)
    (sS sR : DmaSem sig) (hS : sS = sendS d) (hR : sR = recvS d)
    (dst : Memref sig .tc .vmem S2x1024 .f32) (hdv : dst = slotV d)
    (O : CellTallies nD τ sig Unit) (W : Waits sig Unit) (fn : Buf (Elt F) (tLoc (peer c d)))
    {hsc : (dst : Memref sig (Dev.tc n : Thread nD τ).2.kind .vmem S2x1024 .f32).view.ref.isScScratch = false}
    {hsrc : (slot0 : Memref sig .tc .vmem S2x1024 .f32).view.WordExact} {hdst : (dst : Memref sig .tc .vmem S2x1024 .f32).view.WordExact}
    {hsem : DmaTarget.Typed .vmem (.dma sR) (.remote (Dev.tc n : Thread nD τ) (dst : Memref sig .tc .vmem S2x1024 .f32) (.dma sS) hsc)}
    {α : Type} {Q : α → sProp 𝕄} {k : PUnit → Prog (TpuEff nD τ sig (Elt F) Λ₀ .tc) α} :
    iprop(records m ρ K ∗ slotPts c (shr d) (allStats (xs m ρ) c) 0 ∗ slotPts (peer c d) fullShare fn d
        ∗ owes (c : Thread nD τ) (O + rT c d) W ∗ dutyTok ER (sendCell c d) 0 0 ∗ dutyTok ER (recvCell (peer c d) d) 0 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slot0 : Memref sig .tc .vmem S2x1024 .f32) (.remote (Dev.tc n : Thread nD τ) dst (.dma sS) hsc) (.dma sR) hsrc hdst hsem) k) Q) := by
  subst hn hS hR hdv
  fin_cases d
  · exact absurd rfl hd
  · dsimp only [slotPts, slotV]
    have hi : (1 : Fin 8) ≠ 0 := by decide
    iintro ⟨#Hrec, Hsrc, Hdst, HO, HtS, HtR⟩
    ihave #HIs := (inv_send m ρ K c 1) $$ Hrec
    ihave #HIr := (inv_recv m ρ K (peer c 1) 1) $$ Hrec
    ihave #HrS := (reached_send m ρ K c 1) $$ Hrec
    ihave #HrR := (reached_recv m ρ K (peer c 1) 1) $$ Hrec
    iapply (Rounds.wp_send_pointsTo 𝒱₀ ER (softRd m ρ) (c : Thread nD τ) none
        (c' := (peer c 1 : Thread nD τ)) (src := slot0) (dst := slot1) (q := shr 1)
        (fs := allStats (xs m ρ) c) (fd := fn)
        (κ₁ := K (c, kS 1)) (κ₂ := K (peer c 1, kR 1)) (r₁ := 0) (r₂ := 0) (d₁ := 0) (d₂ := 0)
        (by rw [duties_send m ρ c hi]; exact Finset.mem_singleton_self _)
        (by rw [duties_recv m ρ (peer c 1) hi]; exact Finset.mem_singleton_self _)
        () () N rfl (amount_send m ρ c 1 0) (amount_recv m ρ (peer c 1) 1 0) O rfl (W := W)
        (by rw [payload_send]; exact Entails.refl _)
        (by rw [payload_recv]; exact landed_eq m ρ c 1 hi slot1 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  · dsimp only [slotPts, slotV]
    have hi : (2 : Fin 8) ≠ 0 := by decide
    iintro ⟨#Hrec, Hsrc, Hdst, HO, HtS, HtR⟩
    ihave #HIs := (inv_send m ρ K c 2) $$ Hrec
    ihave #HIr := (inv_recv m ρ K (peer c 2) 2) $$ Hrec
    ihave #HrS := (reached_send m ρ K c 2) $$ Hrec
    ihave #HrR := (reached_recv m ρ K (peer c 2) 2) $$ Hrec
    iapply (Rounds.wp_send_pointsTo 𝒱₀ ER (softRd m ρ) (c : Thread nD τ) none
        (c' := (peer c 2 : Thread nD τ)) (src := slot0) (dst := slot2) (q := shr 2)
        (fs := allStats (xs m ρ) c) (fd := fn)
        (κ₁ := K (c, kS 2)) (κ₂ := K (peer c 2, kR 2)) (r₁ := 0) (r₂ := 0) (d₁ := 0) (d₂ := 0)
        (by rw [duties_send m ρ c hi]; exact Finset.mem_singleton_self _)
        (by rw [duties_recv m ρ (peer c 2) hi]; exact Finset.mem_singleton_self _)
        () () N rfl (amount_send m ρ c 2 0) (amount_recv m ρ (peer c 2) 2 0) O rfl (W := W)
        (by rw [payload_send]; exact Entails.refl _)
        (by rw [payload_recv]; exact landed_eq m ρ c 2 hi slot2 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  · dsimp only [slotPts, slotV]
    have hi : (3 : Fin 8) ≠ 0 := by decide
    iintro ⟨#Hrec, Hsrc, Hdst, HO, HtS, HtR⟩
    ihave #HIs := (inv_send m ρ K c 3) $$ Hrec
    ihave #HIr := (inv_recv m ρ K (peer c 3) 3) $$ Hrec
    ihave #HrS := (reached_send m ρ K c 3) $$ Hrec
    ihave #HrR := (reached_recv m ρ K (peer c 3) 3) $$ Hrec
    iapply (Rounds.wp_send_pointsTo 𝒱₀ ER (softRd m ρ) (c : Thread nD τ) none
        (c' := (peer c 3 : Thread nD τ)) (src := slot0) (dst := slot3) (q := shr 3)
        (fs := allStats (xs m ρ) c) (fd := fn)
        (κ₁ := K (c, kS 3)) (κ₂ := K (peer c 3, kR 3)) (r₁ := 0) (r₂ := 0) (d₁ := 0) (d₂ := 0)
        (by rw [duties_send m ρ c hi]; exact Finset.mem_singleton_self _)
        (by rw [duties_recv m ρ (peer c 3) hi]; exact Finset.mem_singleton_self _)
        () () N rfl (amount_send m ρ c 3 0) (amount_recv m ρ (peer c 3) 3 0) O rfl (W := W)
        (by rw [payload_send]; exact Entails.refl _)
        (by rw [payload_recv]; exact landed_eq m ρ c 3 hi slot3 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  · dsimp only [slotPts, slotV]
    have hi : (4 : Fin 8) ≠ 0 := by decide
    iintro ⟨#Hrec, Hsrc, Hdst, HO, HtS, HtR⟩
    ihave #HIs := (inv_send m ρ K c 4) $$ Hrec
    ihave #HIr := (inv_recv m ρ K (peer c 4) 4) $$ Hrec
    ihave #HrS := (reached_send m ρ K c 4) $$ Hrec
    ihave #HrR := (reached_recv m ρ K (peer c 4) 4) $$ Hrec
    iapply (Rounds.wp_send_pointsTo 𝒱₀ ER (softRd m ρ) (c : Thread nD τ) none
        (c' := (peer c 4 : Thread nD τ)) (src := slot0) (dst := slot4) (q := shr 4)
        (fs := allStats (xs m ρ) c) (fd := fn)
        (κ₁ := K (c, kS 4)) (κ₂ := K (peer c 4, kR 4)) (r₁ := 0) (r₂ := 0) (d₁ := 0) (d₂ := 0)
        (by rw [duties_send m ρ c hi]; exact Finset.mem_singleton_self _)
        (by rw [duties_recv m ρ (peer c 4) hi]; exact Finset.mem_singleton_self _)
        () () N rfl (amount_send m ρ c 4 0) (amount_recv m ρ (peer c 4) 4 0) O rfl (W := W)
        (by rw [payload_send]; exact Entails.refl _)
        (by rw [payload_recv]; exact landed_eq m ρ c 4 hi slot4 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  · dsimp only [slotPts, slotV]
    have hi : (5 : Fin 8) ≠ 0 := by decide
    iintro ⟨#Hrec, Hsrc, Hdst, HO, HtS, HtR⟩
    ihave #HIs := (inv_send m ρ K c 5) $$ Hrec
    ihave #HIr := (inv_recv m ρ K (peer c 5) 5) $$ Hrec
    ihave #HrS := (reached_send m ρ K c 5) $$ Hrec
    ihave #HrR := (reached_recv m ρ K (peer c 5) 5) $$ Hrec
    iapply (Rounds.wp_send_pointsTo 𝒱₀ ER (softRd m ρ) (c : Thread nD τ) none
        (c' := (peer c 5 : Thread nD τ)) (src := slot0) (dst := slot5) (q := shr 5)
        (fs := allStats (xs m ρ) c) (fd := fn)
        (κ₁ := K (c, kS 5)) (κ₂ := K (peer c 5, kR 5)) (r₁ := 0) (r₂ := 0) (d₁ := 0) (d₂ := 0)
        (by rw [duties_send m ρ c hi]; exact Finset.mem_singleton_self _)
        (by rw [duties_recv m ρ (peer c 5) hi]; exact Finset.mem_singleton_self _)
        () () N rfl (amount_send m ρ c 5 0) (amount_recv m ρ (peer c 5) 5 0) O rfl (W := W)
        (by rw [payload_send]; exact Entails.refl _)
        (by rw [payload_recv]; exact landed_eq m ρ c 5 hi slot5 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  · dsimp only [slotPts, slotV]
    have hi : (6 : Fin 8) ≠ 0 := by decide
    iintro ⟨#Hrec, Hsrc, Hdst, HO, HtS, HtR⟩
    ihave #HIs := (inv_send m ρ K c 6) $$ Hrec
    ihave #HIr := (inv_recv m ρ K (peer c 6) 6) $$ Hrec
    ihave #HrS := (reached_send m ρ K c 6) $$ Hrec
    ihave #HrR := (reached_recv m ρ K (peer c 6) 6) $$ Hrec
    iapply (Rounds.wp_send_pointsTo 𝒱₀ ER (softRd m ρ) (c : Thread nD τ) none
        (c' := (peer c 6 : Thread nD τ)) (src := slot0) (dst := slot6) (q := shr 6)
        (fs := allStats (xs m ρ) c) (fd := fn)
        (κ₁ := K (c, kS 6)) (κ₂ := K (peer c 6, kR 6)) (r₁ := 0) (r₂ := 0) (d₁ := 0) (d₂ := 0)
        (by rw [duties_send m ρ c hi]; exact Finset.mem_singleton_self _)
        (by rw [duties_recv m ρ (peer c 6) hi]; exact Finset.mem_singleton_self _)
        () () N rfl (amount_send m ρ c 6 0) (amount_recv m ρ (peer c 6) 6 0) O rfl (W := W)
        (by rw [payload_send]; exact Entails.refl _)
        (by rw [payload_recv]; exact landed_eq m ρ c 6 hi slot6 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR
  · dsimp only [slotPts, slotV]
    have hi : (7 : Fin 8) ≠ 0 := by decide
    iintro ⟨#Hrec, Hsrc, Hdst, HO, HtS, HtR⟩
    ihave #HIs := (inv_send m ρ K c 7) $$ Hrec
    ihave #HIr := (inv_recv m ρ K (peer c 7) 7) $$ Hrec
    ihave #HrS := (reached_send m ρ K c 7) $$ Hrec
    ihave #HrR := (reached_recv m ρ K (peer c 7) 7) $$ Hrec
    iapply (Rounds.wp_send_pointsTo 𝒱₀ ER (softRd m ρ) (c : Thread nD τ) none
        (c' := (peer c 7 : Thread nD τ)) (src := slot0) (dst := slot7) (q := shr 7)
        (fs := allStats (xs m ρ) c) (fd := fn)
        (κ₁ := K (c, kS 7)) (κ₂ := K (peer c 7, kR 7)) (r₁ := 0) (r₂ := 0) (d₁ := 0) (d₂ := 0)
        (by rw [duties_send m ρ c hi]; exact Finset.mem_singleton_self _)
        (by rw [duties_recv m ρ (peer c 7) hi]; exact Finset.mem_singleton_self _)
        () () N rfl (amount_send m ρ c 7 0) (amount_recv m ρ (peer c 7) 7 0) O rfl (W := W)
        (by rw [payload_send]; exact Entails.refl _)
        (by rw [payload_recv]; exact landed_eq m ρ c 7 hi slot7 rfl fn)
        (hr := Topo.routes_tc _ _)) $$ [Hsrc Hdst HO HtS HtR]
    isplitr; · iexact HIs
    isplitr; · iexact HIr
    isplitl [Hsrc]; · iexact Hsrc
    isplitl [Hdst]; · iexact Hdst
    isplitl [HO]; · iexact HO
    isplitl [HtS]; · iexact HtS
    isplitr; · iexact HrS
    isplitl [HtR]; · iexact HtR
    iexact HrR

/-- The wait for copy `e`'s arrival: slot `e` comes back holding the sender's table. -/
theorem wp_rwait (c : Dev nD) (e : Fin 8) (he : e ≠ 0) (sR : DmaSem sig) (hR : sR = recvS e) (W : Waits sig Unit)
    (src dst : Memref sig .tc .vmem S2x1024 .f32) (hdv : dst = slotV e) {h1 : src.view.WordExact} {h2 : dst.view.WordExact}
    {α : Type} {Q : α → sProp 𝕄} {k : PUnit → Prog (TpuEff nD τ sig (Elt F) Λ₀ .tc) α} :
    iprop(records m ρ K ∗ cred (tallyAt (recvCell c e) () N) ∗ owes (c : Thread nD τ) 0 W ∗ atPos ER (recvCell c e) 0 ∅ 0)
      ⊢ iprop(((owes (c : Thread nD τ) 0 (insert (SemLoc.dma (recvS e), ()) W) ∗ atPos ER (recvCell c e) 1 ∅ 0
              ∗ slotPts c fullShare (allStats (xs m ρ) c) e)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst h1 h2) k) Q) := by
  subst hR hdv
  iintro ⟨#Hrec, Hc, HO, Hat⟩ Hk
  ihave #HI := (inv_recv m ρ K c e) $$ Hrec
  iapply (Rounds.wp_wait_rest_token 𝒱₀ ER (softRd m ρ) (c : Thread nD τ) none (κ := K (c, kR e)) (k' := N)
      (fun K' => (wpE_waitDma2_eq 𝒱₀ (c : Thread nD τ) none Set.univ K').trans
        (congrArg (fun n => waitSpec (c : Thread nD τ) Set.univ (.dma (recvS e)) n K') (credit_slot e)))
      (Set.mem_univ _) () (O := 0) (W := W) (R := 0) (m := 0) (T := ∅)
      (by rw [Nat.zero_add, expect_recv m ρ c he])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c he)) $$ Hpay
  unfold recvPay
  iapply Hk
  isplitl [HO]; · iexact HO
  isplitl [Hat]; · iexact Hat
  iexact Hp

/-- The wait for copy `d`'s departure: the borrowed share of slot 0 comes back. -/
theorem wp_swait (c : Dev nD) (d : Fin 8) (hd : d ≠ 0) (sS : DmaSem sig) (hS : sS = sendS d) (W : Waits sig Unit)
    (src dst : Memref sig .tc .vmem S2x1024 .f32) (hdv : dst = slot0) {h1 : src.view.WordExact} {h2 : dst.view.WordExact}
    {α : Type} {Q : α → sProp 𝕄} {k : PUnit → Prog (TpuEff nD τ sig (Elt F) Λ₀ .tc) α} :
    iprop(records m ρ K ∗ cred (tallyAt (sendCell c d) () N) ∗ owes (c : Thread nD τ) 0 W ∗ atPos ER (sendCell c d) 0 ∅ 0)
      ⊢ iprop(((owes (c : Thread nD τ) 0 (insert (SemLoc.dma (sendS d), ()) W) ∗ atPos ER (sendCell c d) 1 ∅ 0
              ∗ slotPts c (shr d) (allStats (xs m ρ) c) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst h1 h2) k) Q) := by
  subst hS hdv
  iintro ⟨#Hrec, Hc, HO, Hat⟩ Hk
  ihave #HI := (inv_send m ρ K c d) $$ Hrec
  iapply (Rounds.wp_wait_rest_token 𝒱₀ ER (softRd m ρ) (c : Thread nD τ) none (κ := K (c, kS d)) (k' := N)
      (fun K' => (wpE_waitDma2_eq 𝒱₀ (c : Thread nD τ) none Set.univ K').trans
        (congrArg (fun n => waitSpec (c : Thread nD τ) Set.univ (.dma (sendS d)) n K') (credit_slot 0)))
      (Set.mem_univ _) () (O := 0) (W := W) (R := 0) (m := 0) (T := ∅)
      (by rw [Nat.zero_add, expect_send m ρ c hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c hd)) $$ Hpay
  unfold sendPay
  iapply Hk
  isplitl [HO]; · iexact HO
  isplitl [Hat]; · iexact Hat
  iexact Hp

/-- Once every round of the sixteen own cells is consumed they close: their counters, at zero, are the device's again. -/
theorem close_own (c : Dev nD) :
    iprop(records m ρ K ∗ atPos ER (sendCell c 0) 0 ∅ 0 ∗ atPos ER (recvCell c 0) 0 ∅ 0
        ∗ atPos ER (sendCell c 1) 1 ∅ 0 ∗ atPos ER (sendCell c 2) 1 ∅ 0 ∗ atPos ER (sendCell c 3) 1 ∅ 0 ∗ atPos ER (sendCell c 4) 1 ∅ 0 ∗ atPos ER (sendCell c 5) 1 ∅ 0 ∗ atPos ER (sendCell c 6) 1 ∅ 0 ∗ atPos ER (sendCell c 7) 1 ∅ 0
        ∗ atPos ER (recvCell c 1) 1 ∅ 0 ∗ atPos ER (recvCell c 2) 1 ∅ 0 ∗ atPos ER (recvCell c 3) 1 ∅ 0 ∗ atPos ER (recvCell c 4) 1 ∅ 0 ∗ atPos ER (recvCell c 5) 1 ∅ 0 ∗ atPos ER (recvCell c 6) 1 ∅ 0 ∗ atPos ER (recvCell c 7) 1 ∅ 0)
      ⊢ (|={Set.univ}=> bigSep Finset.univ fun k : Fin 16 => semVal ((c : Thread nD τ), osem k) 0 : sProp 𝕄) := by
  rw [own_listed]
  iintro ⟨#Hrec, HS0, HR0, HS1, HS2, HS3, HS4, HS5, HS6, HS7, HR1, HR2, HR3, HR4, HR5, HR6, HR7⟩
  imod (close_send m ρ K c 0 0 (fun r _ => duties_send_zero m ρ c r)) $$ [HS0] with ZS0
  · isplitr; · iexact Hrec
    iexact HS0
  imod (close_send m ρ K c 1 1 (duties_later m ρ _)) $$ [HS1] with ZS1
  · isplitr; · iexact Hrec
    iexact HS1
  imod (close_send m ρ K c 2 1 (duties_later m ρ _)) $$ [HS2] with ZS2
  · isplitr; · iexact Hrec
    iexact HS2
  imod (close_send m ρ K c 3 1 (duties_later m ρ _)) $$ [HS3] with ZS3
  · isplitr; · iexact Hrec
    iexact HS3
  imod (close_send m ρ K c 4 1 (duties_later m ρ _)) $$ [HS4] with ZS4
  · isplitr; · iexact Hrec
    iexact HS4
  imod (close_send m ρ K c 5 1 (duties_later m ρ _)) $$ [HS5] with ZS5
  · isplitr; · iexact Hrec
    iexact HS5
  imod (close_send m ρ K c 6 1 (duties_later m ρ _)) $$ [HS6] with ZS6
  · isplitr; · iexact Hrec
    iexact HS6
  imod (close_send m ρ K c 7 1 (duties_later m ρ _)) $$ [HS7] with ZS7
  · isplitr; · iexact Hrec
    iexact HS7
  imod (close_recv m ρ K c 0 0 (fun r _ => duties_recv_zero m ρ c r)) $$ [HR0] with ZR0
  · isplitr; · iexact Hrec
    iexact HR0
  imod (close_recv m ρ K c 1 1 (duties_later m ρ _)) $$ [HR1] with ZR1
  · isplitr; · iexact Hrec
    iexact HR1
  imod (close_recv m ρ K c 2 1 (duties_later m ρ _)) $$ [HR2] with ZR2
  · isplitr; · iexact Hrec
    iexact HR2
  imod (close_recv m ρ K c 3 1 (duties_later m ρ _)) $$ [HR3] with ZR3
  · isplitr; · iexact Hrec
    iexact HR3
  imod (close_recv m ρ K c 4 1 (duties_later m ρ _)) $$ [HR4] with ZR4
  · isplitr; · iexact Hrec
    iexact HR4
  imod (close_recv m ρ K c 5 1 (duties_later m ρ _)) $$ [HR5] with ZR5
  · isplitr; · iexact Hrec
    iexact HR5
  imod (close_recv m ρ K c 6 1 (duties_later m ρ _)) $$ [HR6] with ZR6
  · isplitr; · iexact Hrec
    iexact HR6
  imod (close_recv m ρ K c 7 1 (duties_later m ρ _)) $$ [HR7] with ZR7
  · isplitr; · iexact Hrec
    iexact HR7
  imodintro
  isplitl [ZS0]; · iexact ZS0
  isplitl [ZS1]; · iexact ZS1
  isplitl [ZS2]; · iexact ZS2
  isplitl [ZS3]; · iexact ZS3
  isplitl [ZS4]; · iexact ZS4
  isplitl [ZS5]; · iexact ZS5
  isplitl [ZS6]; · iexact ZS6
  isplitl [ZS7]; · iexact ZS7
  isplitl [ZR0]; · iexact ZR0
  isplitl [ZR1]; · iexact ZR1
  isplitl [ZR2]; · iexact ZR2
  isplitl [ZR3]; · iexact ZR3
  isplitl [ZR4]; · iexact ZR4
  isplitl [ZR5]; · iexact ZR5
  isplitl [ZR6]; · iexact ZR6
  iexact ZR7

end Cert.Kernel.Dist

end
-- ==== Proof.KBody.lean ====
import proofs.«901060_g7700000000001061_dist_softmax_colshard_i_m1024_n512_v7x_i8_f32_1_alg».proof.Proof.KStepSig
import proofs.«901060_g7700000000001061_dist_softmax_colshard_i_m1024_n512_v7x_i8_f32_1_alg».proof.Proof.KStepXfer

/-!
One device's run of the kernel body, from what the launch hands it to the result block stored and every own cell closed.
-/

noncomputable section

namespace Cert.Kernel.Dist

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

/-- The store's points-to, read as slot 0 holding the device's own table. -/
theorem stored_pts (c : Dev nD) (ft : Buf (Elt F) (tLoc c)) :
    (((tM : Memref sig .tc .vmem S8x2x1024 .f32).access rS0 : View sig .tc _ _ _).loc (c : Thread nD τ) ↦[(slot0 : Memref sig .tc .vmem S2x1024 .f32).view.set]{fullShare}
        (((tM : Memref sig .tc .vmem S8x2x1024 .f32).access rS0 : View sig .tc _ _ _).write (Elt F) ft (k0_pay5 (k0_pay2 (xstg m ρ c))) Finset.univ) : sProp 𝕄)
      ⊢ slotPts c fullShare (allStats (xs m ρ) c) 0 :=
  Entails.of_eq (stored_eq m ρ c fullShare ft)

omit [FloatOps F] in
theorem bigSep_off (Φ : Fin 8 → sProp 𝕄) :
    bigSep (Finset.univ.erase (0 : Fin 8)) Φ = iprop(Φ 1 ∗ Φ 2 ∗ Φ 3 ∗ Φ 4 ∗ Φ 5 ∗ Φ 6 ∗ Φ 7) := by
  rw [bigSep_eq_bigSepL_of_eq [1, 2, 3, 4, 5, 6, 7] (by decide) (by decide)]; rfl
omit [FloatOps F] in
theorem bigSep_fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) := by
  rw [bigSep_univ_eq_bigSepL [0, 1, 2, 3, 4, 5, 6, 7, 8, 9, 10, 11, 12, 13, 14, 15, 16] (by decide) (by decide)]; rfl

abbrev r2 : Rect S1024x512 := Rect.unit (s := S1024x512) ![0, 0] S1024x512.size inb_S1024x512_S1024x512_0_0
abbrev r3 : Rect S8x2x1024 := Rect.unit (s := S8x2x1024) ![0, 0, 0] S8x2x1024.size inb_S8x2x1024_S8x2x1024_0_0_0

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
theorem read_x (f : (cc0_stg0_0 : Ref sig .tc).ty.Contents (Elt F)) : (xM : Memref sig .tc .vmem S1024x512 .f32).view.readAt (Elt F) r2.toLoadRect f = f :=
  Memref.readAt_unit_zero (Elt F) cc0_stg0_0 hz2 _ f
omit [FloatOps F] in
theorem read_e (f : (cc0_scratch0 : Ref sig .tc).ty.Contents (Elt F)) : (eM : Memref sig .tc .vmem S1024x512 .f32).view.readAt (Elt F) r2.toLoadRect f = f :=
  Memref.readAt_unit_zero (Elt F) cc0_scratch0 hz2 _ f
omit [FloatOps F] in
theorem read_t (f : (cc0_scratch1 : Ref sig .tc).ty.Contents (Elt F)) : (tM : Memref sig .tc .vmem S8x2x1024 .f32).view.readAt (Elt F) r3.toLoadRect f = f :=
  Memref.readAt_unit_zero (Elt F) cc0_scratch1 hz3 _ f
omit [FloatOps F] in
theorem write_e (f w : (cc0_scratch0 : Ref sig .tc).ty.Contents (Elt F)) :
    ((eM : Memref sig .tc .vmem S1024x512 .f32).access r2 : View sig .tc _ _ _).write (Elt F) f w Finset.univ = w :=
  Memref.write_access_unit_zero_univ (Elt F) cc0_scratch0 hz2 _ f w
omit [FloatOps F] in
theorem write_o (f w : (cc0_stg1_0 : Ref sig .tc).ty.Contents (Elt F)) :
    ((oM : Memref sig .tc .vmem S1024x512 .f32).access r2 : View sig .tc _ _ _).write (Elt F) f w Finset.univ = w :=
  Memref.write_access_unit_zero_univ (Elt F) cc0_stg1_0 hz2 _ f w

section Tables
variable (K : Dev nD × Fin 17 → ℕ)
theorem inv_bar' (c' : Dev nD) : records m ρ K ⊢ cellInv ER (softRd m ρ) (K (c', 0)) (barCell c') := records_cellInv m ρ K (c', 0)
theorem rch_bar' (c' : Dev nD) : records m ρ K ⊢ reached ER (barCell c') 0 := records_reached m ρ K (c', 0)
end Tables
theorem neg_1 : neg 1 = 7 := rfl
theorem neg_2 : neg 2 = 6 := rfl
theorem neg_3 : neg 3 = 5 := rfl
theorem neg_4 : neg 4 = 4 := rfl
theorem neg_5 : neg 5 = 3 := rfl
theorem neg_6 : neg 6 = 2 := rfl
theorem neg_7 : neg 7 = 1 := rfl

/-- The barrier duty `neg d` of the device `d` places on, seen from `c`: slot `neg d` of `c`'s own table buffer. -/
theorem payload_bar_peer (c : Dev nD) (d : Fin 8) :
    (softRd (F := F) m ρ).payload (barCell (peer c d)) 0 (neg d)
      = iprop((∃ f, slotPts c fullShare f (neg d)) ∗ reached ER (recvCell c (neg d)) 0) := by
  rw [payload_bar]; unfold barPay
  have h := peer_peer_neg c d
  generalize peer (peer c d) (neg d) = c' at h ⊢
  subst h; rfl

theorem payload_bar_peer1 (c : Dev nD) :
    (softRd (F := F) m ρ).payload (barCell (peer c 1)) 0 7
      = iprop((∃ f, ((slot7 : Memref sig .tc .vmem S2x1024 .f32).view.loc (c : Thread nD τ) ↦[(slot7 : Memref sig .tc .vmem S2x1024 .f32).view.set]{fullShare} f : sProp 𝕄)) ∗ reached ER (recvCell c 7) 0) :=
  payload_bar_peer m ρ c 1
theorem duties_bar_peer1_mem (c : Dev nD) : (7 : Fin 8) ∈ (softRd (F := F) m ρ).duties (barCell (peer c 1)) 0 := by
  rw [duties_bar]; decide

theorem payload_bar_peer2 (c : Dev nD) :
    (softRd (F := F) m ρ).payload (barCell (peer c 2)) 0 6
      = iprop((∃ f, ((slot6 : Memref sig .tc .vmem S2x1024 .f32).view.loc (c : Thread nD τ) ↦[(slot6 : Memref sig .tc .vmem S2x1024 .f32).view.set]{fullShare} f : sProp 𝕄)) ∗ reached ER (recvCell c 6) 0) :=
  payload_bar_peer m ρ c 2
theorem duties_bar_peer2_mem (c : Dev nD) : (6 : Fin 8) ∈ (softRd (F := F) m ρ).duties (barCell (peer c 2)) 0 := by
  rw [duties_bar]; decide

theorem payload_bar_peer3 (c : Dev nD) :
    (softRd (F := F) m ρ).payload (barCell (peer c 3)) 0 5
      = iprop((∃ f, ((slot5 : Memref sig .tc .vmem S2x1024 .f32).view.loc (c : Thread nD τ) ↦[(slot5 : Memref sig .tc .vmem S2x1024 .f32).view.set]{fullShare} f : sProp 𝕄)) ∗ reached ER (recvCell c 5) 0) :=
  payload_bar_peer m ρ c 3
theorem duties_bar_peer3_mem (c : Dev nD) : (5 : Fin 8) ∈ (softRd (F := F) m ρ).duties (barCell (peer c 3)) 0 := by
  rw [duties_bar]; decide

theorem payload_bar_peer4 (c : Dev nD) :
    (softRd (F := F) m ρ).payload (barCell (peer c 4)) 0 4
      = iprop((∃ f, ((slot4 : Memref sig .tc .vmem S2x1024 .f32).view.loc (c : Thread nD τ) ↦[(slot4 : Memref sig .tc .vmem S2x1024 .f32).view.set]{fullShare} f : sProp 𝕄)) ∗ reached ER (recvCell c 4) 0) :=
  payload_bar_peer m ρ c 4
theorem duties_bar_peer4_mem (c : Dev nD) : (4 : Fin 8) ∈ (softRd (F := F) m ρ).duties (barCell (peer c 4)) 0 := by
  rw [duties_bar]; decide

theorem payload_bar_peer5 (c : Dev nD) :
    (softRd (F := F) m ρ).payload (barCell (peer c 5)) 0 3
      = iprop((∃ f, ((slot3 : Memref sig .tc .vmem S2x1024 .f32).view.loc (c : Thread nD τ) ↦[(slot3 : Memref sig .tc .vmem S2x1024 .f32).view.set]{fullShare} f : sProp 𝕄)) ∗ reached ER (recvCell c 3) 0) :=
  payload_bar_peer m ρ c 5
theorem duties_bar_peer5_mem (c : Dev nD) : (3 : Fin 8) ∈ (softRd (F := F) m ρ).duties (barCell (peer c 5)) 0 := by
  rw [duties_bar]; decide

theorem payload_bar_peer6 (c : Dev nD) :
    (softRd (F := F) m ρ).payload (barCell (peer c 6)) 0 2
      = iprop((∃ f, ((slot2 : Memref sig .tc .vmem S2x1024 .f32).view.loc (c : Thread nD τ) ↦[(slot2 : Memref sig .tc .vmem S2x1024 .f32).view.set]{fullShare} f : sProp 𝕄)) ∗ reached ER (recvCell c 2) 0) :=
  payload_bar_peer m ρ c 6
theorem duties_bar_peer6_mem (c : Dev nD) : (2 : Fin 8) ∈ (softRd (F := F) m ρ).duties (barCell (peer c 6)) 0 := by
  rw [duties_bar]; decide

theorem payload_bar_peer7 (c : Dev nD) :
    (softRd (F := F) m ρ).payload (barCell (peer c 7)) 0 1
      = iprop((∃ f, ((slot1 : Memref sig .tc .vmem S2x1024 .f32).view.loc (c : Thread nD τ) ↦[(slot1 : Memref sig .tc .vmem S2x1024 .f32).view.set]{fullShare} f : sProp 𝕄)) ∗ reached ER (recvCell c 1) 0) :=
  payload_bar_peer m ρ c 7
theorem duties_bar_peer7_mem (c : Dev nD) : (1 : Fin 8) ∈ (softRd (F := F) m ρ).duties (barCell (peer c 7)) 0 := by
  rw [duties_bar]; decide

theorem duties_bar_lit (c : Dev nD) : (softRd (F := F) m ρ).duties (barCell c) 0 = {1, 2, 3, 4, 5, 6, 7} := by
  rw [duties_bar]; decide

attribute [local sl_rounds] duties_bar_lit amount_bar amount_send amount_recv expect_bar
  payload_bar_peer1 duties_bar_peer1_mem payload_bar_peer2 duties_bar_peer2_mem payload_bar_peer3 duties_bar_peer3_mem payload_bar_peer4 duties_bar_peer4_mem payload_bar_peer5 duties_bar_peer5_mem payload_bar_peer6 duties_bar_peer6_mem payload_bar_peer7 duties_bar_peer7_mem
attribute [local sl_canon] dev1_eq dev2_eq dev3_eq dev4_eq dev5_eq dev6_eq dev7_eq

theorem payload_bar_lit1 (c : Dev nD) :
    (softRd (F := F) m ρ).payload (barCell c) 0 1
      = iprop((∃ f, (((slot1 : Memref sig .tc .vmem S2x1024 .f32).view.loc (peer c 1 : Thread nD τ) ↦[(slot1 : Memref sig .tc .vmem S2x1024 .f32).view.set]{fullShare} f) : sProp 𝕄)) ∗ reached ER (recvCell (peer c 1) 1) 0) := rfl

theorem payload_bar_lit2 (c : Dev nD) :
    (softRd (F := F) m ρ).payload (barCell c) 0 2
      = iprop((∃ f, (((slot2 : Memref sig .tc .vmem S2x1024 .f32).view.loc (peer c 2 : Thread nD τ) ↦[(slot2 : Memref sig .tc .vmem S2x1024 .f32).view.set]{fullShare} f) : sProp 𝕄)) ∗ reached ER (recvCell (peer c 2) 2) 0) := rfl

theorem payload_bar_lit3 (c : Dev nD) :
    (softRd (F := F) m ρ).payload (barCell c) 0 3
      = iprop((∃ f, (((slot3 : Memref sig .tc .vmem S2x1024 .f32).view.loc (peer c 3 : Thread nD τ) ↦[(slot3 : Memref sig .tc .vmem S2x1024 .f32).view.set]{fullShare} f) : sProp 𝕄)) ∗ reached ER (recvCell (peer c 3) 3) 0) := rfl

theorem payload_bar_lit4 (c : Dev nD) :
    (softRd (F := F) m ρ).payload (barCell c) 0 4
      = iprop((∃ f, (((slot4 : Memref sig .tc .vmem S2x1024 .f32).view.loc (peer c 4 : Thread nD τ) ↦[(slot4 : Memref sig .tc .vmem S2x1024 .f32).view.set]{fullShare} f) : sProp 𝕄)) ∗ reached ER (recvCell (peer c 4) 4) 0) := rfl

theorem payload_bar_lit5 (c : Dev nD) :
    (softRd (F := F) m ρ).payload (barCell c) 0 5
      = iprop((∃ f, (((slot5 : Memref sig .tc .vmem S2x1024 .f32).view.loc (peer c 5 : Thread nD τ) ↦[(slot5 : Memref sig .tc .vmem S2x1024 .f32).view.set]{fullShare} f) : sProp 𝕄)) ∗ reached ER (recvCell (peer c 5) 5) 0) := rfl

theorem payload_bar_lit6 (c : Dev nD) :
    (softRd (F := F) m ρ).payload (barCell c) 0 6
      = iprop((∃ f, (((slot6 : Memref sig .tc .vmem S2x1024 .f32).view.loc (peer c 6 : Thread nD τ) ↦[(slot6 : Memref sig .tc .vmem S2x1024 .f32).view.set]{fullShare} f) : sProp 𝕄)) ∗ reached ER (recvCell (peer c 6) 6) 0) := rfl

theorem payload_bar_lit7 (c : Dev nD) :
    (softRd (F := F) m ρ).payload (barCell c) 0 7
      = iprop((∃ f, (((slot7 : Memref sig .tc .vmem S2x1024 .f32).view.loc (peer c 7 : Thread nD τ) ↦[(slot7 : Memref sig .tc .vmem S2x1024 .f32).view.set]{fullShare} f) : sProp 𝕄)) ∗ reached ER (recvCell (peer c 7) 7) 0) := rfl

attribute [local sl_rounds high] payload_bar_peer1 payload_bar_peer2 payload_bar_peer3 payload_bar_peer4 payload_bar_peer5 payload_bar_peer6 payload_bar_peer7
attribute [local sl_rounds] payload_bar_lit1 payload_bar_lit2 payload_bar_lit3 payload_bar_lit4 payload_bar_lit5 payload_bar_lit6 payload_bar_lit7

set_option maxRecDepth 65536 in
set_option maxHeartbeats 4000000 in
/-- The body, from `bodyPre'` to `bodyPost`. -/
theorem sound_body (c : Dev nD) :
    bodyPre' m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) (Memref.whole cc0_scratch1) (Memref.isWhole_whole _) cc0_scratch2 cc0_scratch3)
      (fun _ => bodyPost m ρ c) := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel k0_part11_skel k0_part12_skel
  simp only [semSignalWord, semWaitWord, Prog.lift, Prog.bind_op, Prog.bind_ret, Prog.pure_eq_ret, wp_deviceId]
  unfold bodyPre' Φ₀ start ghost linear payToks
  rw [bigSep_off, bigSep_off, bigSep_fin17]
  simp only [neg_1, neg_2, neg_3, neg_4, neg_5, neg_6, neg_7]
  iintro ⟨⟨⟨⟨%K, #Hrec, ⟨HpB, HpS0, HpS1, HpS2, HpS3, HpS4, HpS5, HpS6, HpS7, HpR0, HpR1, HpR2, HpR3, HpR4, HpR5, HpR6, HpR7⟩,
      ⟨HtB1, HtR1, HtS1⟩, ⟨HtB2, HtR2, HtS2⟩, ⟨HtB3, HtR3, HtS3⟩, ⟨HtB4, HtR4, HtS4⟩, ⟨HtB5, HtR5, HtS5⟩, ⟨HtB6, HtR6, HtS6⟩, ⟨HtB7, HtR7, HtS7⟩⟩,
      HcB, ⟨HcR1, HcR2, HcR3, HcR4, HcR5, HcR6, HcR7⟩, #Hlev⟩, ⟨%fe, He⟩, ⟨%ft, Ht⟩⟩,
    Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = (tallyAt (recvCell (peer c 7) 7) () N + tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N + tallyAt (barCell (peer c 7)) () 1 + tallyAt (barCell (peer c 6)) () 1 + tallyAt (barCell (peer c 5)) () 1 + tallyAt (barCell (peer c 4)) () 1 + tallyAt (barCell (peer c 3)) () 1 + tallyAt (barCell (peer c 2)) () 1 + tallyAt (barCell (peer c 1)) () 1 : CellTallies nD τ sig Unit) from rfl]
  -- the cells' invariants and the rounds reached, of the seven devices signalled and of the own barrier cell
  ihave #HIb1 := (inv_bar' m ρ K (peer c 1)) $$ Hrec
  ihave #Hrb1 := (rch_bar' m ρ K (peer c 1)) $$ Hrec
  ihave #Hrr1 := (reached_recv m ρ K c 1) $$ Hrec
  ihave #HIb2 := (inv_bar' m ρ K (peer c 2)) $$ Hrec
  ihave #Hrb2 := (rch_bar' m ρ K (peer c 2)) $$ Hrec
  ihave #Hrr2 := (reached_recv m ρ K c 2) $$ Hrec
  ihave #HIb3 := (inv_bar' m ρ K (peer c 3)) $$ Hrec
  ihave #Hrb3 := (rch_bar' m ρ K (peer c 3)) $$ Hrec
  ihave #Hrr3 := (reached_recv m ρ K c 3) $$ Hrec
  ihave #HIb4 := (inv_bar' m ρ K (peer c 4)) $$ Hrec
  ihave #Hrb4 := (rch_bar' m ρ K (peer c 4)) $$ Hrec
  ihave #Hrr4 := (reached_recv m ρ K c 4) $$ Hrec
  ihave #HIb5 := (inv_bar' m ρ K (peer c 5)) $$ Hrec
  ihave #Hrb5 := (rch_bar' m ρ K (peer c 5)) $$ Hrec
  ihave #Hrr5 := (reached_recv m ρ K c 5) $$ Hrec
  ihave #HIb6 := (inv_bar' m ρ K (peer c 6)) $$ Hrec
  ihave #Hrb6 := (rch_bar' m ρ K (peer c 6)) $$ Hrec
  ihave #Hrr6 := (reached_recv m ρ K c 6) $$ Hrec
  ihave #HIb7 := (inv_bar' m ρ K (peer c 7)) $$ Hrec
  ihave #Hrb7 := (rch_bar' m ρ K (peer c 7)) $$ Hrec
  ihave #Hrr7 := (reached_recv m ρ K c 7) $$ Hrec
  ihave #HIb0 := (inv_bar' m ρ K c) $$ Hrec
  -- the block's staging buffer through its memref's view
  have hxv : ∀ f : Buf (Elt F) ((c : Thread nD τ).loc cc0_stg0_0), (((c : Thread nD τ).loc cc0_stg0_0) ↦{fullShare} f : sProp 𝕄)
      ⊢ ((Memref.whole cc0_stg0_0 : Memref sig .tc .vmem S1024x512 .f32).view.loc (c : Thread nD τ) ↦[Finset.univ]{fullShare} f) := fun _ => Entails.rfl
  have hxv' : ∀ f : Buf (Elt F) ((c : Thread nD τ).loc cc0_stg0_0), ((Memref.whole cc0_stg0_0 : Memref sig .tc .vmem S1024x512 .f32).view.loc (c : Thread nD τ) ↦[Finset.univ]{fullShare} f : sProp 𝕄)
      ⊢ (((c : Thread nD τ).loc cc0_stg0_0) ↦{fullShare} f) := fun _ => Entails.rfl
  ihave Hx := (hxv _) $$ Hx
  -- the table buffer slot by slot, each through its slice's view, in the order the signals hand the slots over
  have hslots : (tLoc c ↦{fullShare} ft : sProp 𝕄) ⊢ iprop(((slot7 : Memref sig .tc .vmem S2x1024 .f32).view.loc (c : Thread nD τ) ↦[(slot7 : Memref sig .tc .vmem S2x1024 .f32).view.set]{fullShare} ft)
      ∗ ((slot6 : Memref sig .tc .vmem S2x1024 .f32).view.loc (c : Thread nD τ) ↦[(slot6 : Memref sig .tc .vmem S2x1024 .f32).view.set]{fullShare} ft)
      ∗ ((slot5 : Memref sig .tc .vmem S2x1024 .f32).view.loc (c : Thread nD τ) ↦[(slot5 : Memref sig .tc .vmem S2x1024 .f32).view.set]{fullShare} ft)
      ∗ ((slot4 : Memref sig .tc .vmem S2x1024 .f32).view.loc (c : Thread nD τ) ↦[(slot4 : Memref sig .tc .vmem S2x1024 .f32).view.set]{fullShare} ft)
      ∗ ((slot3 : Memref sig .tc .vmem S2x1024 .f32).view.loc (c : Thread nD τ) ↦[(slot3 : Memref sig .tc .vmem S2x1024 .f32).view.set]{fullShare} ft)
      ∗ ((slot2 : Memref sig .tc .vmem S2x1024 .f32).view.loc (c : Thread nD τ) ↦[(slot2 : Memref sig .tc .vmem S2x1024 .f32).view.set]{fullShare} ft)
      ∗ ((slot1 : Memref sig .tc .vmem S2x1024 .f32).view.loc (c : Thread nD τ) ↦[(slot1 : Memref sig .tc .vmem S2x1024 .f32).view.set]{fullShare} ft)
      ∗ ((slot0 : Memref sig .tc .vmem S2x1024 .f32).view.loc (c : Thread nD τ) ↦[(slot0 : Memref sig .tc .vmem S2x1024 .f32).view.set]{fullShare} ft)) := by
    refine (table_split c ft).1.trans ?_
    iintro ⟨H0, H1, H2, H3, H4, H5, H6, H7⟩
    isplitl [H7]; · iapply (Entails.of_eq (show (slotPts c fullShare ft 7 : sProp 𝕄) = ((slot7 : Memref sig .tc .vmem S2x1024 .f32).view.loc (c : Thread nD τ) ↦[(slot7 : Memref sig .tc .vmem S2x1024 .f32).view.set]{fullShare} ft) from rfl)) $$ H7
    isplitl [H6]; · iapply (Entails.of_eq (show (slotPts c fullShare ft 6 : sProp 𝕄) = ((slot6 : Memref sig .tc .vmem S2x1024 .f32).view.loc (c : Thread nD τ) ↦[(slot6 : Memref sig .tc .vmem S2x1024 .f32).view.set]{fullShare} ft) from rfl)) $$ H6
    isplitl [H5]; · iapply (Entails.of_eq (show (slotPts c fullShare ft 5 : sProp 𝕄) = ((slot5 : Memref sig .tc .vmem S2x1024 .f32).view.loc (c : Thread nD τ) ↦[(slot5 : Memref sig .tc .vmem S2x1024 .f32).view.set]{fullShare} ft) from rfl)) $$ H5
    isplitl [H4]; · iapply (Entails.of_eq (show (slotPts c fullShare ft 4 : sProp 𝕄) = ((slot4 : Memref sig .tc .vmem S2x1024 .f32).view.loc (c : Thread nD τ) ↦[(slot4 : Memref sig .tc .vmem S2x1024 .f32).view.set]{fullShare} ft) from rfl)) $$ H4
    isplitl [H3]; · iapply (Entails.of_eq (show (slotPts c fullShare ft 3 : sProp 𝕄) = ((slot3 : Memref sig .tc .vmem S2x1024 .f32).view.loc (c : Thread nD τ) ↦[(slot3 : Memref sig .tc .vmem S2x1024 .f32).view.set]{fullShare} ft) from rfl)) $$ H3
    isplitl [H2]; · iapply (Entails.of_eq (show (slotPts c fullShare ft 2 : sProp 𝕄) = ((slot2 : Memref sig .tc .vmem S2x1024 .f32).view.loc (c : Thread nD τ) ↦[(slot2 : Memref sig .tc .vmem S2x1024 .f32).view.set]{fullShare} ft) from rfl)) $$ H2
    isplitl [H1]; · iapply (Entails.of_eq (show (slotPts c fullShare ft 1 : sProp 𝕄) = ((slot1 : Memref sig .tc .vmem S2x1024 .f32).view.loc (c : Thread nD τ) ↦[(slot1 : Memref sig .tc .vmem S2x1024 .f32).view.set]{fullShare} ft) from rfl)) $$ H1
    iapply (Entails.of_eq (show (slotPts c fullShare ft 0 : sProp 𝕄) = ((slot0 : Memref sig .tc .vmem S2x1024 .f32).view.loc (c : Thread nD τ) ↦[(slot0 : Memref sig .tc .vmem S2x1024 .f32).view.set]{fullShare} ft) from rfl)) $$ H0
  ihave Hsl := hslots $$ Ht
  icases Hsl with ⟨Hs7, Hs6, Hs5, Hs4, Hs3, Hs2, Hs1, Hs0⟩
  have hmw : (levAts L lv : sProp 𝕄) ⊢ MayWait (c : Thread nD τ) (.reg barS) () (tallyAt (recvCell (peer c 7) 7) () N + tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N : CellTallies nD τ sig Unit) := mayWait_bar c
  -- the seven signals, the block loaded, the own table stored into slot 0, the wait for the seven units of the own barrier cell
  sl_exec
  rw [read_x]
  ihave Hx := (hxv' _) $$ Hx
  have hw : sound_body.sl.Hs0_w1 m ρ c ft = ((tM : Memref sig .tc .vmem S8x2x1024 .f32).access rS0 : View sig .tc _ _ _).write (Elt F) ft (k0_pay5 (k0_pay2 (xstg m ρ c))) Finset.univ := by
    unfold sound_body.sl.Hs0_w1
    exact congrArg (fun x => ((tM : Memref sig .tc .vmem S8x2x1024 .f32).access rS0 : View sig .tc _ _ _).write (Elt F) ft (k0_pay5 (k0_pay2 x)) Finset.univ) (read_x (xstg m ρ c))
  rw [hw]
  ihave Hs0 := (Entails.of_eq (show (((slot0 : Memref sig .tc .vmem S2x1024 .f32).view.loc (c : Thread nD τ) ↦[(slot0 : Memref sig .tc .vmem S2x1024 .f32).view.set]{fullShare} (((tM : Memref sig .tc .vmem S8x2x1024 .f32).access rS0 : View sig .tc _ _ _).write (Elt F) ft (k0_pay5 (k0_pay2 (xstg m ρ c))) Finset.univ)) : sProp 𝕄)
      = (((tM : Memref sig .tc .vmem S8x2x1024 .f32).access rS0 : View sig .tc _ _ _).loc (c : Thread nD τ) ↦[(slot0 : Memref sig .tc .vmem S2x1024 .f32).view.set]{fullShare}
        (((tM : Memref sig .tc .vmem S8x2x1024 .f32).access rS0 : View sig .tc _ _ _).write (Elt F) ft (k0_pay5 (k0_pay2 (xstg m ρ c))) Finset.univ)) from rfl)) $$ Hs0
  ihave Hs0 := (stored_pts m ρ c ft) $$ Hs0
  ihave HO := (Entails.of_eq (show (owes (c : Thread nD τ) (tallyAt (recvCell (peer c 7) 7) () N + tallyAt (recvCell (peer c 6) 6) () N + tallyAt (recvCell (peer c 5) 5) () N + tallyAt (recvCell (peer c 4) 4) () N + tallyAt (recvCell (peer c 3) 3) () N + tallyAt (recvCell (peer c 2) 2) () N + tallyAt (recvCell (peer c 1) 1) () N : CellTallies nD τ sig Unit) _ : sProp 𝕄) = owes (c : Thread nD τ) (OR1 c) _ from rfl)) $$ HO
  -- every other device's slot for this one
  have hch : ∀ A1 A2 A3 A4 A5 A6 A7 : sProp 𝕄, BI.sep A1 (BI.sep A2 (BI.sep A3 (BI.sep A4 (BI.sep A5 (BI.sep A6 A7))))) ⊢ iprop(A1 ∗ A2 ∗ A3 ∗ A4 ∗ A5 ∗ A6 ∗ A7) :=
    fun _ _ _ _ _ _ _ => Entails.rfl
  ihave Hpay := (hch _ _ _ _ _ _ _) $$ HpB_pay1
  icases Hpay with ⟨⟨⟨%fp1, Hp1⟩, -⟩, ⟨⟨%fp2, Hp2⟩, -⟩, ⟨⟨%fp3, Hp3⟩, -⟩, ⟨⟨%fp4, Hp4⟩, -⟩, ⟨⟨%fp5, Hp5⟩, -⟩, ⟨⟨%fp6, Hp6⟩, -⟩, ⟨⟨%fp7, Hp7⟩, -⟩⟩
  ihave Hp1 := (Entails.of_eq (show (((slot1 : Memref sig .tc .vmem S2x1024 .f32).view.loc (peer c 1 : Thread nD τ) ↦[(slot1 : Memref sig .tc .vmem S2x1024 .f32).view.set]{fullShare} fp1) : sProp 𝕄) = slotPts (peer c 1) fullShare fp1 1 from rfl)) $$ Hp1
  ihave Hp2 := (Entails.of_eq (show (((slot2 : Memref sig .tc .vmem S2x1024 .f32).view.loc (peer c 2 : Thread nD τ) ↦[(slot2 : Memref sig .tc .vmem S2x1024 .f32).view.set]{fullShare} fp2) : sProp 𝕄) = slotPts (peer c 2) fullShare fp2 2 from rfl)) $$ Hp2
  ihave Hp3 := (Entails.of_eq (show (((slot3 : Memref sig .tc .vmem S2x1024 .f32).view.loc (peer c 3 : Thread nD τ) ↦[(slot3 : Memref sig .tc .vmem S2x1024 .f32).view.set]{fullShare} fp3) : sProp 𝕄) = slotPts (peer c 3) fullShare fp3 3 from rfl)) $$ Hp3
  ihave Hp4 := (Entails.of_eq (show (((slot4 : Memref sig .tc .vmem S2x1024 .f32).view.loc (peer c 4 : Thread nD τ) ↦[(slot4 : Memref sig .tc .vmem S2x1024 .f32).view.set]{fullShare} fp4) : sProp 𝕄) = slotPts (peer c 4) fullShare fp4 4 from rfl)) $$ Hp4
  ihave Hp5 := (Entails.of_eq (show (((slot5 : Memref sig .tc .vmem S2x1024 .f32).view.loc (peer c 5 : Thread nD τ) ↦[(slot5 : Memref sig .tc .vmem S2x1024 .f32).view.set]{fullShare} fp5) : sProp 𝕄) = slotPts (peer c 5) fullShare fp5 5 from rfl)) $$ Hp5
  ihave Hp6 := (Entails.of_eq (show (((slot6 : Memref sig .tc .vmem S2x1024 .f32).view.loc (peer c 6 : Thread nD τ) ↦[(slot6 : Memref sig .tc .vmem S2x1024 .f32).view.set]{fullShare} fp6) : sProp 𝕄) = slotPts (peer c 6) fullShare fp6 6 from rfl)) $$ Hp6
  ihave Hp7 := (Entails.of_eq (show (((slot7 : Memref sig .tc .vmem S2x1024 .f32).view.loc (peer c 7 : Thread nD τ) ↦[(slot7 : Memref sig .tc .vmem S2x1024 .f32).view.set]{fullShare} fp7) : sProp 𝕄) = slotPts (peer c 7) fullShare fp7 7 from rfl)) $$ Hp7
  -- slot 0 is lent to the seven copies share by share
  ihave Hsh := (slot0_shares c _).1 $$ Hs0
  icases Hsh with ⟨Hq1, Hq2, Hq3, Hq4, Hq5, Hq6, Hq7, Hqr⟩
  -- copy 1: the table into slot 1 of the device 1 places on
  iapply (wp_snd m ρ K c 1 (by decide) _ (dev8_eq c) _ _ sendA1_sem recvA1_sem _ rfl (OR2 c) _ fp1) $$ [Hq1 Hp1 HO HtS1 HtR1]
  · isplitr; · iexact Hrec
    isplitl [Hq1]; · iexact Hq1
    isplitl [Hp1]; · iexact Hp1
    isplitl [HO]; · iexact HO
    isplitl [HtS1]; · iexact HtS1
    iexact HtR1
  iintro ⟨HcS1, HO⟩
  -- copy 2: the table into slot 2 of the device 2 places on
  iapply (wp_snd m ρ K c 2 (by decide) _ (dev9_eq c) _ _ sendA2_sem recvA2_sem _ rfl (OR3 c) _ fp2) $$ [Hq2 Hp2 HO HtS2 HtR2]
  · isplitr; · iexact Hrec
    isplitl [Hq2]; · iexact Hq2
    isplitl [Hp2]; · iexact Hp2
    isplitl [HO]; · iexact HO
    isplitl [HtS2]; · iexact HtS2
    iexact HtR2
  iintro ⟨HcS2, HO⟩
  -- copy 3: the table into slot 3 of the device 3 places on
  iapply (wp_snd m ρ K c 3 (by decide) _ (dev10_eq c) _ _ sendA3_sem recvA3_sem _ rfl (OR4 c) _ fp3) $$ [Hq3 Hp3 HO HtS3 HtR3]
  · isplitr; · iexact Hrec
    isplitl [Hq3]; · iexact Hq3
    isplitl [Hp3]; · iexact Hp3
    isplitl [HO]; · iexact HO
    isplitl [HtS3]; · iexact HtS3
    iexact HtR3
  iintro ⟨HcS3, HO⟩
  -- copy 4: the table into slot 4 of the device 4 places on
  iapply (wp_snd m ρ K c 4 (by decide) _ (dev11_eq c) _ _ sendA4_sem recvA4_sem _ rfl (OR5 c) _ fp4) $$ [Hq4 Hp4 HO HtS4 HtR4]
  · isplitr; · iexact Hrec
    isplitl [Hq4]; · iexact Hq4
    isplitl [Hp4]; · iexact Hp4
    isplitl [HO]; · iexact HO
    isplitl [HtS4]; · iexact HtS4
    iexact HtR4
  iintro ⟨HcS4, HO⟩
  -- copy 5: the table into slot 5 of the device 5 places on
  iapply (wp_snd m ρ K c 5 (by decide) _ (dev12_eq c) _ _ sendA5_sem recvA5_sem _ rfl (OR6 c) _ fp5) $$ [Hq5 Hp5 HO HtS5 HtR5]
  · isplitr; · iexact Hrec
    isplitl [Hq5]; · iexact Hq5
    isplitl [Hp5]; · iexact Hp5
    isplitl [HO]; · iexact HO
    isplitl [HtS5]; · iexact HtS5
    iexact HtR5
  iintro ⟨HcS5, HO⟩
  -- copy 6: the table into slot 6 of the device 6 places on
  iapply (wp_snd m ρ K c 6 (by decide) _ (dev13_eq c) _ _ sendA6_sem recvA6_sem _ rfl (OR7 c) _ fp6) $$ [Hq6 Hp6 HO HtS6 HtR6]
  · isplitr; · iexact Hrec
    isplitl [Hq6]; · iexact Hq6
    isplitl [Hp6]; · iexact Hp6
    isplitl [HO]; · iexact HO
    isplitl [HtS6]; · iexact HtS6
    iexact HtR6
  iintro ⟨HcS6, HO⟩
  ihave HO := (Entails.of_eq (show (owes (c : Thread nD τ) (OR7 c) _ : sProp 𝕄) = owes (c : Thread nD τ) (0 + rT c 7) _ from by unfold OR7; rw [zero_add])) $$ HO
  -- copy 7: the table into slot 7 of the device 7 places on
  iapply (wp_snd m ρ K c 7 (by decide) _ (dev14_eq c) _ _ sendA7_sem recvA7_sem _ rfl 0 _ fp7) $$ [Hq7 Hp7 HO HtS7 HtR7]
  · isplitr; · iexact Hrec
    isplitl [Hq7]; · iexact Hq7
    isplitl [Hp7]; · iexact Hp7
    isplitl [HO]; · iexact HO
    isplitl [HtS7]; · iexact HtS7
    iexact HtR7
  iintro ⟨HcS7, HO⟩
  -- the shifted exponentials are kept in their scratch buffer
  iapply (wp_load 𝒱₀ (c : Thread nD τ) none Set.univ (m := eM) (Finset.subset_univ _)) $$ He; iintro He
  iapply (wp_store 𝒱₀ (c : Thread nD τ) none Set.univ (m := eM) (r := r2) (Mk := Finset.univ) (Finset.subset_univ _)) $$ He; iintro He
  rw [write_e]
  -- arrival 1
  iapply (wp_rwait m ρ K c 1 (by decide) _ recvA1_sem _ _ _ rfl) $$ [HcR1 HO HpR1]
  · isplitr; · iexact Hrec
    isplitl [HcR1]; · iexact HcR1
    isplitl [HO]; · iexact HO
    iexact HpR1
  iintro ⟨HO, HpR1, Hl1⟩
  -- arrival 2
  iapply (wp_rwait m ρ K c 2 (by decide) _ recvA2_sem _ _ _ rfl) $$ [HcR2 HO HpR2]
  · isplitr; · iexact Hrec
    isplitl [HcR2]; · iexact HcR2
    isplitl [HO]; · iexact HO
    iexact HpR2
  iintro ⟨HO, HpR2, Hl2⟩
  -- arrival 3
  iapply (wp_rwait m ρ K c 3 (by decide) _ recvA3_sem _ _ _ rfl) $$ [HcR3 HO HpR3]
  · isplitr; · iexact Hrec
    isplitl [HcR3]; · iexact HcR3
    isplitl [HO]; · iexact HO
    iexact HpR3
  iintro ⟨HO, HpR3, Hl3⟩
  -- arrival 4
  iapply (wp_rwait m ρ K c 4 (by decide) _ recvA4_sem _ _ _ rfl) $$ [HcR4 HO HpR4]
  · isplitr; · iexact Hrec
    isplitl [HcR4]; · iexact HcR4
    isplitl [HO]; · iexact HO
    iexact HpR4
  iintro ⟨HO, HpR4, Hl4⟩
  -- arrival 5
  iapply (wp_rwait m ρ K c 5 (by decide) _ recvA5_sem _ _ _ rfl) $$ [HcR5 HO HpR5]
  · isplitr; · iexact Hrec
    isplitl [HcR5]; · iexact HcR5
    isplitl [HO]; · iexact HO
    iexact HpR5
  iintro ⟨HO, HpR5, Hl5⟩
  -- arrival 6
  iapply (wp_rwait m ρ K c 6 (by decide) _ recvA6_sem _ _ _ rfl) $$ [HcR6 HO HpR6]
  · isplitr; · iexact Hrec
    isplitl [HcR6]; · iexact HcR6
    isplitl [HO]; · iexact HO
    iexact HpR6
  iintro ⟨HO, HpR6, Hl6⟩
  -- arrival 7
  iapply (wp_rwait m ρ K c 7 (by decide) _ recvA7_sem _ _ _ rfl) $$ [HcR7 HO HpR7]
  · isplitr; · iexact Hrec
    isplitl [HcR7]; · iexact HcR7
    isplitl [HO]; · iexact HO
    iexact HpR7
  iintro ⟨HO, HpR7, Hl7⟩
  -- departure 1
  iapply (wp_swait m ρ K c 1 (by decide) _ sendA1_sem _ _ _ rfl) $$ [HcS1 HO HpS1]
  · isplitr; · iexact Hrec
    isplitl [HcS1]; · iexact HcS1
    isplitl [HO]; · iexact HO
    iexact HpS1
  iintro ⟨HO, HpS1, Hq1⟩
  -- departure 2
  iapply (wp_swait m ρ K c 2 (by decide) _ sendA2_sem _ _ _ rfl) $$ [HcS2 HO HpS2]
  · isplitr; · iexact Hrec
    isplitl [HcS2]; · iexact HcS2
    isplitl [HO]; · iexact HO
    iexact HpS2
  iintro ⟨HO, HpS2, Hq2⟩
  -- departure 3
  iapply (wp_swait m ρ K c 3 (by decide) _ sendA3_sem _ _ _ rfl) $$ [HcS3 HO HpS3]
  · isplitr; · iexact Hrec
    isplitl [HcS3]; · iexact HcS3
    isplitl [HO]; · iexact HO
    iexact HpS3
  iintro ⟨HO, HpS3, Hq3⟩
  -- departure 4
  iapply (wp_swait m ρ K c 4 (by decide) _ sendA4_sem _ _ _ rfl) $$ [HcS4 HO HpS4]
  · isplitr; · iexact Hrec
    isplitl [HcS4]; · iexact HcS4
    isplitl [HO]; · iexact HO
    iexact HpS4
  iintro ⟨HO, HpS4, Hq4⟩
  -- departure 5
  iapply (wp_swait m ρ K c 5 (by decide) _ sendA5_sem _ _ _ rfl) $$ [HcS5 HO HpS5]
  · isplitr; · iexact Hrec
    isplitl [HcS5]; · iexact HcS5
    isplitl [HO]; · iexact HO
    iexact HpS5
  iintro ⟨HO, HpS5, Hq5⟩
  -- departure 6
  iapply (wp_swait m ρ K c 6 (by decide) _ sendA6_sem _ _ _ rfl) $$ [HcS6 HO HpS6]
  · isplitr; · iexact Hrec
    isplitl [HcS6]; · iexact HcS6
    isplitl [HO]; · iexact HO
    iexact HpS6
  iintro ⟨HO, HpS6, Hq6⟩
  -- departure 7
  iapply (wp_swait m ρ K c 7 (by decide) _ sendA7_sem _ _ _ rfl) $$ [HcS7 HO HpS7]
  · isplitr; · iexact Hrec
    isplitl [HcS7]; · iexact HcS7
    isplitl [HO]; · iexact HO
    iexact HpS7
  iintro ⟨HO, HpS7, Hq7⟩
  -- every round of the sixteen own cells is consumed: they close
  imod (close_own m ρ K c) $$ [HpS0 HpR0 HpS1 HpS2 HpS3 HpS4 HpS5 HpS6 HpS7 HpR1 HpR2 HpR3 HpR4 HpR5 HpR6 HpR7] with Hz
  · isplitr; · iexact Hrec
    isplitl [HpS0]; · iexact HpS0
    isplitl [HpR0]; · iexact HpR0
    isplitl [HpS1]; · iexact HpS1
    isplitl [HpS2]; · iexact HpS2
    isplitl [HpS3]; · iexact HpS3
    isplitl [HpS4]; · iexact HpS4
    isplitl [HpS5]; · iexact HpS5
    isplitl [HpS6]; · iexact HpS6
    isplitl [HpS7]; · iexact HpS7
    isplitl [HpR1]; · iexact HpR1
    isplitl [HpR2]; · iexact HpR2
    isplitl [HpR3]; · iexact HpR3
    isplitl [HpR4]; · iexact HpR4
    isplitl [HpR5]; · iexact HpR5
    isplitl [HpR6]; · iexact HpR6
    iexact HpR7
  -- the table buffer whole again, every table in its slot
  ihave Hs0 := (slot0_shares c _).2 $$ [Hq1 Hq2 Hq3 Hq4 Hq5 Hq6 Hq7 Hqr]
  ·
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    iexact Hqr
  ihave Ht := (table_split c _).2 $$ [Hs0 Hl1 Hl2 Hl3 Hl4 Hl5 Hl6 Hl7]
  ·
    isplitl [Hs0]; · iexact Hs0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    iexact Hl7
  -- the eight tables, the own maxima again, the exponentials; the rescaled block stored
  iapply (wp_load 𝒱₀ (c : Thread nD τ) none Set.univ (m := tM) (Finset.subset_univ _)) $$ Ht; iintro Ht
  rw [read_t]
  iapply (wp_load 𝒱₀ (c : Thread nD τ) none Set.univ (m := tM) (Finset.subset_univ _)) $$ Ht; iintro Ht
  iapply (wp_load 𝒱₀ (c : Thread nD τ) none Set.univ (m := eM) (Finset.subset_univ _)) $$ He; iintro He
  rw [read_e]
  iapply (wp_load 𝒱₀ (c : Thread nD τ) none Set.univ (m := oM) (Finset.subset_univ _)) $$ Hout; iintro Hout
  iapply (wp_store 𝒱₀ (c : Thread nD τ) none Set.univ (m := oM) (r := r2) (Mk := Finset.univ) (Finset.subset_univ _)) $$ Hout; iintro Hout
  rw [write_o, wp_ret]; imodintro
  unfold bodyPost Φ₁ Dat.owesAt Pipeline.owesWithin
  rw [show (dats m ρ 0 c).owed t₀.succ = 0 from rfl]
  isplitl [He Ht Hz]
  · isplitl [He]; · iexists _; iexact He
    isplitl [Ht]; · iexists _; iexact Ht
    iexact Hz
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  exact sound_body m ρ c

end Cert.Kernel.Dist

end
-- ==== Proof.SoftmaxMath.lean ====
import Idealize.ShloMosaic.PureOps.Ideal
import Idealize.ShloMosaic.PureOps.Ideal.Laws

/-!
One row of the softmax, computed two ways over the extended reals.

The row's 4096 entries are cut into eight blocks of 512. Computed blockwise, each block `e` gives its maximum and the sum
of its exponentials shifted by that maximum; the eight pairs are combined, in any order `σ` of the blocks, into the
row's maximum and the row's sum of exponentials shifted by it, and an entry's shifted exponential is rescaled by
`exp (own maximum - row maximum) / row sum`. Computed whole, the entry's exponential shifted by the row's maximum is
divided by the sum over all 4096 entries. For finite entries the two agree, by `exp (a + b) = exp a * exp b` and
distributivity, both of which need the entries real.
-/

noncomputable section

namespace Cert.SoftmaxMath

open Idealize.ShloMosaic

/-- The maximum of a finite family of extended reals, from `⊥`. -/
def fmax {ι : Type} [Fintype ι] (f : ι → EReal) : EReal := (Finset.univ : Finset ι).fold max ⊥ f

/-- A block's maximum. -/
def rowMax (b : Fin 512 → EReal) : EReal := fmax b

/-- A block's sum of exponentials shifted by its maximum. -/
def rowSum (b : Fin 512 → EReal) : EReal := ∑ j : Fin 512, Ideal.exp (b j - rowMax b)

/-- The row's maximum from the blocks' maxima, the blocks taken in the order `σ`. -/
def allMax (blk : Fin 8 → Fin 512 → EReal) (σ : Fin 8 → Fin 8) : EReal := fmax fun s : Fin 8 => rowMax (blk (σ s))

/-- Entry `j` of block `c`, blockwise. -/
def kernelRow (blk : Fin 8 → Fin 512 → EReal) (σ : Fin 8 → Fin 8) (c : Fin 8) (j : Fin 512) : EReal :=
  Ideal.exp (blk c j - rowMax (blk c))
    * Ideal.div (Ideal.exp (rowMax (blk c) - allMax blk σ))
        (∑ s : Fin 8, rowSum (blk (σ s)) * Ideal.exp (rowMax (blk (σ s)) - allMax blk σ))

/-- Entry `k` of the row, whole. -/
def refRow (flat : Fin 4096 → EReal) (k : Fin 4096) : EReal :=
  Ideal.div (Ideal.exp (flat k - fmax flat)) (0 + ∑ k' : Fin 4096, Ideal.exp (flat k' - fmax flat))

/-- `fmax` is the supremum of the family. -/
theorem fmax_eq_sup {ι : Type} [Fintype ι] (f : ι → EReal) : fmax f = Finset.univ.sup f := rfl

theorem fmax_le_iff {ι : Type} [Fintype ι] (f : ι → EReal) (a : EReal) : fmax f ≤ a ↔ ∀ i, f i ≤ a := by
  rw [fmax_eq_sup, Finset.sup_le_iff]
  exact ⟨fun h i => h i (Finset.mem_univ i), fun h i _ => h i⟩

theorem le_fmax {ι : Type} [Fintype ι] (f : ι → EReal) (i : ι) : f i ≤ fmax f := by
  rw [fmax_eq_sup]
  exact Finset.le_sup (Finset.mem_univ i)

/-- Over a nonempty index type the maximum of finite entries is one of them, so finite. -/
theorem fmax_coe {ι : Type} [Fintype ι] [Nonempty ι] (t : ι → ℝ) :
    ∃ m : ℝ, fmax (fun i => (t i : EReal)) = (m : EReal) := by
  obtain ⟨i, -, hi⟩ := Finset.exists_mem_eq_sup Finset.univ Finset.univ_nonempty (fun i => (t i : EReal))
  exact ⟨t i, by rw [fmax_eq_sup, hi]⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum over the row is the maximum over the blocks of the blocks' maxima, in any order of the blocks:
both are the least upper bound of the same entries. -/
theorem allMax_eq (flat : Fin 4096 → EReal) (blk : Fin 8 → Fin 512 → EReal)
    (hblk : ∀ (e : Fin 8) (j : Fin 512), blk e j = flat ⟨e.val * 512 + j.val, by omega⟩)
    (σ : Fin 8 → Fin 8) (hσ : Function.Bijective σ) : allMax blk σ = fmax flat := by
  apply le_antisymm
  · rw [allMax, fmax_le_iff]
    intro s
    rw [rowMax, fmax_le_iff]
    intro j
    rw [hblk]
    exact le_fmax flat _
  · rw [fmax_le_iff]
    intro k
    obtain ⟨s, hs⟩ := hσ.surjective ⟨k.val / 512, by omega⟩
    have hk : flat k = blk (σ s) ⟨k.val % 512, Nat.mod_lt _ (by norm_num)⟩ := by
      rw [hblk, hs]
      congr 1
      apply Fin.ext
      simp only
      omega
    rw [hk]
    exact (le_fmax (blk (σ s)) _).trans (le_fmax (fun s => rowMax (blk (σ s))) s)

/-- A sum over the row is the sum over the blocks of the sums over each block. -/
theorem sum_flat (flat : Fin 4096 → EReal) (blk : Fin 8 → Fin 512 → EReal)
    (hblk : ∀ (e : Fin 8) (j : Fin 512), blk e j = flat ⟨e.val * 512 + j.val, by omega⟩)
    (g : EReal → EReal) : ∑ k : Fin 4096, g (flat k) = ∑ e : Fin 8, ∑ j : Fin 512, g (blk e j) := by
  rw [← Fintype.sum_prod_type']
  symm
  refine Fintype.sum_equiv (finProdFinEquiv : Fin 8 × Fin 512 ≃ Fin (8 * 512)) _ _ ?_
  rintro ⟨e, j⟩
  rw [hblk]
  congr 2
  apply Fin.ext
  simp only [finProdFinEquiv, Equiv.coe_fn_mk]
  omega

/-- The identity over the reals: whatever shifts `m e` the blocks use and whatever shift `G` the row uses,
rescaling the blockwise exponentials gives the row's. -/
theorem real_softmax (t : Fin 8 → Fin 512 → ℝ) (m : Fin 8 → ℝ) (G : ℝ) (σ : Fin 8 → Fin 8)
    (hσ : Function.Bijective σ) (c : Fin 8) (j : Fin 512) :
    Real.exp (t c j - m c) * (Real.exp (m c - G)
        * (1 / ∑ s : Fin 8, (∑ j' : Fin 512, Real.exp (t (σ s) j' - m (σ s))) * Real.exp (m (σ s) - G)))
      = Real.exp (t c j - G) * (1 / ∑ e : Fin 8, ∑ j' : Fin 512, Real.exp (t e j' - G)) := by
  have hD : (∑ s : Fin 8, (∑ j' : Fin 512, Real.exp (t (σ s) j' - m (σ s))) * Real.exp (m (σ s) - G))
      = ∑ e : Fin 8, ∑ j' : Fin 512, Real.exp (t e j' - G) := by
    rw [← (Equiv.ofBijective σ hσ).sum_comp (fun e => ∑ j' : Fin 512, Real.exp (t e j' - G))]
    refine Finset.sum_congr rfl fun s _ => ?_
    rw [Finset.sum_mul]
    refine Finset.sum_congr rfl fun j' _ => ?_
    rw [← Real.exp_add, Equiv.ofBijective_apply]
    congr 1
    ring
  rw [hD, ← mul_assoc, ← Real.exp_add]
  congr 2
  ring

/-- For finite entries the blockwise softmax of a row is its whole softmax. -/
theorem row_softmax (flat : Fin 4096 → EReal) (blk : Fin 8 → Fin 512 → EReal)
    (hblk : ∀ (e : Fin 8) (j : Fin 512), blk e j = flat ⟨e.val * 512 + j.val, by omega⟩)
    (hfin : ∀ (e : Fin 8) (j : Fin 512), ∃ t : ℝ, blk e j = (t : EReal))
    (σ : Fin 8 → Fin 8) (hσ : Function.Bijective σ) (c : Fin 8) (j : Fin 512) :
    kernelRow blk σ c j = refRow flat ⟨c.val * 512 + j.val, by omega⟩ := by
  choose t ht using hfin
  -- every block's maximum is finite
  have hm : ∀ e, ∃ m : ℝ, rowMax (blk e) = (m : EReal) := fun e => by
    have he : blk e = fun j => (t e j : EReal) := funext (ht e)
    rw [he]
    exact fmax_coe (t e)
  choose m hm using hm
  -- so is the row's, and it is the same computed either way
  obtain ⟨G, hG⟩ : ∃ G : ℝ, allMax blk σ = (G : EReal) := by
    unfold allMax
    simp only [hm]
    exact fmax_coe _
  have hflat : fmax flat = (G : EReal) := (allMax_eq flat blk hblk σ hσ).symm.trans hG
  -- each block's sum of shifted exponentials is finite
  have hrs : ∀ e, rowSum (blk e) = ((∑ j' : Fin 512, Real.exp (t e j' - m e) : ℝ) : EReal) := by
    intro e
    unfold rowSum
    rw [coe_sum]
    refine Finset.sum_congr rfl fun j' _ => ?_
    rw [hm e, ht e j', ← EReal.coe_sub, Ideal.exp_coe]
  -- the two denominators are positive reals
  have hDpos : 0 < ∑ s : Fin 8, (∑ j' : Fin 512, Real.exp (t (σ s) j' - m (σ s))) * Real.exp (m (σ s) - G) :=
    Finset.sum_pos (fun s _ => mul_pos (Finset.sum_pos (fun _ _ => Real.exp_pos _) Finset.univ_nonempty)
      (Real.exp_pos _)) Finset.univ_nonempty
  have hEpos : 0 < ∑ e : Fin 8, ∑ j' : Fin 512, Real.exp (t e j' - G) :=
    Finset.sum_pos (fun e _ => Finset.sum_pos (fun _ _ => Real.exp_pos _) Finset.univ_nonempty)
      Finset.univ_nonempty
  -- blockwise
  have hk : kernelRow blk σ c j
      = ((Real.exp (t c j - m c) * (Real.exp (m c - G)
        * (1 / ∑ s : Fin 8, (∑ j' : Fin 512, Real.exp (t (σ s) j' - m (σ s))) * Real.exp (m (σ s) - G))) : ℝ)
          : EReal) := by
    unfold kernelRow
    simp only [hrs, hm, hG, ht, ← EReal.coe_sub, Ideal.exp_coe, ← EReal.coe_mul, ← coe_sum]
    rw [Ideal.div_coe hDpos.ne', ← EReal.coe_mul, ← EReal.coe_mul]
  -- whole
  have hr : refRow flat ⟨c.val * 512 + j.val, by omega⟩
      = ((Real.exp (t c j - G) * (1 / ∑ e : Fin 8, ∑ j' : Fin 512, Real.exp (t e j' - G)) : ℝ) : EReal) := by
    unfold refRow
    rw [zero_add, hflat, sum_flat flat blk hblk (fun x => Ideal.exp (x - (G : EReal))), ← hblk c j]
    simp only [ht, ← EReal.coe_sub, Ideal.exp_coe, ← coe_sum]
    rw [Ideal.div_coe hEpos.ne', ← EReal.coe_mul]
  rw [hk, hr, real_softmax t m G σ hσ c j]

end Cert.SoftmaxMath

end
-- ==== Proof.KernelValue.lean ====
import proofs.«901060_g7700000000001061_dist_softmax_colshard_i_m1024_n512_v7x_i8_f32_1_alg».proof.Proof.Vals
import proofs.«901060_g7700000000001061_dist_softmax_colshard_i_m1024_n512_v7x_i8_f32_1_alg».proof.Proof.SoftmaxMath
import Idealize.ShloMosaic.Lib.ValueIdx
import Idealize.ShloMosaic.Lib.ValueLayout
import Idealize.ShloMosaic.Lib.Pipeline.Value
import Idealize.ShloMosaic.PureOps.Ideal.Laws

/-!
The body's stored values read at an index, over the extended reals: an entry of a device's result block is the blockwise
softmax entry of `Cert.SoftmaxMath.kernelRow`, the eight blocks of the row taken in the order the tables land in the
device's table buffer.
-/

noncomputable section

namespace Cert.KernelValue

open Cert.KernelIdeal Cert.KernelIdeal.Gen Cert.KernelIdeal.Vals Cert.SoftmaxMath Idealize.ShloMosaic
open Idealize.ShloMosaic.ValueIdx

/-- The extended real the f32 pattern of negative infinity denotes. -/
theorem ofBits_negInf : Ideal.ofBits .f32 0xFF800000#32 = (⊥ : EReal) := by
  simp [Ideal.ofBits, Ideal.ieee]

theorem pay2_apply (x : Vec Ideal S1024x512 .f32) : k0_pay2 (F := Ideal) x = x := by
  unfold k0_pay2
  exact shapeCast_self _ _

theorem pay6_apply (x : FVec Ideal S1024x512 .f32) : k0_pay6 (F := Ideal) x = x := by
  unfold k0_pay6
  exact shapeCast_self _ _

/-- Over a row of a 1024 × 512 array, the index with column `k` inserted. -/
theorem lift_row (h : S1024x512.Reduces [1] S1024) (r : Fin 1024) (k : Fin 512) :
    h.lift (ix1 r) k = ix2 r k := by
  funext c
  match c with
  | ⟨0, _⟩ => exact Fin.ext rfl
  | ⟨1, _⟩ => exact Fin.ext rfl

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- Column 0 of the maxima column: each row's maximum. -/
theorem pay3_apply (x : FVec Ideal S1024x512 .f32) (r : Fin 1024) (u : Fin 1) :
    k0_pay3 (F := Ideal) x (ix2 r u) = rowMax (fun j => x (ix2 r j)) := by
  unfold k0_pay3
  refine (shapeCast_a_a1_apply _ _ r u).trans ?_
  refine (Ideal.multiReduction_maximumf_single _ _ _ _ _ (ix1 r)).trans ?_
  unfold rowMax fmax
  rw [Ideal.ofBits_def, ofBits_negInf]
  congr 1
  funext k
  exact congrArg x (lift_row _ r k)

/-- A `[1024, 1]` column broadcast over 512 columns reads its row's one entry. -/
theorem bcast_col_apply {α : Type} (v : S1024x1.Idx → α) (h : S1024x1.Broadcasts S1024x512) (r : Fin 1024) (j : Fin 512) :
    broadcastTo S1024x512 v h (ix2 r j) = v (ix2 r (0 : Fin 1)) :=
  broadcastTo_apply v h (ix2 r j) (ix2 r (0 : Fin 1)) fun a => match a with
    | ⟨0, _⟩ => rfl
    | ⟨1, _⟩ => rfl

/-- The shifted exponentials. -/
theorem pay4_apply (x : FVec Ideal S1024x512 .f32) (r : Fin 1024) (j : Fin 512) :
    k0_pay4 (F := Ideal) x (ix2 r j) = Ideal.exp (x (ix2 r j) - rowMax (fun j => x (ix2 r j))) := by
  unfold k0_pay4
  show Ideal.exp (x (ix2 r j) - broadcastTo S1024x512 (k0_pay3 x) _ (ix2 r j)) = _
  rw [bcast_col_apply, pay3_apply]

/-- Row 0 of a block's table: the row maxima. -/
theorem pay5_max (x : FVec Ideal S1024x512 .f32) (u : Fin 1) (r : Fin 1024) :
    k0_pay5 (F := Ideal) x (ix3 u (0 : Fin 2) r) = rowMax (fun j => x (ix2 r j)) := by
  unfold k0_pay5
  refine (shapeCast_ab_1ab_apply _ _ u (0 : Fin 2) r).trans ?_
  refine (transpose_ix2_apply _ _ (0 : Fin 2) r).trans ?_
  refine (concatenate_pair_apply_left (t := S1024x2) (s₁ := S1024x1) (s₂ := S1024x1) _ _ _ _
    (ix2 r (0 : Fin 2)) (by rfl) (ix2 r (0 : Fin 1)) fun b => ?_).trans ?_
  · match b with
    | ⟨0, _⟩ => rfl
    | ⟨1, _⟩ => rfl
  · exact pay3_apply x r 0

/-- Row 1 of a block's table: the sums of the shifted exponentials. -/
theorem pay5_sum (x : FVec Ideal S1024x512 .f32) (u : Fin 1) (r : Fin 1024) :
    k0_pay5 (F := Ideal) x (ix3 u (1 : Fin 2) r) = rowSum (fun j => x (ix2 r j)) := by
  unfold k0_pay5
  refine (shapeCast_ab_1ab_apply _ _ u (1 : Fin 2) r).trans ?_
  refine (transpose_ix2_apply _ _ (1 : Fin 2) r).trans ?_
  refine (concatenate_pair_apply_right (t := S1024x2) (s₁ := S1024x1) (s₂ := S1024x1) _ _ _ _
    (ix2 r (1 : Fin 2)) (by rfl) (by rfl) (ix2 r (0 : Fin 1)) (fun b hb => ?_) (by rfl)).trans ?_
  · match b with
    | ⟨0, _⟩ => rfl
    | ⟨1, _⟩ => exact absurd rfl hb
  · refine (shapeCast_a_a1_apply _ _ r 0).trans ?_
    refine (Ideal.multiReduction_add_single _ _ _ _ _ (ix1 r)).trans ?_
    unfold rowSum
    exact Finset.sum_congr rfl fun k _ =>
      (congrArg (k0_pay4 x) (lift_row _ r k)).trans (pay4_apply x r k)

/-- The index of the table buffer read inside its slot. -/
theorem inSlot_ix3 (d : Fin 8) (q : Fin 2) (r : Fin 1024) : inSlot (ix3 d q r) = ix3 (0 : Fin 1) q r := by
  funext a
  match a with
  | ⟨0, _⟩ => rfl
  | ⟨1, _⟩ => rfl
  | ⟨2, _⟩ => rfl

/-- Slot `d` of device `c`'s table buffer holds the table of the device `d` places before it. -/
theorem allStats_apply (xs : Dev nD → Vec Ideal S1024x512 .f32) (c : Dev nD) (d : Fin 8) (q : Fin 2) (r : Fin 1024) :
    allStats (F := Ideal) xs c (ix3 d q r) = statsOf (xs (back c d)) (ix3 (0 : Fin 1) q r) := by
  unfold allStats
  rw [inSlot_ix3]

/-- A block's table: row 0 the maxima, row 1 the sums. -/
theorem statsOf_max (x : Vec Ideal S1024x512 .f32) (u : Fin 1) (r : Fin 1024) :
    statsOf (F := Ideal) x (ix3 u (0 : Fin 2) r) = rowMax (fun j => x (ix2 r j)) := by
  unfold statsOf
  rw [pay2_apply]
  exact pay5_max x u r

theorem statsOf_sum (x : Vec Ideal S1024x512 .f32) (u : Fin 1) (r : Fin 1024) :
    statsOf (F := Ideal) x (ix3 u (1 : Fin 2) r) = rowSum (fun j => x (ix2 r j)) := by
  unfold statsOf
  rw [pay2_apply]
  exact pay5_sum x u r

theorem eOf_apply (x : Vec Ideal S1024x512 .f32) (r : Fin 1024) (j : Fin 512) :
    eOf (F := Ideal) x (ix2 r j) = Ideal.exp (x (ix2 r j) - rowMax (fun j => x (ix2 r j))) := by
  unfold eOf
  rw [pay6_apply, pay2_apply]
  exact pay4_apply x r j

/-- The first row of slot 0 of the table buffer, as it is loaded again. -/
theorem row0_apply (xs : Dev nD → Vec Ideal S1024x512 .f32) (c : Dev nD) (u v : Fin 1) (r : Fin 1024) :
    row0 (F := Ideal) xs c (ix3 u v r) = allStats xs c (ix3 (0 : Fin 8) (0 : Fin 2) r) := by
  unfold row0
  rw [View.readAt_apply]
  show allStats xs c _ = _
  refine congrArg (allStats xs c) (funext fun a => Fin.ext ?_)
  have hu : u.val = 0 := by omega
  have hv : v.val = 0 := by omega
  match a with
  | ⟨0, _⟩ => show 0 + 1 * u.val = 0; omega
  | ⟨1, _⟩ => show 0 + 1 * v.val = 0; omega
  | ⟨2, _⟩ => show 0 + 1 * r.val = r.val; omega

/-- Over the slots of an 8 × 1 × 1024 array, the index with slot `k` inserted. -/
theorem lift_slot (h : S8x1x1024.Reduces [0] S1x1024) (u : Fin 1) (r : Fin 1024) (k : Fin 8) :
    h.lift (ix2 u r) k = ix3 k u r := by
  funext c
  match c with
  | ⟨0, _⟩ => exact Fin.ext rfl
  | ⟨1, _⟩ => exact Fin.ext rfl
  | ⟨2, _⟩ => exact Fin.ext rfl

/-- Row 0 of every slot. -/
theorem slice_max_apply (S : Vec Ideal S8x2x1024 .f32) (h : S8x2x1024.Slices ![0, 0, 0] S8x1x1024)
    (k : Fin 8) (u : Fin 1) (r : Fin 1024) :
    extractStridedSlice S8x1x1024 ![0, 0, 0] S h (ix3 k u r) = S (ix3 k (0 : Fin 2) r) :=
  slice3_axis1_apply 0 S h k u r (0 : Fin 2) (by show 0 = 0 + u.val; omega)

/-- Row 1 of every slot. -/
theorem slice_sum_apply (S : Vec Ideal S8x2x1024 .f32) (h : S8x2x1024.Slices ![0, 1, 0] S8x1x1024)
    (k : Fin 8) (u : Fin 1) (r : Fin 1024) :
    extractStridedSlice S8x1x1024 ![0, 1, 0] S h (ix3 k u r) = S (ix3 k (1 : Fin 2) r) :=
  slice3_axis1_apply 1 S h k u r (1 : Fin 2) (by show 1 = 1 + u.val; omega)

/-- The maximum over the eight slots of a column of an 8 × 1 × 1024 array. -/
theorem slotMax_apply (v : FVec Ideal S8x1x1024 .f32) (h : S8x1x1024.Reduces [0] S1x1024) (hφ : FKind.Formats .f32)
    (hacc : (0xFF800000#32 : BitVec 32) = FKind.maximumf.neutral .f32 hφ) (u : Fin 1) (r : Fin 1024) :
    multiReduction (F := Ideal) .maximumf [0] S1x1024 v 0xFF800000#32 h hφ hacc (ix2 u r)
      = fmax (fun k : Fin 8 => v (ix3 k u r)) := by
  refine (Ideal.multiReduction_maximumf_single _ _ _ _ _ (ix2 u r)).trans ?_
  unfold fmax
  rw [Ideal.ofBits_def, ofBits_negInf]
  congr 1
  funext k
  exact congrArg v (lift_slot _ u r k)

/-- The sum over the eight slots of a column of an 8 × 1 × 1024 array. -/
theorem slotSum_apply (v : FVec Ideal S8x1x1024 .f32) (h : S8x1x1024.Reduces [0] S1x1024) (hφ : FKind.Formats .f32)
    (hacc : (0x00000000#32 : BitVec 32) = FKind.add.neutral .f32 hφ) (u : Fin 1) (r : Fin 1024) :
    multiReduction (F := Ideal) .add [0] S1x1024 v 0x00000000#32 h hφ hacc (ix2 u r)
      = ∑ k : Fin 8, v (ix3 k u r) := by
  refine (Ideal.multiReduction_add_single _ _ _ _ _ (ix2 u r)).trans ?_
  exact Finset.sum_congr rfl fun k _ => congrArg v (lift_slot _ u r k)

/-- A `[1, 1, 1024]` row broadcast over the eight slots reads its one row. -/
theorem bcast_slot_apply {α : Type} (v : S1x1x1024.Idx → α) (h : S1x1x1024.Broadcasts S8x1x1024)
    (k : Fin 8) (u : Fin 1) (r : Fin 1024) :
    broadcastTo S8x1x1024 v h (ix3 k u r) = v (ix3 (0 : Fin 1) (0 : Fin 1) r) :=
  broadcastTo_apply v h (ix3 k u r) (ix3 (0 : Fin 1) (0 : Fin 1) r) fun a => match a with
    | ⟨0, _⟩ => rfl
    | ⟨1, _⟩ => rfl
    | ⟨2, _⟩ => rfl

/-- The exponential of a vector, read at an index. -/
theorem exp_apply {s : Shape} {φ : FTy} (a : FVec Ideal s φ) (i : s.Idx) : exp a i = Ideal.exp (a i) := rfl

/-- The maximum over the eight slots of row 0 of the table buffer. -/
theorem tableMax_apply (S : Vec Ideal S8x2x1024 .f32) (h1 : S8x2x1024.Slices ![0, 0, 0] S8x1x1024)
    (h : S8x1x1024.Reduces [0] S1x1024) (hφ : FKind.Formats .f32)
    (hacc : (0xFF800000#32 : BitVec 32) = FKind.maximumf.neutral .f32 hφ) (u : Fin 1) (r : Fin 1024) :
    multiReduction (F := Ideal) .maximumf [0] S1x1024 (extractStridedSlice S8x1x1024 ![0, 0, 0] S h1)
        0xFF800000#32 h hφ hacc (ix2 u r)
      = fmax (fun k : Fin 8 => S (ix3 k (0 : Fin 2) r)) := by
  refine (slotMax_apply _ _ _ _ u r).trans ?_
  congr 1
  funext k
  exact slice_max_apply S _ k u r

/-- What is stored into the result block, from the table buffer `S`, its reloaded first row `s0` and the kept
    exponentials `e`. -/
theorem pay1_apply (S : Vec Ideal S8x2x1024 .f32) (s0 : Vec Ideal S1x1x1024 .f32) (e : Vec Ideal S1024x512 .f32)
    (r : Fin 1024) (j : Fin 512) :
    k0_pay1 (F := Ideal) S s0 e (ix2 r j)
      = e (ix2 r j) * Ideal.div
          (Ideal.exp (s0 (ix3 (0 : Fin 1) (0 : Fin 1) r) - fmax (fun k : Fin 8 => S (ix3 k (0 : Fin 2) r))))
          (∑ k : Fin 8, S (ix3 k (1 : Fin 2) r)
            * Ideal.exp (S (ix3 k (0 : Fin 2) r) - fmax (fun k : Fin 8 => S (ix3 k (0 : Fin 2) r)))) := by
  unfold k0_pay1
  refine (mulf_apply _ _ _).trans ?_
  refine congrArg (e (ix2 r j) * ·) ?_
  refine (bcast_col_apply _ _ r j).trans ?_
  refine (transpose_ix2_apply _ _ r (0 : Fin 1)).trans ?_
  refine (divf_apply _ _ _).trans ?_
  refine congrArg₂ Ideal.div ?_ ?_
  · rw [exp_apply, subf_apply, shapeCast_1ab_ab_apply]
    exact congrArg (fun m => Ideal.exp (s0 (ix3 (0 : Fin 1) (0 : Fin 1) r) - m)) (tableMax_apply S _ _ _ _ 0 r)
  · refine (slotSum_apply _ _ _ _ 0 r).trans ?_
    refine Finset.sum_congr rfl fun k _ => ?_
    rw [mulf_apply, exp_apply, subf_apply, slice_sum_apply, slice_max_apply, bcast_slot_apply,
      shapeCast_ab_1ab_apply]
    exact congrArg (fun m => S (ix3 k (1 : Fin 2) r) * Ideal.exp (S (ix3 k (0 : Fin 2) r) - m))
      (tableMax_apply S _ _ _ _ 0 r)

/-- Zero places before a device is the device itself. -/
theorem back_zero (c : Dev nD) : back c (0 : Fin 8) = c := by
  apply Fin.ext
  show (c.val + 8 - 0) % 8 = c.val
  have : c.val < 8 := c.isLt
  omega

/-- Entry `(r, j)` of what device `c` stores into its result block. -/
theorem outOf_apply (xs : Dev nD → Vec Ideal S1024x512 .f32) (c : Dev nD) (r : Fin 1024) (j : Fin 512) :
    outOf (F := Ideal) xs c (ValueIdx.ix2 r j)
      = kernelRow (fun e j => xs e (ValueIdx.ix2 r j)) (fun s => back c s) c j := by
  unfold outOf kernelRow
  rw [pay1_apply, eOf_apply, row0_apply]
  simp only [allStats_apply, statsOf_max, statsOf_sum, back_zero]
  rfl

end Cert.KernelValue

end
-- ==== Proof.Bridge.lean ====
import proofs.«901060_g7700000000001061_dist_softmax_colshard_i_m1024_n512_v7x_i8_f32_1_alg».proof.Proof.KernelValue
import proofs.«901060_g7700000000001061_dist_softmax_colshard_i_m1024_n512_v7x_i8_f32_1_alg».proof.Proof.Gen.ReferenceIdeal.Read
import proofs.«901060_g7700000000001061_dist_softmax_colshard_i_m1024_n512_v7x_i8_f32_1_alg».proof.Proof.Gen.Pre_finite_inputs_Kernel
import Idealize.ShloMosaic.Lib.Layout
import Idealize.ShloMosaic.Lib.ReduceAll

/-!
The kernel's result on device `c` is block `c` of the reference's softmax of the whole array, when every device's
input block is its block of the whole array and every entry is finite.
-/

noncomputable section

namespace Cert.Bridge

open Cert.KernelIdeal.Vals Cert.SoftmaxMath Idealize.ShloMosaic

/-! ### The reference, stage by stage at an index -/

/-- The f32 pattern of minus infinity is the bottom of the extended reals. -/
theorem ofBits_neg_inf : Ideal.ofBits .f32 0xFF800000#32 = ⊥ := by simp [Ideal.ofBits, Ideal.ieee]

/-- Dropping the column axis of the whole array's shape leaves its rows. -/
theorem redS : Cert.ReferenceIdeal.S1024x4096.Reduces [1] Cert.ReferenceIdeal.S1024 := by decide

/-- The reference's row maximum at row `r`: the fold of `max` from `⊥` over the row's 4096 entries. -/
theorem v0_apply (X : Vec Ideal Cert.ReferenceIdeal.S1024x4096 .f32) (r : Fin 1024) :
    Cert.ReferenceIdeal.Read.val_main_v0 (F := Ideal) X (ValueIdx.ix1 r) = fmax (fun k => X (ValueIdx.ix2 r k)) := by
  have e := Host.reduce_eq_fold_single (α := EReal) (s := Cert.ReferenceIdeal.S1024x4096) (t := Cert.ReferenceIdeal.S1024)
    (u := Cert.ReferenceIdeal.S_) (a := 1)
    (FloatOps.maximumf (F := Ideal) (φ := .f32)) X (Cert.ReferenceIdeal.Read.val_main_cst (F := Ideal))
    Cert.ReferenceIdeal.Gen.reducesTo_S1024x4096_S1024_d1 redS Cert.ReferenceIdeal.Gen.h_S_ (ValueIdx.ix1 r)
  refine e.trans ?_
  rw [Cert.ReferenceIdeal.Read.val_main_cst_apply]
  show Finset.fold max (Ideal.ofBits .f32 0xFF800000#32) (fun k : Fin 4096 => X (redS.lift (ValueIdx.ix1 r) k)) Finset.univ = _
  rw [ofBits_neg_inf]
  unfold fmax
  refine congrArg (fun f => Finset.fold max ⊥ f Finset.univ) (funext fun k => congrArg X ?_)
  funext a
  apply Fin.ext
  match a with
  | ⟨0, _⟩ => rfl
  | ⟨1, _⟩ => rfl

/-- Both broadcasts of a per-row value read it at the row. -/
theorem idx_bcast_max (r : Fin 1024) (k : Fin 4096) :
    Cert.ReferenceIdeal.Read.idx_main_v1 (Cert.ReferenceIdeal.Read.idx_main_v2 (ValueIdx.ix2 r k)) = ValueIdx.ix1 r := by
  funext a
  match a with
  | ⟨0, _⟩ => rfl

/-- The same for the row sums' two broadcasts. -/
theorem idx_bcast_sum (r : Fin 1024) (k : Fin 4096) :
    Cert.ReferenceIdeal.Read.idx_main_v6 (Cert.ReferenceIdeal.Read.idx_main_v7 (ValueIdx.ix2 r k)) = ValueIdx.ix1 r := by
  funext a
  match a with
  | ⟨0, _⟩ => rfl

/-- The row sum's `k`-th term is read at `(r, k)`. -/
theorem idx_sum_col (r : Fin 1024) (k : Fin 4096) :
    Cert.ReferenceIdeal.Read.idx_main_v5 (ValueIdx.ix1 r) k = ValueIdx.ix2 r k := by
  funext a
  apply Fin.ext
  match a with
  | ⟨0, _⟩ => rfl
  | ⟨1, _⟩ => rfl

/-- The reference's shifted exponential at `(r, k)`. -/
theorem v4_apply (X : Vec Ideal Cert.ReferenceIdeal.S1024x4096 .f32) (r : Fin 1024) (k : Fin 4096) :
    Cert.ReferenceIdeal.Read.val_main_v4 (F := Ideal) X (ValueIdx.ix2 r k)
      = Ideal.exp (X (ValueIdx.ix2 r k) - fmax (fun k => X (ValueIdx.ix2 r k))) := by
  rw [Cert.ReferenceIdeal.Read.val_main_v4_apply, Cert.ReferenceIdeal.Read.val_main_v3_apply,
    Cert.ReferenceIdeal.Read.val_main_v2_apply, Cert.ReferenceIdeal.Read.val_main_v1_apply, idx_bcast_max, v0_apply]
  rfl

/-- The reference's row sum of shifted exponentials at row `r`. -/
theorem v5_apply (X : Vec Ideal Cert.ReferenceIdeal.S1024x4096 .f32) (r : Fin 1024) :
    Cert.ReferenceIdeal.Read.val_main_v5 (F := Ideal) X (ValueIdx.ix1 r)
      = 0 + ∑ k' : Fin 4096, Ideal.exp (X (ValueIdx.ix2 r k') - fmax (fun k => X (ValueIdx.ix2 r k))) := by
  rw [Cert.ReferenceIdeal.Read.val_main_v5_apply, Cert.ReferenceIdeal.Read.val_main_cst_0_apply]
  refine congrArg₂ (· + ·) Ideal.ofBits_zero_f32 (Finset.sum_congr rfl fun k' _ => ?_)
  rw [idx_sum_col, v4_apply]

/-- Entry `(r, k)` of the reference's result: the whole-row softmax. -/
theorem ref_apply (X : Vec Ideal Cert.ReferenceIdeal.S1024x4096 .f32) (r : Fin 1024) (k : Fin 4096) :
    Cert.ReferenceIdeal.Read.val_main_v8 (F := Ideal) X (ValueIdx.ix2 r k) = refRow (fun k => X (ValueIdx.ix2 r k)) k := by
  rw [Cert.ReferenceIdeal.Read.val_main_v8_apply, Cert.ReferenceIdeal.Read.val_main_v7_apply,
    Cert.ReferenceIdeal.Read.val_main_v6_apply, idx_bcast_sum, v5_apply, v4_apply]
  rfl

/-! ### Finiteness read off the precondition -/

instance subsingleton_scalar_idx : Subsingleton Cert.Pre_finite_inputs_Kernel.S_.Idx := ⟨fun a b => funext fun d => d.elim0⟩

/-- The f32 pattern of plus infinity is the top of the extended reals. -/
theorem ofBits_pos_inf : Ideal.ofBits .f32 0x7F800000#32 = ⊤ := by simp [Ideal.ofBits, Ideal.ieee]

/-- An extended real whose absolute value is below `⊤` is a real. -/
theorem real_of_abs_lt_top (v : EReal) (h : Ideal.cmp .olt (max v (-v)) ⊤ = 1#1) : ∃ t : ℝ, v = (t : EReal) := by
  have h3 : max v (-v) < ⊤ := by
    by_contra hn
    simp [Ideal.cmp, hn] at h
  induction v using EReal.rec with
  | bot => simp at h3
  | coe t => exact ⟨t, rfl⟩
  | top => simp at h3

/-- The precondition's finiteness, entry by entry. -/
theorem finite_of_pre (x : Vec Ideal Cert.KernelIdeal.S1024x512 .f32)
    (h : Cert.Pre_finite_inputs_Kernel.fn (F := Ideal) x = fun _ => 1#1) (r : Fin 1024) (j : Fin 512) :
    ∃ t : ℝ, x (ValueIdx.ix2 r j) = (t : EReal) := by
  have h0 := congrFun h ValueIdx.ix0
  dsimp only [Cert.Pre_finite_inputs_Kernel.fn] at h0
  have h1 := Host.reduce_andi_all _ _ _ _ _ h0 (ValueIdx.ix2 r j)
  have h2 : Ideal.cmp .olt (max (x (ValueIdx.ix2 r j)) (-(x (ValueIdx.ix2 r j)))) (Ideal.ofBits .f32 0x7F800000#32) = 1#1 := h1
  rw [ofBits_pos_inf] at h2
  exact real_of_abs_lt_top _ h2

/-! ### The blocks of the whole array, and the order the ring delivers them in -/

/-- Entry `(r, j)` of column block `c` is entry `(r, c * 512 + j)` of the whole array. -/
theorem block_idx (h : Layout.Tiles ⟨2, ![1024, 512]⟩ ⟨2, ![1024, 4096]⟩ 1 8) (c : Fin 8) (r : Fin 1024) (j : Fin 512) :
    h.idx c (ValueIdx.ix2 r j) = ValueIdx.ix2 r (⟨c.val * 512 + j.val, by omega⟩ : Fin 4096) := by
  funext a
  apply Fin.ext
  match a with
  | ⟨0, _⟩ => rfl
  | ⟨1, _⟩ => rfl

/-- Walking back around the ring of eight from `c` visits every device once. -/
theorem back_bijective (c : Fin 8) : Function.Bijective (fun s : Fin 8 => back c s) := by
  rw [← Finite.injective_iff_bijective]
  intro s s' e
  have e' := congrArg Fin.val e
  simp only [back] at e'
  apply Fin.ext
  omega

/-- Device `c`'s stored result is its block of the reference's. -/
theorem out_block (X : Vec Ideal Cert.ReferenceIdeal.S1024x4096 .f32) (xs : Dev Cert.KernelIdeal.nD → Vec Ideal Cert.KernelIdeal.S1024x512 .f32)
    (hxs : ∀ c, xs c = Layout.block ⟨2, ![1024, 512]⟩ ⟨2, ![1024, 4096]⟩ 1 8 c X)
    (hfin : ∀ c, Cert.Pre_finite_inputs_Kernel.fn (F := Ideal) (xs c) = fun _ => 1#1) (c : Dev Cert.KernelIdeal.nD) :
    outOf (F := Ideal) xs c = Layout.block ⟨2, ![1024, 512]⟩ ⟨2, ![1024, 4096]⟩ 1 8 c (Cert.ReferenceIdeal.Read.val_main_v8 (F := Ideal) X) := by
  funext i
  obtain ⟨r, j, rfl⟩ : ∃ (r : Fin 1024) (j : Fin 512), i = ValueIdx.ix2 r j := ⟨i 0, i 1, ValueIdx.eq_ix2 i⟩
  rw [Cert.KernelValue.outOf_apply, Layout.block_apply, block_idx, ref_apply]
  refine row_softmax (fun k => X (ValueIdx.ix2 r k)) (fun e j => xs e (ValueIdx.ix2 r j)) (fun e j' => ?_)
    (fun e j' => finite_of_pre (xs e) (hfin e) r j') (fun s => back c s) (back_bijective c) c j
  show xs e (ValueIdx.ix2 r j') = X (ValueIdx.ix2 r ⟨e.val * 512 + j'.val, _⟩)
  rw [hxs e, Layout.block_apply, block_idx]

end Cert.Bridge

end
-- ==== Proof.lean ====
import proofs.«901060_g7700000000001061_dist_softmax_colshard_i_m1024_n512_v7x_i8_f32_1_alg».proof.Defs
import proofs.«901060_g7700000000001061_dist_softmax_colshard_i_m1024_n512_v7x_i8_f32_1_alg».proof.Proof.Gen.Kernel
import proofs.«901060_g7700000000001061_dist_softmax_colshard_i_m1024_n512_v7x_i8_f32_1_alg».proof.Proof.Gen.Kernel.Skeleton
import proofs.«901060_g7700000000001061_dist_softmax_colshard_i_m1024_n512_v7x_i8_f32_1_alg».proof.Proof.Gen.Kernel.Launch
import proofs.«901060_g7700000000001061_dist_softmax_colshard_i_m1024_n512_v7x_i8_f32_1_alg».proof.Proof.Gen.Kernel.Points
import proofs.«901060_g7700000000001061_dist_softmax_colshard_i_m1024_n512_v7x_i8_f32_1_alg».proof.Proof.Gen.Kernel.Frame
import proofs.«901060_g7700000000001061_dist_softmax_colshard_i_m1024_n512_v7x_i8_f32_1_alg».proof.Proof.Gen.KernelIdeal
import proofs.«901060_g7700000000001061_dist_softmax_colshard_i_m1024_n512_v7x_i8_f32_1_alg».proof.Proof.Gen.KernelIdeal.Skeleton
import proofs.«901060_g7700000000001061_dist_softmax_colshard_i_m1024_n512_v7x_i8_f32_1_alg».proof.Proof.Gen.KernelIdeal.Launch
import proofs.«901060_g7700000000001061_dist_softmax_colshard_i_m1024_n512_v7x_i8_f32_1_alg».proof.Proof.Gen.KernelIdeal.Points
import proofs.«901060_g7700000000001061_dist_softmax_colshard_i_m1024_n512_v7x_i8_f32_1_alg».proof.Proof.Gen.KernelIdeal.Frame
import proofs.«901060_g7700000000001061_dist_softmax_colshard_i_m1024_n512_v7x_i8_f32_1_alg».proof.Proof.Gen.ReferenceIdeal
import proofs.«901060_g7700000000001061_dist_softmax_colshard_i_m1024_n512_v7x_i8_f32_1_alg».proof.Proof.Gen.Pre_finite_inputs_Kernel
import proofs.«901060_g7700000000001061_dist_softmax_colshard_i_m1024_n512_v7x_i8_f32_1_alg».proof.Proof.Gen.Pre_finite_inputs_ReferenceIdeal
import proofs.«901060_g7700000000001061_dist_softmax_colshard_i_m1024_n512_v7x_i8_f32_1_alg».proof.Proof.Launch
import proofs.«901060_g7700000000001061_dist_softmax_colshard_i_m1024_n512_v7x_i8_f32_1_alg».proof.Proof.Body
import proofs.«901060_g7700000000001061_dist_softmax_colshard_i_m1024_n512_v7x_i8_f32_1_alg».proof.Proof.KLaunch
import proofs.«901060_g7700000000001061_dist_softmax_colshard_i_m1024_n512_v7x_i8_f32_1_alg».proof.Proof.KBody
import proofs.«901060_g7700000000001061_dist_softmax_colshard_i_m1024_n512_v7x_i8_f32_1_alg».proof.Proof.Bridge
import proofs.«901060_g7700000000001061_dist_softmax_colshard_i_m1024_n512_v7x_i8_f32_1_alg».proof.Proof.Gen.ReferenceIdeal.Run
import proofs.«901060_g7700000000001061_dist_softmax_colshard_i_m1024_n512_v7x_i8_f32_1_alg».proof.Proof.Gen.ReferenceIdeal.Read
import Idealize.ShloMosaic.Adequacy
import Idealize.ShloMosaic.Init

/-!
A softmax over the 4096 columns of a 1024 × 4096 array, the columns cut into eight blocks of 512, one per device. Each
device reduces its own block to every row's maximum and sum of exponentials shifted by that maximum; the eight devices
exchange these tables around the ring, and each rescales its own shifted exponentials by
`exp (own maximum - row maximum) / row sum`. Over the extended reals, for finite entries, that is the block of the
whole array's softmax: the exponential shifted by the whole row's maximum over the whole row's sum.
-/

noncomputable section

namespace Cert.Proof

open Idealize.ShloMosaic Idealize.SL.Sem

/-- The word-level program runs to the end and leaves every device's input block unchanged. -/
theorem frame_K : Cert.frame_Kernel (hKernel := Cert.Kernel.Gen.facts)
    (hPre_finite_inputs_Kernel := Cert.Pre_finite_inputs_Kernel.Gen.facts) :=
  fun m g _ => (θ_run Cert.Kernel.defs _ _).mono
    (fun r h c => (h c 0).trans (Cert.Kernel.Dist.finalA_x m g c))
    (Cert.Kernel.Dist.run_main (F := Bits) m g (Cert.Kernel.Dist.body_obligation m g))

/-- The program over the extended reals runs to the end and leaves every device's input block unchanged. -/
theorem frame_KI : Cert.frame_KernelIdeal (hKernelIdeal := Cert.KernelIdeal.Gen.facts)
    (hPre_finite_inputs_Kernel := Cert.Pre_finite_inputs_Kernel.Gen.facts) :=
  fun m g _ => (θ_run Cert.KernelIdeal.defs _ _).mono
    (fun r h c => (h c 0).trans (Cert.KernelIdeal.Dist.finalA_x m g c))
    (Cert.KernelIdeal.Dist.run_main (F := Ideal) m g (Cert.KernelIdeal.Dist.body_obligation m g))

/-- The reference runs to the end and leaves its input array unchanged. -/
theorem frame_RI : Cert.frame_ReferenceIdeal (hReferenceIdeal := Cert.ReferenceIdeal.Gen.facts)
    (hPre_finite_inputs_ReferenceIdeal := Cert.Pre_finite_inputs_ReferenceIdeal.Gen.facts) :=
  fun m g _ => (θ_run Cert.ReferenceIdeal.defs _ _).mono (fun _ h c => (h c).2)
    (Cert.ReferenceIdeal.Value.run (F := Ideal) m g)

/-- From input blocks that are the blocks of the reference's input array, all entries finite, every device's result block
    is its block of the reference's result. -/
theorem alg : Cert.algebraic_KernelIdeal_ReferenceIdeal (hKernelIdeal := Cert.KernelIdeal.Gen.facts)
    (hReferenceIdeal := Cert.ReferenceIdeal.Gen.facts) (hPre_finite_inputs_Kernel := Cert.Pre_finite_inputs_Kernel.Gen.facts) :=
  fun m g m' g' hpre hagree =>
    ⟨Cert.ReferenceIdeal.Read.val_main_v8 (F := Ideal)
        (m' (((0 : Dev Cert.ReferenceIdeal.nD).tc : Thread Cert.ReferenceIdeal.nD Cert.ReferenceIdeal.τ).loc Cert.ReferenceIdeal.main_arg0)),
      (θ_run Cert.KernelIdeal.defs _ _).mono
        (fun r h c =>
          ⟨(h c 1).trans ((Cert.KernelIdeal.Dist.finalA_out m g c).trans
              (Cert.Bridge.out_block _ (Cert.KernelIdeal.Dist.xs m g)
                (fun c => (Cert.KernelIdeal.Dist.xstg_eq m g c).trans (hagree c))
                (fun c => (congrArg (Cert.Pre_finite_inputs_Kernel.fn (F := Ideal)) (Cert.KernelIdeal.Dist.xstg_eq m g c)).trans (hpre c)) c)),
            (h c 0).trans (Cert.KernelIdeal.Dist.finalA_x m g c)⟩)
        (Cert.KernelIdeal.Dist.run_main (F := Ideal) m g (Cert.KernelIdeal.Dist.body_obligation m g)),
      (θ_run Cert.ReferenceIdeal.defs _ _).mono
        (fun _ h => ⟨(h 0).1.trans (Cert.ReferenceIdeal.Read.val_main_v8_eq _), (h 0).2⟩)
        (Cert.ReferenceIdeal.Value.run (F := Ideal) m' g')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_K, frame_KI, frame_RI, trivial, alg⟩

end Cert.Proof

end
